-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S_ : Shape := ⟨0, ![]⟩
abbrev S1024 : Shape := ⟨1, ![1024]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S4096x1024_S1024_d0 : S4096x1024.ReducesTo [0] S1024
  bcast_S_S1024 : S_.BroadcastsInDim S1024 (![] : Fin 0 → Fin S1024.rank)
  reducesTo_S1024_S_d0 : S1024.ReducesTo [0] S_

variable [Facts]

def fn_part2 {F : FTy → Type} [FloatOps F] (main_arg2 : FVec F S4096x1024 .f32) (main_v33 : IVec S_ 1) : IVec S_ 1 :=
  let main_v34 : FVec F S4096x1024 .f32 := mulf main_arg2 main_arg2
  let main_cst_12 : FVec F S_ .f32 := constant S_ .f32 0x00000000#32
  let main_v35 : FVec F S1024 .f32 := (fun x v => Host.reduceAdd x v reducesTo_S4096x1024_S1024_d0 h_S_) main_v34 main_cst_12
  let main_cst_13 : FVec F S_ .f32 := constant S_ .f32 0x00000000#32
  let main_v36 : FVec F S1024 .f32 := broadcastInDim S1024 ![] bcast_S_S1024 main_cst_13
  let main_v37 : IVec S1024 1 := cmpf .ogt main_v35 main_v36
  let main_c_14 : IVec S_ 1 := constantI S_ 1 1#1
  let main_v38 : IVec S_ 1 := (fun x v => Host.reduce IntOp.andi x v reducesTo_S1024_S_d0 h_S_) main_v37 main_c_14
  let main_v39 : IVec S_ 1 := andi main_v33 main_v38
  main_v39

def fn_part1 {F : FTy → Type} [FloatOps F] (main_arg2 : FVec F S4096x1024 .f32) (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg2 main_v33

def fn {F : FTy → Type} [FloatOps F] (main_arg0 : FVec F S10000x256 .f32) (main_arg1 : FVec F S1024x256 .f32) (main_arg2 : FVec F S4096x1024 .f32) (main_arg3 : FVec F S256x256 .f32) (main_arg4 : FVec F S256 .f32) (main_arg5 : FVec F S256x256 .f32) (main_arg6 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg2 main_arg4 main_arg5 main_arg6 main_v13 main_v16
-- ==== Kernel.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S1x256 : Shape := ⟨2, ![1, 256]⟩
abbrev S1024x1024 : Shape := ⟨2, ![1024, 1024]⟩
abbrev S1000x256 : Shape := ⟨2, ![1000, 256]⟩
abbrev S512x512 : Shape := ⟨2, ![512, 512]⟩
abbrev S1024x384 : Shape := ⟨2, ![1024, 384]⟩
abbrev S1024x512 : Shape := ⟨2, ![1024, 512]⟩
abbrev S512 : Shape := ⟨1, ![512]⟩
abbrev S512x256 : Shape := ⟨2, ![512, 256]⟩
abbrev S512x1 : Shape := ⟨2, ![512, 1]⟩
abbrev S1024x128 : Shape := ⟨2, ![1024, 128]⟩
abbrev S1000x1024 : Shape := ⟨2, ![1000, 1024]⟩
abbrev S1000x384 : Shape := ⟨2, ![1000, 384]⟩
abbrev S1000x1 : Shape := ⟨2, ![1000, 1]⟩

abbrev nBuf : Space → Nat
  | .hbm => 10
  | .vmem => 16
  | .smem => 0
  | _ => 0

abbrev bufTy : (tb : Table) → Fin (tcTables nBuf tb) → BufTy
  | .hbm, ⟨0, _⟩ => ⟨S10000x256, .f32⟩
  | .hbm, ⟨1, _⟩ => ⟨S1024x256, .f32⟩
  | .hbm, ⟨2, _⟩ => ⟨S4096x1024, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S10000x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S256x256, .f32⟩
  | .local _ .vmem, ⟨4, _⟩ => ⟨S1x256, .f32⟩
  | .local _ .vmem, ⟨5, _⟩ => ⟨S1000x256, .f32⟩
  | .local _ .vmem, ⟨6, _⟩ => ⟨S1000x256, .f32⟩
  | .local _ .vmem, ⟨7, _⟩ => ⟨S256x256, .f32⟩
  | .local _ .vmem, ⟨8, _⟩ => ⟨S1x256, .f32⟩
  | .local _ .vmem, ⟨9, _⟩ => ⟨S1000x256, .f32⟩
  | .local _ .vmem, ⟨10, _⟩ => ⟨S1000x256, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1024x384, .bf16⟩
  | .local _ .vmem, ⟨15, _⟩ => ⟨S1024x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![14], ![false]⟩

def k0_cond4 (i : grid0.Coords) : BitVec 1 :=
  let arg0 : BitVec 32 := BitVec.ofNat 32 (i 0).val
  let c4_i32_4 : BitVec 32 := 4#32
  let v11 : BitVec 1 := Scalar.cmpi .sge arg0 c4_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256_S1x256 : S256.ShapeCasts S1x256
  inb_S1024x1024_S1024x512_0_0 : ∀ a, (![0, 0] : Fin 2 → Nat) a + S1024x512.size a ≤ S1024x1024.size a
  h_S1024x512 : 0 < S1024x512.numel
  bitsLt_bf16_f32 : FTy.bits .bf16 < FTy.bits .f32
  inb_S1024x1024_S1024x512_0_512 : ∀ a, (![0, 512] : Fin 2 → Nat) a + S1024x512.size a ≤ S1024x1024.size a
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [0] S512
  reduces_S512x512_S512_2 : S512x512.Reduces [1] S512
  inb_S1024x256_S1024x256_0_0 : ∀ a, (![0, 0] : Fin 2 → Nat) a + S1024x256.size a ≤ S1024x256.size a
  h_S1024x256 : 0 < S1024x256.numel
  slices_S1024x256_o0_0_S512x256 : S1024x256.Slices ![0, 0] S512x256
  shapeCasts_S512_S512x1 : S512.ShapeCasts S512x1
  broadcasts_S512x1_S512x256 : S512x1.Broadcasts S512x256
  slices_S1024x256_o512_0_S512x256 : S1024x256.Slices ![512, 0] S512x256
  inb_S1024x384_S512x256_0_0 : ∀ a, (![0, 0] : Fin 2 → Nat) a + S512x256.size a ≤ S1024x384.size a
  h_S512x256 : 0 < S512x256.numel
  shapeCasts_S512x256_S512x256 : S512x256.ShapeCasts S512x256
  packedbf16_S1024x384_S512x256_0_0 : (Rect.unit (s := S1024x384) ![0, 0] S512x256.size inb_S1024x384_S512x256_0_0).PackedRows (EltTy.packing .bf16)
  inb_S1024x384_S512x256_512_0 : ∀ a, (![512, 0] : Fin 2 → Nat) a + S512x256.size a ≤ S1024x384.size a
  packedbf16_S1024x384_S512x256_512_0 : (Rect.unit (s := S1024x384) ![512, 0] S512x256.size inb_S1024x384_S512x256_512_0).PackedRows (EltTy.packing .bf16)
  inb_S1024x384_S1024x128_0_256 : ∀ a, (![0, 256] : Fin 2 → Nat) a + S1024x128.size a ≤ S1024x384.size a
  h_S1024x128 : 0 < S1024x128.numel
  shapeCasts_S1024x128_S1024x128 : S1024x128.ShapeCasts S1024x128
  packedbf16_S1024x384_S1024x128_0_256 : (Rect.unit (s := S1024x384) ![0, 256] S1024x128.size inb_S1024x384_S1024x128_0_256).PackedRows (EltTy.packing .bf16)
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S1000x256_S1000x256_0_0 : ∀ a, (![0, 0] : Fin 2 → Nat) a + S1000x256.size a ≤ S1000x256.size a
  h_S1000x256 : 0 < S1000x256.numel
  broadcasts_S1x256_S1000x256 : S1x256.Broadcasts S1000x256
  inb_S1024x384_S1024x384_0_0 : ∀ a, (![0, 0] : Fin 2 → Nat) a + S1024x384.size a ≤ S1024x384.size a
  h_S1024x384 : 0 < S1024x384.numel
  slices_S1000x384_o0_0_S1000x256 : S1000x384.Slices ![0, 0] S1000x256
  slices_S1000x384_o0_256_S1000x1 : S1000x384.Slices ![0, 256] S1000x1
  broadcasts_S1000x1_S1000x256 : S1000x1.Broadcasts S1000x256
  dot_S1024x512_S1024x512_S512x512_0_0_1_1_n_n_wf : DotDims.WF S1024x512 S1024x512 S512x512 [0] [0] [1] [1] [] []
  dot_S512x512_S512x256_S512x256_1_0_0_1_n_n_wf : DotDims.WF S512x512 S512x256 S512x256 [1] [0] [0] [1] [] []
  dot_S512x512_S512x256_S512x256_0_0_1_1_n_n_wf : DotDims.WF S512x512 S512x256 S512x256 [0] [0] [1] [1] [] []
  dot_S1024x256_S256x256_S1024x256_1_1_0_0_n_n_wf : DotDims.WF S1024x256 S256x256 S1024x256 [1] [1] [0] [0] [] []
  dot_S1000x256_S256x256_S1000x256_1_1_0_0_n_n_wf : DotDims.WF S1000x256 S256x256 S1000x256 [1] [1] [0] [0] [] []
  dot_S1000x256_S1024x256_S1000x1024_1_1_0_0_n_n_wf : DotDims.WF S1000x256 S1024x256 S1000x1024 [1] [1] [0] [0] [] []
  dot_S1000x1024_S1024x384_S1000x384_1_0_0_1_n_n_wf : DotDims.WF S1000x1024 S1024x384 S1000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S10000x256.size a
  hwx0_4 : ∀ i : grid0.Coords, EltTy.bits .f32 = 32 ∨ (Rect.block (s := S10000x256) S1000x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x256.size a ≤ S10000x256.size a
  hwx0_7 : ∀ i : grid0.Coords, EltTy.bits .f32 = 32 ∨ (Rect.block (s := S10000x256) S1000x256.size (cc0_transform_7 i) (hinb0_7 i)).WholeWords (EltTy.packing .f32)

variable [Facts₀]

def dot_S1024x512_S1024x512_S512x512_0_0_1_1_n_n : DotDims S1024x512 S1024x512 S512x512 where
  lhsContracting := [0]
  rhsContracting := [0]
  lhsNonContracting := [1]
  rhsNonContracting := [1]
  lhsBatch := []
  rhsBatch := []
  wf := dot_S1024x512_S1024x512_S512x512_0_0_1_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x512_S512x256_S512x256_0_0_1_1_n_n : DotDims S512x512 S512x256 S512x256 where
  lhsContracting := [0]
  rhsContracting := [0]
  lhsNonContracting := [1]
  rhsNonContracting := [1]
  lhsBatch := []
  rhsBatch := []
  wf := dot_S512x512_S512x256_S512x256_0_0_1_1_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S1000x256_S256x256_S1000x256_1_1_0_0_n_n : DotDims S1000x256 S256x256 S1000x256 where
  lhsContracting := [1]
  rhsContracting := [1]
  lhsNonContracting := [0]
  rhsNonContracting := [0]
  lhsBatch := []
  rhsBatch := []
  wf := dot_S1000x256_S256x256_S1000x256_1_1_0_0_n_n_wf
def dot_S1000x256_S1024x256_S1000x1024_1_1_0_0_n_n : DotDims S1000x256 S1024x256 S1000x1024 where
  lhsContracting := [1]
  rhsContracting := [1]
  lhsNonContracting := [0]
  rhsNonContracting := [0]
  lhsBatch := []
  rhsBatch := []
  wf := dot_S1000x256_S1024x256_S1000x1024_1_1_0_0_n_n_wf
def dot_S1000x1024_S1024x384_S1000x384_1_0_0_1_n_n : DotDims S1000x1024 S1024x384 S1000x384 where
  lhsContracting := [1]
  rhsContracting := [0]
  lhsNonContracting := [0]
  rhsNonContracting := [1]
  lhsBatch := []
  rhsBatch := []
  wf := dot_S1000x1024_S1024x384_S1000x384_1_0_0_1_n_n_wf

abbrev win0_0 : Pipeline.Window sig grid0 :=
  Pipeline.Window.ofSpec (Memref.whole main_arg2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S1000x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond4 i == 1#1) | ⟨_ + 8, h⟩ => absurd h (Nat.not_lt.2 (Nat.le_add_left _ _))

class Facts : Prop extends Facts₀ where

variable [Facts]
-- ==== ReferenceIdeal.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S1x256 : Shape := ⟨2, ![1, 256]⟩
abbrev S256x1024 : Shape := ⟨2, ![256, 1024]⟩
abbrev S10000x1024 : Shape := ⟨2, ![10000, 1024]⟩
abbrev S_ : Shape := ⟨0, ![]⟩
abbrev S10000 : Shape := ⟨1, ![10000]⟩
abbrev S10000x1 : Shape := ⟨2, ![10000, 1]⟩
abbrev S1024x4096 : Shape := ⟨2, ![1024, 4096]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S1024x256, .f32⟩
  | .hbm, ⟨2, _⟩ => ⟨S4096x1024, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S10000x256, .f32⟩
  | .hbm, ⟨9, _⟩ => ⟨S1x256, .f32⟩
  | .hbm, ⟨10, _⟩ => ⟨S10000x256, .f32⟩
  | .hbm, ⟨11, _⟩ => ⟨S10000x256, .f32⟩
  | .hbm, ⟨12, _⟩ => ⟨S256x256, .f32⟩
  | .hbm, ⟨13, _⟩ => ⟨S1024x256, .f32⟩
  | .hbm, ⟨14, _⟩ => ⟨S1x256, .f32⟩
  | .hbm, ⟨15, _⟩ => ⟨S1024x256, .f32⟩
  | .hbm, ⟨16, _⟩ => ⟨S1024x256, .f32⟩
  | .hbm, ⟨17, _⟩ => ⟨S256x1024, .f32⟩
  | .hbm, ⟨18, _⟩ => ⟨S10000x1024, .f32⟩
  | .hbm, ⟨19, _⟩ => ⟨S_, .f32⟩
  | .hbm, ⟨20, _⟩ => ⟨S10000x1024, .f32⟩
  | .hbm, ⟨21, _⟩ => ⟨S10000x1024, .f32⟩
  | .hbm, ⟨22, _⟩ => ⟨S_, .f32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S10000x1024, .f32⟩
  | .hbm, ⟨29, _⟩ => ⟨S10000x1024, .f32⟩
  | .hbm, ⟨30, _⟩ => ⟨S10000x1024, .f32⟩
  | .hbm, ⟨31, _⟩ => ⟨S_, .f32⟩
  | .hbm, ⟨32, _⟩ => ⟨S10000, .f32⟩
  | .hbm, ⟨33, _⟩ => ⟨S10000x1, .f32⟩
  | .hbm, ⟨34, _⟩ => ⟨S10000x1024, .f32⟩
  | .hbm, ⟨35, _⟩ => ⟨S10000x1024, .f32⟩
  | .hbm, ⟨36, _⟩ => ⟨S1024x4096, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S1024x1024, .f32⟩
  | .hbm, ⟨43, _⟩ => ⟨S1024x1024, .f32⟩
  | .hbm, ⟨44, _⟩ => ⟨S1024x256, .f32⟩
  | .hbm, ⟨45, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S1x256_S1024x256_0_1 : S1x256.BroadcastsInDim S1024x256 (![0, 1] : Fin 2 → Fin S1024x256.rank)
  transposes_S1024x256_S256x1024_1_0 : S1024x256.Transposes [1, 0] S256x1024
  bcast_S_S10000x1024 : S_.BroadcastsInDim S10000x1024 (![] : Fin 0 → Fin S10000x1024.rank)
  reducesTo_S10000x1024_S10000_d1 : S10000x1024.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x1024_0_1 : S10000x1.BroadcastsInDim S10000x1024 (![0, 1] : Fin 2 → Fin S10000x1024.rank)
  transposes_S4096x1024_S1024x4096_1_0 : S4096x1024.Transposes [1, 0] S1024x4096
  reducesTo_S1024x1024_S1024_d0 : S1024x1024.ReducesTo [0] S1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  dot_S10000x256_S256x256_S10000x256_1_0_0_1_n_n_wf : DotDims.WF S10000x256 S256x256 S10000x256 [1] [0] [0] [1] [] []
  dot_S1024x256_S256x256_S1024x256_1_0_0_1_n_n_wf : DotDims.WF S1024x256 S256x256 S1024x256 [1] [0] [0] [1] [] []
  dot_S10000x256_S256x1024_S10000x1024_1_0_0_1_n_n_wf : DotDims.WF S10000x256 S256x1024 S10000x1024 [1] [0] [0] [1] [] []
  dot_S1024x4096_S4096x1024_S1024x1024_1_0_0_1_n_n_wf : DotDims.WF S1024x4096 S4096x1024 S1024x1024 [1] [0] [0] [1] [] []
  dot_S1024x1024_S1024x256_S1024x256_1_0_0_1_n_n_wf : DotDims.WF S1024x1024 S1024x256 S1024x256 [1] [0] [0] [1] [] []
  dot_S10000x1024_S1024x256_S10000x256_1_0_0_1_n_n_wf : DotDims.WF S10000x1024 S1024x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S10000x256_S256x1024_S10000x1024_1_0_0_1_n_n : DotDims S10000x256 S256x1024 S10000x1024 where
  lhsContracting := [1]
  rhsContracting := [0]
  lhsNonContracting := [0]
  rhsNonContracting := [1]
  lhsBatch := []
  rhsBatch := []
  wf := dot_S10000x256_S256x1024_S10000x1024_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S10000x1024_S1024x256_S10000x256_1_0_0_1_n_n : DotDims S10000x1024 S1024x256 S10000x256 where
  lhsContracting := [1]
  rhsContracting := [0]
  lhsNonContracting := [0]
  rhsNonContracting := [1]
  lhsBatch := []
  rhsBatch := []
  wf := dot_S10000x1024_S1024x256_S10000x256_1_0_0_1_n_n_wf

class Facts : Prop extends Facts₀ where

variable [Facts]
-- ==== Proof.BodyBits.Shared.lean ====
/-
  What the four runs of the fused kernel's body share: the four branch conditions as the body computes them from
  the grid coordinate, with the points at which each holds; where the output window is idle; the staging and
  scratch memrefs the pipeline hands the body; and the region's invariant with the five scratch buffers named.
  The grid has 14 points: point 0 starts the Gram accumulators, points 1 to 3 add to them, point 3 also turns
  them into the mixing matrix and the keys, and points 4 to 13 compute one block of the output each.
-/
import proofs.«138382_g52209622450808_cont_9to1_m_767_28_alg».proof.Proof.Gen.Kernel.Frame
import proofs.«138382_g52209622450808_cont_9to1_m_767_28_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The first branch is taken (the Gram accumulators are started): the coordinate is 0. -/
abbrev cond1 (i : grid0.Coords) : Prop :=
  (Scalar.cmpi .ne (Scalar.extui (Scalar.cmpi .eq (BitVec.ofNat 32 (i 0).val) 0#32)) 0#32) = 1#1
/-- The second branch is taken (a chunk's products are added to the accumulators): the coordinate is 1, 2 or 3. -/
abbrev cond2 (i : grid0.Coords) : Prop :=
  (Scalar.cmpi .ne (Scalar.extui (Scalar.andi (Scalar.cmpi .sgt (BitVec.ofNat 32 (i 0).val) 0#32) (Scalar.cmpi .slt (BitVec.ofNat 32 (i 0).val) 4#32))) 0#32) = 1#1
/-- The third branch is taken (the mixing matrix and the keys are made): the coordinate is 3. -/
abbrev cond3 (i : grid0.Coords) : Prop :=
  (Scalar.cmpi .ne (Scalar.extui (Scalar.cmpi .eq (BitVec.ofNat 32 (i 0).val) 3#32)) 0#32) = 1#1
/-- The fourth branch is taken (a block of the output is computed): the coordinate is at least 4. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ (1 ≤ t.val ∧ t.val ≤ 3) :=
  (by decide +kernel : ∀ t : Fin grid0.N, cond2 (grid0.coords t) ↔ (1 ≤ t.val ∧ t.val ≤ 3))
theorem hcond3 : ∀ t : Fin cfg0.N, cond3 (grid0.coords t) ↔ t.val = 3 :=
  (by decide +kernel : ∀ t : Fin grid0.N, cond3 (grid0.coords t) ↔ t.val = 3)
theorem hcond4 : ∀ t : Fin cfg0.N, cond4 (grid0.coords t) ↔ 4 ≤ t.val :=
  (by decide +kernel : ∀ t : Fin grid0.N, cond4 (grid0.coords t) ↔ 4 ≤ t.val)

/-! ## Where the windows are idle, and when the output is written back -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
/-- Before point 4 the body stores nothing into the output window: it is idle there, -/
theorem idleAt7 : ∀ t : Fin cfg0.N, t.val < 4 → cfg0.idle 7 (grid0.coords t) = true := by decide +kernel
/-- and its block is not written back there; -/
theorem noFlush7 : ∀ t : Fin cfg0.N, t.val < 4 → (cfg0.win 7).flush t = false := by decide +kernel
/-- from point 4 on it is live. -/
theorem liveAt7 : ∀ t : Fin cfg0.N, 4 ≤ t.val → cfg0.idle 7 (grid0.coords t) = false := by decide +kernel

/-! ## The memrefs the body is called with -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1000x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1000x256 .f32 := win0_7.stage (cfg0.slots t 7)
abbrev hs7 (t : Fin cfg0.N) : (ms7 t).IsWhole := hstage0_7 ((cfg0.slots t 7).cast nbuf0_7)

/-- The scratch operands: the three Gram accumulators, the mixing matrix with its column of ones, the keys. -/
abbrev sc0 : Memref sig .tc .vmem S512x512 .f32 := Memref.whole cc0_scratch0
abbrev sc1 : Memref sig .tc .vmem S512x512 .f32 := Memref.whole cc0_scratch1
abbrev sc2 : Memref sig .tc .vmem S512x512 .f32 := Memref.whole cc0_scratch2
abbrev sc3 : Memref sig .tc .vmem S1024x384 .bf16 := Memref.whole cc0_scratch3
abbrev sc4 : Memref sig .tc .vmem S1024x256 .bf16 := Memref.whole cc0_scratch4

/-- The views through which the contents of the scratch buffers and of the output's staging buffer are stated. -/
abbrev VS0 : View sig .tc .vmem S512x512 .f32 := sc0.view
abbrev VS1 : View sig .tc .vmem S512x512 .f32 := sc1.view
abbrev VS2 : View sig .tc .vmem S512x512 .f32 := sc2.view
abbrev VS3 : View sig .tc .vmem S1024x384 .bf16 := sc3.view
abbrev VS4 : View sig .tc .vmem S1024x256 .bf16 := sc4.view
abbrev VO7 : View sig .tc .vmem S1000x256 .f32 := (Memref.whole cc0_stg7_0 : Memref sig .tc .vmem S1000x256 .f32).view

/-- The region's class invariant with the scratch operands as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)
          ∗ (∃ d, owns (c : Thread nD τ) sc4 fullShare d)) ∗ (∃ r, prngReg c r)) := by
  unfold Pipeline.ΦA; rw [scopedRest0_eq]; simp only [sc0, sc1, sc2, sc3, sc4, owns_whole]; try rfl

end Cert.Kernel.Body

end
-- ==== Proof.BodyBits.RunA.lean ====
/-
  The body at the grid's first point. Only the first branch is taken: the chunk of `fix`'s rows is read in two
  halves of 512 columns, and each Gram accumulator is STARTED at the product of two halves (left with left,
  left with right, right with right). What the three accumulators held before is overwritten.
-/
import proofs.«138382_g52209622450808_cont_9to1_m_767_28_alg».proof.Proof.BodyBits.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The stores of the first point, as pieces per accumulator, with the proof that the body runs there: from
    the chunk's buffer at its contents and the three accumulators at anything, to the chunk's buffer
    unchanged and each accumulator with its pieces written. -/
noncomputable def runA (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (hc1 : cond1 i) (hc2 : ¬cond2 i) (hc3 : ¬cond3 i) (hc4 : ¬cond4 i) (x0 : Vec F S1024x1024 .f32) :
    Σ' (Larg9 : List (View.Piece (Elt F) S512x512 .f32)) (Larg10 : List (View.Piece (Elt F) S512x512 .f32)), { Larg11 : List (View.Piece (Elt F) S512x512 .f32) //
      ∀ (d0 : Vec F S512x512 .f32) (d1 : Vec F S512x512 .f32) (d2 : Vec F S512x512 .f32) (E : Set ℕ) (K : PUnit → sProp 𝕄),
        iprop(owns (c : Thread nD τ) arg1 fullShare x0 ∗ owns (c : Thread nD τ) arg9 fullShare d0 ∗ owns (c : Thread nD τ) arg10 fullShare d1 ∗ owns (c : Thread nD τ) arg11 fullShare d2
            ∗ (iprop(owns (c : Thread nD τ) arg1 fullShare x0 ∗ (∃ f, arg9.view.loc (c : Thread nD τ) ↦[arg9.view.set]{fullShare} arg9.view.writes (Elt F) f Larg9) ∗ (∃ f, arg10.view.loc (c : Thread nD τ) ↦[arg10.view.set]{fullShare} arg10.view.writes (Elt F) f Larg10) ∗ (∃ f, arg11.view.loc (c : Thread nD τ) ↦[arg11.view.set]{fullShare} arg11.view.writes (Elt F) f Larg11)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun d0 d1 d2 E K => ?run⟩
  case run =>
    simp only [cc0__fused_kernel_eq_skeleton]; unfold cc0__fused_kernel_skel
    unfold owns
    iintro ⟨⟨%farg1, %hfarg1, Harg1⟩, ⟨%farg9, %hfarg9, Harg9⟩, ⟨%farg10, %hfarg10, Harg10⟩, ⟨%farg11, %hfarg11, Harg11⟩, Hk⟩
    obtain rfl := harg1.eq_unread hfarg1; obtain rfl := harg9.eq_unread hfarg9; obtain rfl := harg10.eq_unread hfarg10; obtain rfl := harg11.eq_unread hfarg11
    sl_exec (disch := first | exact hc1 | exact hc2 | exact hc3 | exact hc4)
    sl_step
    iapply Hk
    isplitl [Harg1]
    · iexists _; isplitr; · ipureintro; exact harg1.read_unread _
      iexact Harg1
    isplitl [Harg9]
    · iexists _; iexact Harg9
    isplitl [Harg10]
    · iexists _; iexact Harg10
    iexists _; iexact Harg11

end Cert.Kernel.Body

end
-- ==== Proof.BodyBits.RunB.lean ====
/-
  The body at points 1 and 2. Only the second branch is taken: the chunk's two halves are multiplied as at the
  first point, and each product is ADDED to what its accumulator held after the point before.
-/
import proofs.«138382_g52209622450808_cont_9to1_m_767_28_alg».proof.Proof.BodyBits.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The stores of points 1 and 2, as pieces per accumulator, with the proof that the body runs there: from the
    chunk's buffer at its contents and the accumulators at what the point before left, to the chunk's buffer
    unchanged and each accumulator with its pieces written. -/
noncomputable def runB (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (hc1 : ¬cond1 i) (hc2 : cond2 i) (hc3 : ¬cond3 i) (hc4 : ¬cond4 i) (x0 : Vec F S1024x1024 .f32) (xs0 : Vec F S512x512 .f32) (xs1 : Vec F S512x512 .f32) (xs2 : Vec F S512x512 .f32) :
    Σ' (Larg9 : List (View.Piece (Elt F) S512x512 .f32)) (Larg10 : List (View.Piece (Elt F) S512x512 .f32)), { Larg11 : List (View.Piece (Elt F) S512x512 .f32) //
      ∀ (E : Set ℕ) (K : PUnit → sProp 𝕄),
        iprop(owns (c : Thread nD τ) arg1 fullShare x0 ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ (∃ f, arg9.view.loc (c : Thread nD τ) ↦[arg9.view.set]{fullShare} arg9.view.writes (Elt F) f Larg9) ∗ (∃ f, arg10.view.loc (c : Thread nD τ) ↦[arg10.view.set]{fullShare} arg10.view.writes (Elt F) f Larg10) ∗ (∃ f, arg11.view.loc (c : Thread nD τ) ↦[arg11.view.set]{fullShare} arg11.view.writes (Elt F) f Larg11)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__fused_kernel_eq_skeleton]; unfold cc0__fused_kernel_skel
    unfold owns
    iintro ⟨⟨%farg1, %hfarg1, Harg1⟩, ⟨%farg9, %hfarg9, Harg9⟩, ⟨%farg10, %hfarg10, Harg10⟩, ⟨%farg11, %hfarg11, Harg11⟩, Hk⟩
    obtain rfl := harg1.eq_unread hfarg1; obtain rfl := harg9.eq_unread hfarg9; obtain rfl := harg10.eq_unread hfarg10; obtain rfl := harg11.eq_unread hfarg11
    sl_exec (disch := first | exact hc1 | exact hc2 | exact hc3 | exact hc4)
    sl_step
    iapply Hk
    isplitl [Harg1]
    · iexists _; isplitr; · ipureintro; exact harg1.read_unread _
      iexact Harg1
    isplitl [Harg9]
    · iexists _; iexact Harg9
    isplitl [Harg10]
    · iexists _; iexact Harg10
    iexists _; iexact Harg11

end Cert.Kernel.Body

end
-- ==== Proof.BodyBits.RunC.lean ====
/-
  The body at point 3. The second branch adds the last chunk's products to the accumulators; the third branch
  then reads the finished accumulators back, takes square roots, forms the column sums, divides the rows of
  `other` by them, and stores the mixed rows (two halves) and a block of ones into the 1024 × 384 scratch, and
  the keys scaled by 1/16 into the 1024 × 256 scratch.
-/
import proofs.«138382_g52209622450808_cont_9to1_m_767_28_alg».proof.Proof.BodyBits.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The stores of point 3, as pieces per scratch buffer, with the proof that the body runs there: from the
    buffers of the chunk, of `other`, of Wk and of bk at their contents, the accumulators at what point 2
    left, and the two other scratch buffers at anything, to the inputs unchanged and every scratch buffer
    with its pieces written. -/
noncomputable def runC (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (hc1 : ¬cond1 i) (hc2 : cond2 i) (hc3 : cond3 i) (hc4 : ¬cond4 i) (x0 : Vec F S1024x1024 .f32) (x1 : Vec F S1024x256 .f32) (x2 : Vec F S256x256 .f32) (x3 : Vec F S1x256 .f32) (xs0 : Vec F S512x512 .f32) (xs1 : Vec F S512x512 .f32) (xs2 : Vec F S512x512 .f32) :
    Σ' (Larg9 : List (View.Piece (Elt F) S512x512 .f32)) (Larg10 : List (View.Piece (Elt F) S512x512 .f32)) (Larg11 : List (View.Piece (Elt F) S512x512 .f32)) (Larg12 : List (View.Piece (Elt F) S1024x384 .bf16)), { Larg13 : List (View.Piece (Elt F) S1024x256 .bf16) //
      ∀ (d3 : Vec F S1024x384 .bf16) (d4 : Vec F S1024x256 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare xs0 ∗ owns (c : Thread nD τ) arg10 fullShare xs1 ∗ owns (c : Thread nD τ) arg11 fullShare xs2 ∗ owns (c : Thread nD τ) arg12 fullShare d3 ∗ owns (c : Thread nD τ) arg13 fullShare d4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg9.view.loc (c : Thread nD τ) ↦[arg9.view.set]{fullShare} arg9.view.writes (Elt F) f Larg9) ∗ (∃ f, arg10.view.loc (c : Thread nD τ) ↦[arg10.view.set]{fullShare} arg10.view.writes (Elt F) f Larg10) ∗ (∃ f, arg11.view.loc (c : Thread nD τ) ↦[arg11.view.set]{fullShare} arg11.view.writes (Elt F) f Larg11) ∗ (∃ f, arg12.view.loc (c : Thread nD τ) ↦[arg12.view.set]{fullShare} arg12.view.writes (Elt F) f Larg12) ∗ (∃ f, arg13.view.loc (c : Thread nD τ) ↦[arg13.view.set]{fullShare} arg13.view.writes (Elt F) f Larg13)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun d3 d4 E K => ?run⟩
  case run =>
    simp only [cc0__fused_kernel_eq_skeleton]; unfold cc0__fused_kernel_skel
    simp only [k0_part1_eq_skeleton]
    unfold owns
    iintro ⟨⟨%farg1, %hfarg1, Harg1⟩, ⟨%farg2, %hfarg2, Harg2⟩, ⟨%farg3, %hfarg3, Harg3⟩, ⟨%farg4, %hfarg4, Harg4⟩, ⟨%farg9, %hfarg9, Harg9⟩, ⟨%farg10, %hfarg10, Harg10⟩, ⟨%farg11, %hfarg11, Harg11⟩, ⟨%farg12, %hfarg12, Harg12⟩, ⟨%farg13, %hfarg13, Harg13⟩, Hk⟩
    obtain rfl := harg1.eq_unread hfarg1; obtain rfl := harg2.eq_unread hfarg2; obtain rfl := harg3.eq_unread hfarg3; obtain rfl := harg4.eq_unread hfarg4; obtain rfl := harg9.eq_unread hfarg9; obtain rfl := harg10.eq_unread hfarg10; obtain rfl := harg11.eq_unread hfarg11; obtain rfl := harg12.eq_unread hfarg12; obtain rfl := harg13.eq_unread hfarg13
    sl_exec (disch := first | exact hc1 | exact hc2 | exact hc3 | exact hc4)
    sl_step
    iapply Hk
    isplitl [Harg1]
    · iexists _; isplitr; · ipureintro; exact harg1.read_unread _
      iexact Harg1
    isplitl [Harg2]
    · iexists _; isplitr; · ipureintro; exact harg2.read_unread _
      iexact Harg2
    isplitl [Harg3]
    · iexists _; isplitr; · ipureintro; exact harg3.read_unread _
      iexact Harg3
    isplitl [Harg4]
    · iexists _; isplitr; · ipureintro; exact harg4.read_unread _
      iexact Harg4
    isplitl [Harg9]
    · iexists _; iexact Harg9
    isplitl [Harg10]
    · iexists _; iexact Harg10
    isplitl [Harg11]
    · iexists _; iexact Harg11
    isplitl [Harg12]
    · iexists _; iexact Harg12
    iexists _; iexact Harg13

end Cert.Kernel.Body

end
-- ==== Proof.BodyBits.RunD.lean ====
/-
  The body at points 4 to 13. Only the fourth branch is taken: a block of 1000 rows of `main` is projected to
  queries, multiplied with the stored keys, exponentiated, multiplied with the stored 1024 × 384 matrix, and
  the first 256 columns of the product are multiplied by the reciprocal of column 256 and stored into the
  output's block. The two scratch buffers are only read.
-/
import proofs.«138382_g52209622450808_cont_9to1_m_767_28_alg».proof.Proof.BodyBits.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The store of points 4 to 13, as pieces of the output's block, with the proof that the body runs there:
    from the buffers of the block of `main`, of Wq and of bq at their contents, the two scratch buffers at
    what point 3 left, and the output's buffer at anything, to everything unchanged but the output's
    buffer, which has its pieces written. -/
noncomputable def runD (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (hc1 : ¬cond1 i) (hc2 : ¬cond2 i) (hc3 : ¬cond3 i) (hc4 : cond4 i) (x4 : Vec F S1000x256 .f32) (x5 : Vec F S256x256 .f32) (x6 : Vec F S1x256 .f32) (xs3 : Vec F S1024x384 .bf16) (xs4 : Vec F S1024x256 .bf16) :
    { Larg8 : List (View.Piece (Elt F) S1000x256 .f32) //
      ∀ (d7 : Vec F S1000x256 .f32) (E : Set ℕ) (K : PUnit → sProp 𝕄),
        iprop(owns (c : Thread nD τ) arg5 fullShare x4 ∗ owns (c : Thread nD τ) arg6 fullShare x5 ∗ owns (c : Thread nD τ) arg7 fullShare x6 ∗ owns (c : Thread nD τ) arg12 fullShare xs3 ∗ owns (c : Thread nD τ) arg13 fullShare xs4 ∗ owns (c : Thread nD τ) arg8 fullShare d7
            ∗ (iprop(owns (c : Thread nD τ) arg5 fullShare x4 ∗ owns (c : Thread nD τ) arg6 fullShare x5 ∗ owns (c : Thread nD τ) arg7 fullShare x6 ∗ owns (c : Thread nD τ) arg12 fullShare xs3 ∗ owns (c : Thread nD τ) arg13 fullShare xs4 ∗ (∃ f, arg8.view.loc (c : Thread nD τ) ↦[arg8.view.set]{fullShare} arg8.view.writes (Elt F) f Larg8)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, fun d7 E K => ?run⟩
  case run =>
    simp only [cc0__fused_kernel_eq_skeleton]; unfold cc0__fused_kernel_skel
    unfold owns
    iintro ⟨⟨%farg5, %hfarg5, Harg5⟩, ⟨%farg6, %hfarg6, Harg6⟩, ⟨%farg7, %hfarg7, Harg7⟩, ⟨%farg12, %hfarg12, Harg12⟩, ⟨%farg13, %hfarg13, Harg13⟩, ⟨%farg8, %hfarg8, Harg8⟩, Hk⟩
    obtain rfl := harg5.eq_unread hfarg5; obtain rfl := harg6.eq_unread hfarg6; obtain rfl := harg7.eq_unread hfarg7; obtain rfl := harg12.eq_unread hfarg12; obtain rfl := harg13.eq_unread hfarg13; obtain rfl := harg8.eq_unread hfarg8
    sl_exec (disch := first | exact hc1 | exact hc2 | exact hc3 | exact hc4)
    sl_step
    iapply Hk
    isplitl [Harg5]
    · iexists _; isplitr; · ipureintro; exact harg5.read_unread _
      iexact Harg5
    isplitl [Harg6]
    · iexists _; isplitr; · ipureintro; exact harg6.read_unread _
      iexact Harg6
    isplitl [Harg7]
    · iexists _; isplitr; · ipureintro; exact harg7.read_unread _
      iexact Harg7
    isplitl [Harg12]
    · iexists _; isplitr; · ipureintro; exact harg12.read_unread _
      iexact Harg12
    isplitl [Harg13]
    · iexists _; isplitr; · ipureintro; exact harg13.read_unread _
      iexact Harg13
    iexists _; iexact Harg8

end Cert.Kernel.Body

end
-- ==== Proof.BodyBits.Frame.lean ====
/-
  The frame of the fused kernel's region: what the five scratch buffers and the output's staging buffer hold after
  each of the 14 grid points, the region's invariant that carries those contents from point to point, the proof
  data of the pipeline, the body obligation at every point (each point is one of four cases: the first point,
  points 1 and 2, point 3, points 4 to 13), and from these the run of the whole program and its frame.
  The Gram accumulators are named from the first point through point 3; the mixing matrix and the keys from
  point 3 on; before a buffer is first stored it holds anything, and after its last use its contents are forgotten.
-/
import proofs.«138382_g52209622450808_cont_9to1_m_767_28_alg».proof.Proof.BodyBits.RunA
import proofs.«138382_g52209622450808_cont_9to1_m_767_28_alg».proof.Proof.BodyBits.RunB
import proofs.«138382_g52209622450808_cont_9to1_m_767_28_alg».proof.Proof.BodyBits.RunC
import proofs.«138382_g52209622450808_cont_9to1_m_767_28_alg».proof.Proof.BodyBits.RunD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each case's stores cover the buffers they fill -/

theorem coverA0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : cond1 i) (hc2 : ¬cond2 i) (hc3 : ¬cond3 i) (hc4 : ¬cond4 i) (x0 : Vec F S1024x1024 .f32) (y : S512x512.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 hc1 hc2 hc3 hc4 x0).1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 hc1 hc2 hc3 hc4 x0).1 S512x512.size (by sl_kernel_rfl) y

theorem coverA1 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : cond1 i) (hc2 : ¬cond2 i) (hc3 : ¬cond3 i) (hc4 : ¬cond4 i) (x0 : Vec F S1024x1024 .f32) (y : S512x512.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 hc1 hc2 hc3 hc4 x0).2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 hc1 hc2 hc3 hc4 x0).2.1 S512x512.size (by sl_kernel_rfl) y

theorem coverA2 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : cond1 i) (hc2 : ¬cond2 i) (hc3 : ¬cond3 i) (hc4 : ¬cond4 i) (x0 : Vec F S1024x1024 .f32) (y : S512x512.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 hc1 hc2 hc3 hc4 x0).2.2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 hc1 hc2 hc3 hc4 x0).2.2.1 S512x512.size (by sl_kernel_rfl) y

theorem coverB0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : ¬cond3 i) (hc4 : ¬cond4 i) (x0 : Vec F S1024x1024 .f32) (xs0 xs1 xs2 : Vec F S512x512 .f32) (y : S512x512.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 xs0 xs1 xs2).1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 xs0 xs1 xs2).1 S512x512.size (by sl_kernel_rfl) y

theorem coverB1 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : ¬cond3 i) (hc4 : ¬cond4 i) (x0 : Vec F S1024x1024 .f32) (xs0 xs1 xs2 : Vec F S512x512 .f32) (y : S512x512.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 xs0 xs1 xs2).2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 xs0 xs1 xs2).2.1 S512x512.size (by sl_kernel_rfl) y

theorem coverB2 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : ¬cond3 i) (hc4 : ¬cond4 i) (x0 : Vec F S1024x1024 .f32) (xs0 xs1 xs2 : Vec F S512x512 .f32) (y : S512x512.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 xs0 xs1 xs2).2.2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 xs0 xs1 xs2).2.2.1 S512x512.size (by sl_kernel_rfl) y

theorem coverC0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : cond3 i) (hc4 : ¬cond4 i) (x0 : Vec F S1024x1024 .f32) (x1 : Vec F S1024x256 .f32) (x2 : Vec F S256x256 .f32) (x3 : Vec F S1x256 .f32) (xs0 xs1 xs2 : Vec F S512x512 .f32) (y : S512x512.Idx) :
    ∃ pc ∈ (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).1 S512x512.size (by sl_kernel_rfl) y

theorem coverC1 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : cond3 i) (hc4 : ¬cond4 i) (x0 : Vec F S1024x1024 .f32) (x1 : Vec F S1024x256 .f32) (x2 : Vec F S256x256 .f32) (x3 : Vec F S1x256 .f32) (xs0 xs1 xs2 : Vec F S512x512 .f32) (y : S512x512.Idx) :
    ∃ pc ∈ (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).2.1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).2.1 S512x512.size (by sl_kernel_rfl) y

theorem coverC2 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : cond3 i) (hc4 : ¬cond4 i) (x0 : Vec F S1024x1024 .f32) (x1 : Vec F S1024x256 .f32) (x2 : Vec F S256x256 .f32) (x3 : Vec F S1x256 .f32) (xs0 xs1 xs2 : Vec F S512x512 .f32) (y : S512x512.Idx) :
    ∃ pc ∈ (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).2.2.1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).2.2.1 S512x512.size (by sl_kernel_rfl) y

theorem coverC3 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : cond3 i) (hc4 : ¬cond4 i) (x0 : Vec F S1024x1024 .f32) (x1 : Vec F S1024x256 .f32) (x2 : Vec F S256x256 .f32) (x3 : Vec F S1x256 .f32) (xs0 xs1 xs2 : Vec F S512x512 .f32) (y : S1024x384.Idx) :
    ∃ pc ∈ (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).2.2.2.1, y ∈ pc.1.set :=
  View.cover_of_tiledBy (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).2.2.2.1 ![512, 128] (by sl_kernel_rfl) y

theorem coverC4 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : cond3 i) (hc4 : ¬cond4 i) (x0 : Vec F S1024x1024 .f32) (x1 : Vec F S1024x256 .f32) (x2 : Vec F S256x256 .f32) (x3 : Vec F S1x256 .f32) (xs0 xs1 xs2 : Vec F S512x512 .f32) (y : S1024x256.Idx) :
    ∃ pc ∈ (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).2.2.2.2.1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).2.2.2.2.1 S1024x256.size (by sl_kernel_rfl) y

theorem coverD7 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : ¬cond2 i) (hc3 : ¬cond3 i) (hc4 : cond4 i) (x4 : Vec F S1000x256 .f32) (x5 : Vec F S256x256 .f32) (x6 : Vec F S1x256 .f32) (xs3 : Vec F S1024x384 .bf16) (xs4 : Vec F S1024x256 .bf16) (y : S1000x256.Idx) :
    ∃ pc ∈ (runD c i arg1 harg1 arg2 harg2 arg3 harg3 arg4 harg4 arg5 harg5 arg6 harg6 arg7 harg7 arg8 harg8 arg9 harg9 arg10 harg10 arg11 harg11 arg12 harg12 arg13 harg13 hc1 hc2 hc3 hc4 x4 x5 x6 xs3 xs4).1, y ∈ pc.1.set :=
  View.cover_of_tiledL (runD c i arg1 harg1 arg2 harg2 arg3 harg3 arg4 harg4 arg5 harg5 arg6 harg6 arg7 harg7 arg8 harg8 arg9 harg9 arg10 harg10 arg11 harg11 arg12 harg12 arg13 harg13 hc1 hc2 hc3 hc4 x4 x5 x6 xs3 xs4).1 S1000x256.size (by sl_kernel_rfl) y

/-! ## What each case leaves: its pieces read back -/

/-- The three Gram accumulators after the first point. -/
def gA (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : cond1 i) (hc2 : ¬cond2 i) (hc3 : ¬cond3 i) (hc4 : ¬cond4 i) (x0 : Vec F S1024x1024 .f32) : Vec F S512x512 .f32 × Vec F S512x512 .f32 × Vec F S512x512 .f32 :=
  (VS0.read (Elt F) (VS0.writes (Elt F) VS0.junk (runA c i arg1 harg1 arg2 harg2 arg3 harg3 arg4 harg4 arg5 harg5 arg6 harg6 arg7 harg7 arg8 harg8 arg9 harg9 arg10 harg10 arg11 harg11 arg12 harg12 arg13 harg13 hc1 hc2 hc3 hc4 x0).1),
   VS1.read (Elt F) (VS1.writes (Elt F) VS1.junk (runA c i arg1 harg1 arg2 harg2 arg3 harg3 arg4 harg4 arg5 harg5 arg6 harg6 arg7 harg7 arg8 harg8 arg9 harg9 arg10 harg10 arg11 harg11 arg12 harg12 arg13 harg13 hc1 hc2 hc3 hc4 x0).2.1),
   VS2.read (Elt F) (VS2.writes (Elt F) VS2.junk (runA c i arg1 harg1 arg2 harg2 arg3 harg3 arg4 harg4 arg5 harg5 arg6 harg6 arg7 harg7 arg8 harg8 arg9 harg9 arg10 harg10 arg11 harg11 arg12 harg12 arg13 harg13 hc1 hc2 hc3 hc4 x0).2.2.1))

/-- The three Gram accumulators after point 1 or 2, over what the point before left. -/
def gB (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : ¬cond3 i) (hc4 : ¬cond4 i) (x0 : Vec F S1024x1024 .f32) (xs0 xs1 xs2 : Vec F S512x512 .f32) : Vec F S512x512 .f32 × Vec F S512x512 .f32 × Vec F S512x512 .f32 :=
  (VS0.read (Elt F) (VS0.writes (Elt F) VS0.junk (runB c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 xs0 xs1 xs2).1),
   VS1.read (Elt F) (VS1.writes (Elt F) VS1.junk (runB c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 xs0 xs1 xs2).2.1),
   VS2.read (Elt F) (VS2.writes (Elt F) VS2.junk (runB c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 xs0 xs1 xs2).2.2.1))

/-- The mixing matrix with its ones, and the scaled keys, after point 3, over what point 2 left in the accumulators. -/
def omkC (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : cond3 i) (hc4 : ¬cond4 i) (x0 : Vec F S1024x1024 .f32) (x1 : Vec F S1024x256 .f32) (x2 : Vec F S256x256 .f32) (x3 : Vec F S1x256 .f32) (xs0 xs1 xs2 : Vec F S512x512 .f32) : Vec F S1024x384 .bf16 × Vec F S1024x256 .bf16 :=
  (VS3.read (Elt F) (VS3.writes (Elt F) VS3.junk (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).2.2.2.1),
   VS4.read (Elt F) (VS4.writes (Elt F) VS4.junk (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).2.2.2.2.1))

/-- The output's block after one of the points 4 to 13. -/
def outD (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : ¬cond2 i) (hc3 : ¬cond3 i) (hc4 : cond4 i) (x4 : Vec F S1000x256 .f32) (x5 : Vec F S256x256 .f32) (x6 : Vec F S1x256 .f32) (xs3 : Vec F S1024x384 .bf16) (xs4 : Vec F S1024x256 .bf16) : Vec F S1000x256 .f32 :=
  VO7.read (Elt F) (VO7.writes (Elt F) VO7.junk (runD c i arg1 harg1 arg2 harg2 arg3 harg3 arg4 harg4 arg5 harg5 arg6 harg6 arg7 harg7 arg8 harg8 arg9 harg9 arg10 harg10 arg11 harg11 arg12 harg12 arg13 harg13 hc1 hc2 hc3 hc4 x4 x5 x6 xs3 xs4).1)

/-! ## Point by point -/

/-- The Gram accumulators after point `n`, for n = 0, 1, 2: started at point 0, added to at points 1 and 2. -/
def gramAt (c : Dev nD) : (n : ℕ) → n < 3 → Vec F S512x512 .f32 × Vec F S512x512 .f32 × Vec F S512x512 .f32
  | 0, hn =>
    let t : Fin cfg0.N := ⟨0, by decide⟩
    have h0 : t.val = 0 := rfl
    gA c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) ((hcond1 t).mpr h0) (fun h => by have := (hcond2 t).mp h; omega) (fun h => by have := (hcond3 t).mp h; omega) (fun h => by have := (hcond4 t).mp h; omega) (iblk m c 0 t)
  | n + 1, hn =>
    let t : Fin cfg0.N := ⟨n + 1, lt_of_lt_of_le hn (by decide)⟩
    have hlo : 1 ≤ t.val := Nat.succ_le_succ (Nat.zero_le n)
    have hhi : t.val < 3 := hn
    gB c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) (fun h => by have := (hcond1 t).mp h; omega) ((hcond2 t).mpr ⟨hlo, by omega⟩) (fun h => by have := (hcond3 t).mp h; omega) (fun h => by have := (hcond4 t).mp h; omega) (iblk m c 0 t)
      (gramAt c n (Nat.lt_of_succ_lt hn)).1 (gramAt c n (Nat.lt_of_succ_lt hn)).2.1 (gramAt c n (Nat.lt_of_succ_lt hn)).2.2

/-- Point 3. -/
abbrev t3 : Fin cfg0.N := ⟨3, by decide⟩

/-- The mixing matrix with its ones and the scaled keys, as a point `t` = 3 leaves them over what point 2 left. -/
def omkAt (c : Dev nD) (t : Fin cfg0.N) (h3 : t.val = 3) : Vec F S1024x384 .bf16 × Vec F S1024x256 .bf16 :=
  omkC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) (fun h => by have := (hcond1 t).mp h; omega) ((hcond2 t).mpr ⟨by omega, by omega⟩) ((hcond3 t).mpr h3) (fun h => by have := (hcond4 t).mp h; omega) (iblk m c 0 t) (iblk m c 1 t) (iblk m c 2 t) (iblk m c 3 t)
    (gramAt m c (t.val - 1) (by omega)).1 (gramAt m c (t.val - 1) (by omega)).2.1 (gramAt m c (t.val - 1) (by omega)).2.2

/-- The mixing matrix with its ones and the scaled keys, as point 3 leaves them. -/
def omk (c : Dev nD) : Vec F S1024x384 .bf16 × Vec F S1024x256 .bf16 := omkAt m c t3 rfl

/-- The output's block as point `t` ≥ 4 leaves it. -/
def outAt (c : Dev nD) (t : Fin cfg0.N) (h4 : 4 ≤ t.val) : Vec F S1000x256 .f32 :=
  outD c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) (fun h => by have := (hcond1 t).mp h; omega) (fun h => by have := (hcond2 t).mp h; omega) (fun h => by have := (hcond3 t).mp h; omega) ((hcond4 t).mpr h4) (iblk m c 4 t) (iblk m c 5 t) (iblk m c 6 t) (omk m c).1 (omk m c).2

theorem gramAt_succ (c : Dev nD) (t : Fin cfg0.N) (hlo : 1 ≤ t.val) (hhi : t.val < 3) :
    gramAt m c t.val hhi = gB c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) (fun h => by have := (hcond1 t).mp h; omega) ((hcond2 t).mpr ⟨hlo, by omega⟩) (fun h => by have := (hcond3 t).mp h; omega) (fun h => by have := (hcond4 t).mp h; omega) (iblk m c 0 t)
      (gramAt m c (t.val - 1) (by omega)).1 (gramAt m c (t.val - 1) (by omega)).2.1 (gramAt m c (t.val - 1) (by omega)).2.2 := by
  obtain ⟨n, hn⟩ := t
  cases n with
  | zero => exact absurd hlo (Nat.not_succ_le_zero 0)
  | succ n => rfl

theorem gramAt_zero (c : Dev nD) (t : Fin cfg0.N) (h0 : t.val = 0) (h : t.val < 3) :
    gramAt m c t.val h = gA c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) ((hcond1 t).mpr h0) (fun h => by have := (hcond2 t).mp h; omega) (fun h => by have := (hcond3 t).mp h; omega) (fun h => by have := (hcond4 t).mp h; omega) (iblk m c 0 t) := by
  obtain ⟨n, hn⟩ := t
  cases n with
  | zero => rfl
  | succ n => exact absurd h0 (Nat.succ_ne_zero n)

theorem omk_eq (c : Dev nD) (t : Fin cfg0.N) (h3 : t.val = 3) : omk m c = omkAt m c t h3 := by
  obtain ⟨n, hn⟩ := t
  have h3' : n = 3 := h3
  subst h3'
  rfl

/-! ## The region's invariant, point by point -/

/-- Before point `n`: before the first point every scratch buffer holds anything; before points 1, 2, 3 the Gram
    accumulators hold what the point before left and the two other buffers anything; from point 4 on the mixing matrix and
    the keys hold what point 3 left and the accumulators anything. The generator register is at some state throughout. -/
def PhiS (c : Dev nD) : (n : ℕ) → n ≤ cfg0.N → sProp 𝕄
  | 0, _ => Pipeline.ΦA spec0 c
  | n + 1, _ =>
    if h3 : n < 3 then
      iprop(iprop(owns (c : Thread nD τ) sc0 fullShare (gramAt m c n h3).1 ∗ owns (c : Thread nD τ) sc1 fullShare (gramAt m c n h3).2.1
        ∗ owns (c : Thread nD τ) sc2 fullShare (gramAt m c n h3).2.2 ∗ (∃ d, owns (c : Thread nD τ) sc3 fullShare d) ∗ (∃ d, owns (c : Thread nD τ) sc4 fullShare d)) ∗ (∃ r, prngReg c r))
    else
      iprop(iprop((∃ d, owns (c : Thread nD τ) sc0 fullShare d) ∗ (∃ d, owns (c : Thread nD τ) sc1 fullShare d) ∗ (∃ d, owns (c : Thread nD τ) sc2 fullShare d) ∗ owns (c : Thread nD τ) sc3 fullShare (omk m c).1 ∗ owns (c : Thread nD τ) sc4 fullShare (omk m c).2) ∗ (∃ r, prngReg c r))

theorem PhiS_zero (c : Dev nD) (n : ℕ) (h : n ≤ cfg0.N) (hz : n = 0) : PhiS m c n h = Pipeline.ΦA spec0 c := by
  subst hz; rfl

theorem PhiS_succ_gram (c : Dev nD) (n : ℕ) (hn : n + 1 ≤ cfg0.N) (h3 : n < 3) :
    PhiS m c (n + 1) hn = iprop(iprop(owns (c : Thread nD τ) sc0 fullShare (gramAt m c n h3).1 ∗ owns (c : Thread nD τ) sc1 fullShare (gramAt m c n h3).2.1
        ∗ owns (c : Thread nD τ) sc2 fullShare (gramAt m c n h3).2.2 ∗ (∃ d, owns (c : Thread nD τ) sc3 fullShare d) ∗ (∃ d, owns (c : Thread nD τ) sc4 fullShare d)) ∗ (∃ r, prngReg c r)) := by
  show (if h3 : n < 3 then _ else _) = _
  rw [dif_pos h3]

theorem PhiS_succ_late (c : Dev nD) (n : ℕ) (hn : n + 1 ≤ cfg0.N) (h3 : 3 ≤ n) :
    PhiS m c (n + 1) hn = iprop(iprop((∃ d, owns (c : Thread nD τ) sc0 fullShare d) ∗ (∃ d, owns (c : Thread nD τ) sc1 fullShare d) ∗ (∃ d, owns (c : Thread nD τ) sc2 fullShare d) ∗ owns (c : Thread nD τ) sc3 fullShare (omk m c).1 ∗ owns (c : Thread nD τ) sc4 fullShare (omk m c).2) ∗ (∃ r, prngReg c r)) := by
  show (if h3 : n < 3 then _ else _) = _
  rw [dif_neg (by omega)]

theorem PhiS_pos_gram (c : Dev nD) (n : ℕ) (h : n ≤ cfg0.N) (hz : n ≠ 0) (h3 : n ≤ 3) :
    PhiS m c n h = iprop(iprop(owns (c : Thread nD τ) sc0 fullShare (gramAt m c (n - 1) (by omega)).1 ∗ owns (c : Thread nD τ) sc1 fullShare (gramAt m c (n - 1) (by omega)).2.1
        ∗ owns (c : Thread nD τ) sc2 fullShare (gramAt m c (n - 1) (by omega)).2.2 ∗ (∃ d, owns (c : Thread nD τ) sc3 fullShare d) ∗ (∃ d, owns (c : Thread nD τ) sc4 fullShare d)) ∗ (∃ r, prngReg c r)) := by
  cases n with
  | zero => exact absurd rfl hz
  | succ k => exact PhiS_succ_gram m c k h (by omega)

theorem PhiS_pos_late (c : Dev nD) (n : ℕ) (h : n ≤ cfg0.N) (h4 : 4 ≤ n) :
    PhiS m c n h = iprop(iprop((∃ d, owns (c : Thread nD τ) sc0 fullShare d) ∗ (∃ d, owns (c : Thread nD τ) sc1 fullShare d) ∗ (∃ d, owns (c : Thread nD τ) sc2 fullShare d) ∗ owns (c : Thread nD τ) sc3 fullShare (omk m c).1 ∗ owns (c : Thread nD τ) sc4 fullShare (omk m c).2) ∗ (∃ r, prngReg c r)) := by
  cases n with
  | zero => exact absurd h4 (by decide)
  | succ k => exact PhiS_succ_late m c k h (by omega)

/-! ## The pipeline's proof data -/

/-- The arrays as the region finds them; after the body each input's buffer at its block, the output's at the block
    point `t` ≥ 4 computed (before that the window is idle and nothing consults its entry); the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => if h4 : 4 ≤ t.val then outAt m c t h4 else VO7.read (Elt F) VO7.junk
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) (h4 : 4 ≤ t.val) : (dats m 0 c).after 7 t = outAt m c t h4 := by
  dsimp only [dats]; rw [dif_pos h4]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

set_option maxHeartbeats 16000000 in
/-- The body at any point: the inputs' buffers hold their blocks; the point is in one of the four cases, whose run
    applies; the invariant hands the body the scratch buffers the case needs at what the point before left and takes
    them back at this point's contents; buffers the case does not touch pass through unchanged. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, Phi_castSucc]
  have hN : t.val < 14 := lt_of_lt_of_eq t.isLt (show cfg0.N = 14 from N_0)
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [show (dats m 0 c).leavesExact 6 t = owns (c : Thread nD τ) (ms6 t) fullShare ((dats m 0 c).after 6 t) from by
    unfold Dat.leavesExact; rw [liveAt6 t], after6]
  by_cases h4 : 4 ≤ t.val
  · -- points 4 to 13
    rw [show (dats m 0 c).leavesExact 7 t = owns (c : Thread nD τ) (ms7 t) fullShare ((dats m 0 c).after 7 t) from by
      unfold Dat.leavesExact; rw [liveAt7 t h4], after7 m c t h4]
    rw [PhiS_pos_late m c _ _ h4, PhiS_succ_late m c _ _ (by omega)]
    unfold outAt outD
    iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) (fun h => by have := (hcond1 t).mp h; omega) (fun h => by have := (hcond2 t).mp h; omega) (fun h => by have := (hcond3 t).mp h; omega) ((hcond4 t).mpr h4) (iblk m c 4 t) (iblk m c 5 t) (iblk m c 6 t) (omk m c).1 (omk m c).2).2 _ Set.univ _)
    isplitl [H4]; · iexact H4
    isplitl [H5]; · iexact H5
    isplitl [H6]; · iexact H6
    isplitl [S3]; · iexact S3
    isplitl [S4]; · iexact S4
    isplitl [H7]; · iexact H7
    iintro ⟨H4, H5, H6, S3, S4, ⟨%e7, H7⟩⟩
    isplitl [S0 S1 S2 S3 S4 Hg]
    · isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverD7 c _ _ _ _ _ _ _ _ _ _ _ _ _ _ _ _ _ _ _ _ _ _ _ _ _ _ _ _ _ _ _ _ _ _ _ _)
  · have h4' : t.val < 4 := by omega
    rw [Dat.leavesExact_idle (dats m 0 c) 7 t (idleAt7 t h4') (noFlush7 t h4')]
    by_cases h0 : t.val = 0
    · -- the first point
      rw [PhiS_zero m c _ _ h0, PhiA_eq, PhiS_succ_gram m c _ _ (by omega), gramAt_zero m c t h0]
      unfold gA; dsimp only
      iintro ⟨⟨⟨⟨%e0, S0⟩, ⟨%e1, S1⟩, ⟨%e2, S2⟩, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) ((hcond1 t).mpr h0) (fun h => by have := (hcond2 t).mp h; omega) (fun h => by have := (hcond3 t).mp h; omega) (fun h => by have := (hcond4 t).mp h; omega) (iblk m c 0 t)).2.2.2 _ _ _ Set.univ _)
      isplitl [H0]; · iexact H0
      isplitl [S0]; · iexact S0
      isplitl [S1]; · iexact S1
      isplitl [S2]; · iexact S2
      iintro ⟨H0, ⟨%f0, S0⟩, ⟨%f1, S1⟩, ⟨%f2, S2⟩⟩
      isplitl [S0 S1 S2 S3 S4 Hg]
      · isplitl [S0 S1 S2 S3 S4]
        · isplitl [S0]
          · unfold owns; iexists _; isplitr
            swap; · iexact S0
            ipureintro; exact View.read_writes_of_cover _ _ _ _ _ (coverA0 c _ _ _ _ _ _ _ _ _ _ _ _ _ _ _ _ _ _ _ _ _ _ _ _ _ _ _ _ _ _ _ _)
          isplitl [S1]
          · unfold owns; iexists _; isplitr
            swap; · iexact S1
            ipureintro; exact View.read_writes_of_cover _ _ _ _ _ (coverA1 c _ _ _ _ _ _ _ _ _ _ _ _ _ _ _ _ _ _ _ _ _ _ _ _ _ _ _ _ _ _ _ _)
          isplitl [S2]
          · unfold owns; iexists _; isplitr
            swap; · iexact S2
            ipureintro; exact View.read_writes_of_cover _ _ _ _ _ (coverA2 c _ _ _ _ _ _ _ _ _ _ _ _ _ _ _ _ _ _ _ _ _ _ _ _ _ _ _ _ _ _ _ _)
          isplitl [S3]; · iexact S3
          iexact S4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · by_cases h3 : t.val = 3
      · -- point 3
        rw [PhiS_pos_gram m c _ _ h0 (by omega), PhiS_succ_late m c _ _ (by omega), omk_eq m c t h3]
        unfold omkAt omkC; dsimp only
        iintro ⟨⟨⟨S0, S1, S2, ⟨%e3, S3⟩, ⟨%e4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) (fun h => by have := (hcond1 t).mp h; omega) ((hcond2 t).mpr ⟨by omega, by omega⟩) ((hcond3 t).mpr h3) (fun h => by have := (hcond4 t).mp h; omega) (iblk m c 0 t) (iblk m c 1 t) (iblk m c 2 t) (iblk m c 3 t)
          (gramAt m c (t.val - 1) (by omega)).1 (gramAt m c (t.val - 1) (by omega)).2.1 (gramAt m c (t.val - 1) (by omega)).2.2).2.2.2.2.2 _ _ Set.univ _)
        isplitl [H0]; · iexact H0
        isplitl [H1]; · iexact H1
        isplitl [H2]; · iexact H2
        isplitl [H3]; · iexact H3
        isplitl [S0]; · iexact S0
        isplitl [S1]; · iexact S1
        isplitl [S2]; · iexact S2
        isplitl [S3]; · iexact S3
        isplitl [S4]; · iexact S4
        iintro ⟨H0, H1, H2, H3, ⟨%f0, S0⟩, ⟨%f1, S1⟩, ⟨%f2, S2⟩, ⟨%f3, S3⟩, ⟨%f4, S4⟩⟩
        isplitl [S0 S1 S2 S3 S4 Hg]
        · isplitl [S0 S1 S2 S3 S4]
          · isplitl [S0]
            · iexists _; unfold owns; iexists _; isplitr
              swap; · iexact S0
              ipureintro; rfl
            isplitl [S1]
            · iexists _; unfold owns; iexists _; isplitr
              swap; · iexact S1
              ipureintro; rfl
            isplitl [S2]
            · iexists _; unfold owns; iexists _; isplitr
              swap; · iexact S2
              ipureintro; rfl
            isplitl [S3]
            · unfold owns; iexists _; isplitr
              swap; · iexact S3
              ipureintro; exact View.read_writes_of_cover _ _ _ _ _ (coverC3 c _ _ _ _ _ _ _ _ _ _ _ _ _ _ _ _ _ _ _ _ _ _ _ _ _ _ _ _ _ _ _ _ _ _ _ _ _ _)
            unfold owns; iexists _; isplitr
            swap; · iexact S4
            ipureintro; exact View.read_writes_of_cover _ _ _ _ _ (coverC4 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · -- points 1 and 2
        have hlo : 1 ≤ t.val := by omega
        have hhi : t.val < 3 := by omega
        rw [PhiS_pos_gram m c _ _ h0 (by omega), PhiS_succ_gram m c _ _ hhi, gramAt_succ m c t hlo hhi]
        unfold gB; dsimp only
        iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) (fun h => by have := (hcond1 t).mp h; omega) ((hcond2 t).mpr ⟨hlo, by omega⟩) (fun h => by have := (hcond3 t).mp h; omega) (fun h => by have := (hcond4 t).mp h; omega) (iblk m c 0 t)
          (gramAt m c (t.val - 1) (by omega)).1 (gramAt m c (t.val - 1) (by omega)).2.1 (gramAt m c (t.val - 1) (by omega)).2.2).2.2.2 Set.univ _)
        isplitl [H0]; · iexact H0
        isplitl [S0]; · iexact S0
        isplitl [S1]; · iexact S1
        isplitl [S2]; · iexact S2
        iintro ⟨H0, ⟨%f0, S0⟩, ⟨%f1, S1⟩, ⟨%f2, S2⟩⟩
        isplitl [S0 S1 S2 S3 S4 Hg]
        · isplitl [S0 S1 S2 S3 S4]
          · isplitl [S0]
            · unfold owns; iexists _; isplitr
              swap; · iexact S0
              ipureintro; exact View.read_writes_of_cover _ _ _ _ _ (coverB0 c _ _ _ _ _ _ _ _ _ _ _ _ _ _ _ _ _ _ _ _ _ _ _ _ _ _ _ _ _ _ _ _ _ _ _)
            isplitl [S1]
            · unfold owns; iexists _; isplitr
              swap; · iexact S1
              ipureintro; exact View.read_writes_of_cover _ _ _ _ _ (coverB1 c _ _ _ _ _ _ _ _ _ _ _ _ _ _ _ _ _ _ _ _ _ _ _ _ _ _ _ _ _ _ _ _ _ _ _)
            isplitl [S2]
            · unfold owns; iexists _; isplitr
              swap; · iexact S2
              ipureintro; exact View.read_writes_of_cover _ _ _ _ _ (coverB2 c _ _ _ _ _ _ _ _ _ _ _ _ _ _ _ _ _ _ _ _ _ _ _ _ _ _ _ _ _ _ _ _ _ _ _)
            isplitl [S3]; · iexact S3
            iexact S4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos_late m c _ _ (by rw [Fin.val_last]; have : cfg0.N = 14 := N_0; omega), PhiA_eq]
  iintro ⟨⟨S0, S1, S2, S3, S4⟩, Hg⟩
  isplitl [S0 S1 S2 S3 S4]
  · isplitl [S0]; · iexact S0
    isplitl [S1]; · iexact S1
    isplitl [S2]; · iexact S2
    isplitl [S3]; · iexists _; iexact S3
    iexists _; iexact S4
  iexact Hg

/-! ## The run and the frame -/

set_option backward.isDefEq.respectTransparency.types false in
/-- Every weakly fair execution of the program terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body

end
-- ==== Proof.BodyIdeal.Shared.lean ====
/-
  What the four runs of the fused kernel's body share: the four branch conditions as the body computes them from
  the grid coordinate, with the points at which each holds; where the output window is idle; the staging and
  scratch memrefs the pipeline hands the body; and the region's invariant with the five scratch buffers named.
  The grid has 14 points: point 0 starts the Gram accumulators, points 1 to 3 add to them, point 3 also turns
  them into the mixing matrix and the keys, and points 4 to 13 compute one block of the output each.
-/
import proofs.«138382_g52209622450808_cont_9to1_m_767_28_alg».proof.Proof.Gen.KernelIdeal.Frame
import proofs.«138382_g52209622450808_cont_9to1_m_767_28_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The first branch is taken (the Gram accumulators are started): the coordinate is 0. -/
abbrev cond1 (i : grid0.Coords) : Prop :=
  (Scalar.cmpi .ne (Scalar.extui (Scalar.cmpi .eq (BitVec.ofNat 32 (i 0).val) 0#32)) 0#32) = 1#1
/-- The second branch is taken (a chunk's products are added to the accumulators): the coordinate is 1, 2 or 3. -/
abbrev cond2 (i : grid0.Coords) : Prop :=
  (Scalar.cmpi .ne (Scalar.extui (Scalar.andi (Scalar.cmpi .sgt (BitVec.ofNat 32 (i 0).val) 0#32) (Scalar.cmpi .slt (BitVec.ofNat 32 (i 0).val) 4#32))) 0#32) = 1#1
/-- The third branch is taken (the mixing matrix and the keys are made): the coordinate is 3. -/
abbrev cond3 (i : grid0.Coords) : Prop :=
  (Scalar.cmpi .ne (Scalar.extui (Scalar.cmpi .eq (BitVec.ofNat 32 (i 0).val) 3#32)) 0#32) = 1#1
/-- The fourth branch is taken (a block of the output is computed): the coordinate is at least 4. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ (1 ≤ t.val ∧ t.val ≤ 3) :=
  (by decide +kernel : ∀ t : Fin grid0.N, cond2 (grid0.coords t) ↔ (1 ≤ t.val ∧ t.val ≤ 3))
theorem hcond3 : ∀ t : Fin cfg0.N, cond3 (grid0.coords t) ↔ t.val = 3 :=
  (by decide +kernel : ∀ t : Fin grid0.N, cond3 (grid0.coords t) ↔ t.val = 3)
theorem hcond4 : ∀ t : Fin cfg0.N, cond4 (grid0.coords t) ↔ 4 ≤ t.val :=
  (by decide +kernel : ∀ t : Fin grid0.N, cond4 (grid0.coords t) ↔ 4 ≤ t.val)

/-! ## Where the windows are idle, and when the output is written back -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
/-- Before point 4 the body stores nothing into the output window: it is idle there, -/
theorem idleAt7 : ∀ t : Fin cfg0.N, t.val < 4 → cfg0.idle 7 (grid0.coords t) = true := by decide +kernel
/-- and its block is not written back there; -/
theorem noFlush7 : ∀ t : Fin cfg0.N, t.val < 4 → (cfg0.win 7).flush t = false := by decide +kernel
/-- from point 4 on it is live. -/
theorem liveAt7 : ∀ t : Fin cfg0.N, 4 ≤ t.val → cfg0.idle 7 (grid0.coords t) = false := by decide +kernel

/-! ## The memrefs the body is called with -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1000x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1000x256 .f32 := win0_7.stage (cfg0.slots t 7)
abbrev hs7 (t : Fin cfg0.N) : (ms7 t).IsWhole := hstage0_7 ((cfg0.slots t 7).cast nbuf0_7)

/-- The scratch operands: the three Gram accumulators, the mixing matrix with its column of ones, the keys. -/
abbrev sc0 : Memref sig .tc .vmem S512x512 .f32 := Memref.whole cc0_scratch0
abbrev sc1 : Memref sig .tc .vmem S512x512 .f32 := Memref.whole cc0_scratch1
abbrev sc2 : Memref sig .tc .vmem S512x512 .f32 := Memref.whole cc0_scratch2
abbrev sc3 : Memref sig .tc .vmem S1024x384 .bf16 := Memref.whole cc0_scratch3
abbrev sc4 : Memref sig .tc .vmem S1024x256 .bf16 := Memref.whole cc0_scratch4

/-- The views through which the contents of the scratch buffers and of the output's staging buffer are stated. -/
abbrev VS0 : View sig .tc .vmem S512x512 .f32 := sc0.view
abbrev VS1 : View sig .tc .vmem S512x512 .f32 := sc1.view
abbrev VS2 : View sig .tc .vmem S512x512 .f32 := sc2.view
abbrev VS3 : View sig .tc .vmem S1024x384 .bf16 := sc3.view
abbrev VS4 : View sig .tc .vmem S1024x256 .bf16 := sc4.view
abbrev VO7 : View sig .tc .vmem S1000x256 .f32 := (Memref.whole cc0_stg7_0 : Memref sig .tc .vmem S1000x256 .f32).view

/-- The region's class invariant with the scratch operands as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)
          ∗ (∃ d, owns (c : Thread nD τ) sc4 fullShare d)) ∗ (∃ r, prngReg c r)) := by
  unfold Pipeline.ΦA; rw [scopedRest0_eq]; simp only [sc0, sc1, sc2, sc3, sc4, owns_whole]; try rfl

end Cert.KernelIdeal.Body

end
-- ==== Proof.BodyIdeal.RunA.lean ====
/-
  The body at the grid's first point. Only the first branch is taken: the chunk of `fix`'s rows is read in two
  halves of 512 columns, and each Gram accumulator is STARTED at the product of two halves (left with left,
  left with right, right with right). What the three accumulators held before is overwritten.
-/
import proofs.«138382_g52209622450808_cont_9to1_m_767_28_alg».proof.Proof.BodyIdeal.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The stores of the first point, as pieces per accumulator, with the proof that the body runs there: from
    the chunk's buffer at its contents and the three accumulators at anything, to the chunk's buffer
    unchanged and each accumulator with its pieces written. -/
noncomputable def runA (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (hc1 : cond1 i) (hc2 : ¬cond2 i) (hc3 : ¬cond3 i) (hc4 : ¬cond4 i) (x0 : Vec F S1024x1024 .f32) :
    Σ' (Larg9 : List (View.Piece (Elt F) S512x512 .f32)) (Larg10 : List (View.Piece (Elt F) S512x512 .f32)), { Larg11 : List (View.Piece (Elt F) S512x512 .f32) //
      ∀ (d0 : Vec F S512x512 .f32) (d1 : Vec F S512x512 .f32) (d2 : Vec F S512x512 .f32) (E : Set ℕ) (K : PUnit → sProp 𝕄),
        iprop(owns (c : Thread nD τ) arg1 fullShare x0 ∗ owns (c : Thread nD τ) arg9 fullShare d0 ∗ owns (c : Thread nD τ) arg10 fullShare d1 ∗ owns (c : Thread nD τ) arg11 fullShare d2
            ∗ (iprop(owns (c : Thread nD τ) arg1 fullShare x0 ∗ (∃ f, arg9.view.loc (c : Thread nD τ) ↦[arg9.view.set]{fullShare} arg9.view.writes (Elt F) f Larg9) ∗ (∃ f, arg10.view.loc (c : Thread nD τ) ↦[arg10.view.set]{fullShare} arg10.view.writes (Elt F) f Larg10) ∗ (∃ f, arg11.view.loc (c : Thread nD τ) ↦[arg11.view.set]{fullShare} arg11.view.writes (Elt F) f Larg11)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun d0 d1 d2 E K => ?run⟩
  case run =>
    simp only [cc0__fused_kernel_eq_skeleton]; unfold cc0__fused_kernel_skel
    unfold owns
    iintro ⟨⟨%farg1, %hfarg1, Harg1⟩, ⟨%farg9, %hfarg9, Harg9⟩, ⟨%farg10, %hfarg10, Harg10⟩, ⟨%farg11, %hfarg11, Harg11⟩, Hk⟩
    obtain rfl := harg1.eq_unread hfarg1; obtain rfl := harg9.eq_unread hfarg9; obtain rfl := harg10.eq_unread hfarg10; obtain rfl := harg11.eq_unread hfarg11
    sl_exec (disch := first | exact hc1 | exact hc2 | exact hc3 | exact hc4)
    sl_step
    iapply Hk
    isplitl [Harg1]
    · iexists _; isplitr; · ipureintro; exact harg1.read_unread _
      iexact Harg1
    isplitl [Harg9]
    · iexists _; iexact Harg9
    isplitl [Harg10]
    · iexists _; iexact Harg10
    iexists _; iexact Harg11

end Cert.KernelIdeal.Body

end
-- ==== Proof.BodyIdeal.RunB.lean ====
/-
  The body at points 1 and 2. Only the second branch is taken: the chunk's two halves are multiplied as at the
  first point, and each product is ADDED to what its accumulator held after the point before.
-/
import proofs.«138382_g52209622450808_cont_9to1_m_767_28_alg».proof.Proof.BodyIdeal.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The stores of points 1 and 2, as pieces per accumulator, with the proof that the body runs there: from the
    chunk's buffer at its contents and the accumulators at what the point before left, to the chunk's buffer
    unchanged and each accumulator with its pieces written. -/
noncomputable def runB (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (hc1 : ¬cond1 i) (hc2 : cond2 i) (hc3 : ¬cond3 i) (hc4 : ¬cond4 i) (x0 : Vec F S1024x1024 .f32) (xs0 : Vec F S512x512 .f32) (xs1 : Vec F S512x512 .f32) (xs2 : Vec F S512x512 .f32) :
    Σ' (Larg9 : List (View.Piece (Elt F) S512x512 .f32)) (Larg10 : List (View.Piece (Elt F) S512x512 .f32)), { Larg11 : List (View.Piece (Elt F) S512x512 .f32) //
      ∀ (E : Set ℕ) (K : PUnit → sProp 𝕄),
        iprop(owns (c : Thread nD τ) arg1 fullShare x0 ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ (∃ f, arg9.view.loc (c : Thread nD τ) ↦[arg9.view.set]{fullShare} arg9.view.writes (Elt F) f Larg9) ∗ (∃ f, arg10.view.loc (c : Thread nD τ) ↦[arg10.view.set]{fullShare} arg10.view.writes (Elt F) f Larg10) ∗ (∃ f, arg11.view.loc (c : Thread nD τ) ↦[arg11.view.set]{fullShare} arg11.view.writes (Elt F) f Larg11)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__fused_kernel_eq_skeleton]; unfold cc0__fused_kernel_skel
    unfold owns
    iintro ⟨⟨%farg1, %hfarg1, Harg1⟩, ⟨%farg9, %hfarg9, Harg9⟩, ⟨%farg10, %hfarg10, Harg10⟩, ⟨%farg11, %hfarg11, Harg11⟩, Hk⟩
    obtain rfl := harg1.eq_unread hfarg1; obtain rfl := harg9.eq_unread hfarg9; obtain rfl := harg10.eq_unread hfarg10; obtain rfl := harg11.eq_unread hfarg11
    sl_exec (disch := first | exact hc1 | exact hc2 | exact hc3 | exact hc4)
    sl_step
    iapply Hk
    isplitl [Harg1]
    · iexists _; isplitr; · ipureintro; exact harg1.read_unread _
      iexact Harg1
    isplitl [Harg9]
    · iexists _; iexact Harg9
    isplitl [Harg10]
    · iexists _; iexact Harg10
    iexists _; iexact Harg11

end Cert.KernelIdeal.Body

end
-- ==== Proof.BodyIdeal.RunC.lean ====
/-
  The body at point 3. The second branch adds the last chunk's products to the accumulators; the third branch
  then reads the finished accumulators back, takes square roots, forms the column sums, divides the rows of
  `other` by them, and stores the mixed rows (two halves) and a block of ones into the 1024 × 384 scratch, and
  the keys scaled by 1/16 into the 1024 × 256 scratch.
-/
import proofs.«138382_g52209622450808_cont_9to1_m_767_28_alg».proof.Proof.BodyIdeal.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The stores of point 3, as pieces per scratch buffer, with the proof that the body runs there: from the
    buffers of the chunk, of `other`, of Wk and of bk at their contents, the accumulators at what point 2
    left, and the two other scratch buffers at anything, to the inputs unchanged and every scratch buffer
    with its pieces written. -/
noncomputable def runC (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (hc1 : ¬cond1 i) (hc2 : cond2 i) (hc3 : cond3 i) (hc4 : ¬cond4 i) (x0 : Vec F S1024x1024 .f32) (x1 : Vec F S1024x256 .f32) (x2 : Vec F S256x256 .f32) (x3 : Vec F S1x256 .f32) (xs0 : Vec F S512x512 .f32) (xs1 : Vec F S512x512 .f32) (xs2 : Vec F S512x512 .f32) :
    Σ' (Larg9 : List (View.Piece (Elt F) S512x512 .f32)) (Larg10 : List (View.Piece (Elt F) S512x512 .f32)) (Larg11 : List (View.Piece (Elt F) S512x512 .f32)) (Larg12 : List (View.Piece (Elt F) S1024x384 .bf16)), { Larg13 : List (View.Piece (Elt F) S1024x256 .bf16) //
      ∀ (d3 : Vec F S1024x384 .bf16) (d4 : Vec F S1024x256 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare xs0 ∗ owns (c : Thread nD τ) arg10 fullShare xs1 ∗ owns (c : Thread nD τ) arg11 fullShare xs2 ∗ owns (c : Thread nD τ) arg12 fullShare d3 ∗ owns (c : Thread nD τ) arg13 fullShare d4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg9.view.loc (c : Thread nD τ) ↦[arg9.view.set]{fullShare} arg9.view.writes (Elt F) f Larg9) ∗ (∃ f, arg10.view.loc (c : Thread nD τ) ↦[arg10.view.set]{fullShare} arg10.view.writes (Elt F) f Larg10) ∗ (∃ f, arg11.view.loc (c : Thread nD τ) ↦[arg11.view.set]{fullShare} arg11.view.writes (Elt F) f Larg11) ∗ (∃ f, arg12.view.loc (c : Thread nD τ) ↦[arg12.view.set]{fullShare} arg12.view.writes (Elt F) f Larg12) ∗ (∃ f, arg13.view.loc (c : Thread nD τ) ↦[arg13.view.set]{fullShare} arg13.view.writes (Elt F) f Larg13)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun d3 d4 E K => ?run⟩
  case run =>
    simp only [cc0__fused_kernel_eq_skeleton]; unfold cc0__fused_kernel_skel
    simp only [k0_part1_eq_skeleton]
    unfold owns
    iintro ⟨⟨%farg1, %hfarg1, Harg1⟩, ⟨%farg2, %hfarg2, Harg2⟩, ⟨%farg3, %hfarg3, Harg3⟩, ⟨%farg4, %hfarg4, Harg4⟩, ⟨%farg9, %hfarg9, Harg9⟩, ⟨%farg10, %hfarg10, Harg10⟩, ⟨%farg11, %hfarg11, Harg11⟩, ⟨%farg12, %hfarg12, Harg12⟩, ⟨%farg13, %hfarg13, Harg13⟩, Hk⟩
    obtain rfl := harg1.eq_unread hfarg1; obtain rfl := harg2.eq_unread hfarg2; obtain rfl := harg3.eq_unread hfarg3; obtain rfl := harg4.eq_unread hfarg4; obtain rfl := harg9.eq_unread hfarg9; obtain rfl := harg10.eq_unread hfarg10; obtain rfl := harg11.eq_unread hfarg11; obtain rfl := harg12.eq_unread hfarg12; obtain rfl := harg13.eq_unread hfarg13
    sl_exec (disch := first | exact hc1 | exact hc2 | exact hc3 | exact hc4)
    sl_step
    iapply Hk
    isplitl [Harg1]
    · iexists _; isplitr; · ipureintro; exact harg1.read_unread _
      iexact Harg1
    isplitl [Harg2]
    · iexists _; isplitr; · ipureintro; exact harg2.read_unread _
      iexact Harg2
    isplitl [Harg3]
    · iexists _; isplitr; · ipureintro; exact harg3.read_unread _
      iexact Harg3
    isplitl [Harg4]
    · iexists _; isplitr; · ipureintro; exact harg4.read_unread _
      iexact Harg4
    isplitl [Harg9]
    · iexists _; iexact Harg9
    isplitl [Harg10]
    · iexists _; iexact Harg10
    isplitl [Harg11]
    · iexists _; iexact Harg11
    isplitl [Harg12]
    · iexists _; iexact Harg12
    iexists _; iexact Harg13

end Cert.KernelIdeal.Body

end
-- ==== Proof.BodyIdeal.RunD.lean ====
/-
  The body at points 4 to 13. Only the fourth branch is taken: a block of 1000 rows of `main` is projected to
  queries, multiplied with the stored keys, exponentiated, multiplied with the stored 1024 × 384 matrix, and
  the first 256 columns of the product are multiplied by the reciprocal of column 256 and stored into the
  output's block. The two scratch buffers are only read.
-/
import proofs.«138382_g52209622450808_cont_9to1_m_767_28_alg».proof.Proof.BodyIdeal.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The store of points 4 to 13, as pieces of the output's block, with the proof that the body runs there:
    from the buffers of the block of `main`, of Wq and of bq at their contents, the two scratch buffers at
    what point 3 left, and the output's buffer at anything, to everything unchanged but the output's
    buffer, which has its pieces written. -/
noncomputable def runD (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (hc1 : ¬cond1 i) (hc2 : ¬cond2 i) (hc3 : ¬cond3 i) (hc4 : cond4 i) (x4 : Vec F S1000x256 .f32) (x5 : Vec F S256x256 .f32) (x6 : Vec F S1x256 .f32) (xs3 : Vec F S1024x384 .bf16) (xs4 : Vec F S1024x256 .bf16) :
    { Larg8 : List (View.Piece (Elt F) S1000x256 .f32) //
      ∀ (d7 : Vec F S1000x256 .f32) (E : Set ℕ) (K : PUnit → sProp 𝕄),
        iprop(owns (c : Thread nD τ) arg5 fullShare x4 ∗ owns (c : Thread nD τ) arg6 fullShare x5 ∗ owns (c : Thread nD τ) arg7 fullShare x6 ∗ owns (c : Thread nD τ) arg12 fullShare xs3 ∗ owns (c : Thread nD τ) arg13 fullShare xs4 ∗ owns (c : Thread nD τ) arg8 fullShare d7
            ∗ (iprop(owns (c : Thread nD τ) arg5 fullShare x4 ∗ owns (c : Thread nD τ) arg6 fullShare x5 ∗ owns (c : Thread nD τ) arg7 fullShare x6 ∗ owns (c : Thread nD τ) arg12 fullShare xs3 ∗ owns (c : Thread nD τ) arg13 fullShare xs4 ∗ (∃ f, arg8.view.loc (c : Thread nD τ) ↦[arg8.view.set]{fullShare} arg8.view.writes (Elt F) f Larg8)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, fun d7 E K => ?run⟩
  case run =>
    simp only [cc0__fused_kernel_eq_skeleton]; unfold cc0__fused_kernel_skel
    unfold owns
    iintro ⟨⟨%farg5, %hfarg5, Harg5⟩, ⟨%farg6, %hfarg6, Harg6⟩, ⟨%farg7, %hfarg7, Harg7⟩, ⟨%farg12, %hfarg12, Harg12⟩, ⟨%farg13, %hfarg13, Harg13⟩, ⟨%farg8, %hfarg8, Harg8⟩, Hk⟩
    obtain rfl := harg5.eq_unread hfarg5; obtain rfl := harg6.eq_unread hfarg6; obtain rfl := harg7.eq_unread hfarg7; obtain rfl := harg12.eq_unread hfarg12; obtain rfl := harg13.eq_unread hfarg13; obtain rfl := harg8.eq_unread hfarg8
    sl_exec (disch := first | exact hc1 | exact hc2 | exact hc3 | exact hc4)
    sl_step
    iapply Hk
    isplitl [Harg5]
    · iexists _; isplitr; · ipureintro; exact harg5.read_unread _
      iexact Harg5
    isplitl [Harg6]
    · iexists _; isplitr; · ipureintro; exact harg6.read_unread _
      iexact Harg6
    isplitl [Harg7]
    · iexists _; isplitr; · ipureintro; exact harg7.read_unread _
      iexact Harg7
    isplitl [Harg12]
    · iexists _; isplitr; · ipureintro; exact harg12.read_unread _
      iexact Harg12
    isplitl [Harg13]
    · iexists _; isplitr; · ipureintro; exact harg13.read_unread _
      iexact Harg13
    iexists _; iexact Harg8

end Cert.KernelIdeal.Body

end
-- ==== Proof.BodyIdeal.Frame.lean ====
/-
  The frame of the fused kernel's region: what the five scratch buffers and the output's staging buffer hold after
  each of the 14 grid points, the region's invariant that carries those contents from point to point, the proof
  data of the pipeline, the body obligation at every point (each point is one of four cases: the first point,
  points 1 and 2, point 3, points 4 to 13), and from these the run of the whole program and its frame.
  The Gram accumulators are named from the first point through point 3; the mixing matrix and the keys from
  point 3 on; before a buffer is first stored it holds anything, and after its last use its contents are forgotten.
-/
import proofs.«138382_g52209622450808_cont_9to1_m_767_28_alg».proof.Proof.BodyIdeal.RunA
import proofs.«138382_g52209622450808_cont_9to1_m_767_28_alg».proof.Proof.BodyIdeal.RunB
import proofs.«138382_g52209622450808_cont_9to1_m_767_28_alg».proof.Proof.BodyIdeal.RunC
import proofs.«138382_g52209622450808_cont_9to1_m_767_28_alg».proof.Proof.BodyIdeal.RunD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each case's stores cover the buffers they fill -/

theorem coverA0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : cond1 i) (hc2 : ¬cond2 i) (hc3 : ¬cond3 i) (hc4 : ¬cond4 i) (x0 : Vec F S1024x1024 .f32) (y : S512x512.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 hc1 hc2 hc3 hc4 x0).1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 hc1 hc2 hc3 hc4 x0).1 S512x512.size (by sl_kernel_rfl) y

theorem coverA1 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : cond1 i) (hc2 : ¬cond2 i) (hc3 : ¬cond3 i) (hc4 : ¬cond4 i) (x0 : Vec F S1024x1024 .f32) (y : S512x512.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 hc1 hc2 hc3 hc4 x0).2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 hc1 hc2 hc3 hc4 x0).2.1 S512x512.size (by sl_kernel_rfl) y

theorem coverA2 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : cond1 i) (hc2 : ¬cond2 i) (hc3 : ¬cond3 i) (hc4 : ¬cond4 i) (x0 : Vec F S1024x1024 .f32) (y : S512x512.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 hc1 hc2 hc3 hc4 x0).2.2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 hc1 hc2 hc3 hc4 x0).2.2.1 S512x512.size (by sl_kernel_rfl) y

theorem coverB0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : ¬cond3 i) (hc4 : ¬cond4 i) (x0 : Vec F S1024x1024 .f32) (xs0 xs1 xs2 : Vec F S512x512 .f32) (y : S512x512.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 xs0 xs1 xs2).1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 xs0 xs1 xs2).1 S512x512.size (by sl_kernel_rfl) y

theorem coverB1 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : ¬cond3 i) (hc4 : ¬cond4 i) (x0 : Vec F S1024x1024 .f32) (xs0 xs1 xs2 : Vec F S512x512 .f32) (y : S512x512.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 xs0 xs1 xs2).2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 xs0 xs1 xs2).2.1 S512x512.size (by sl_kernel_rfl) y

theorem coverB2 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : ¬cond3 i) (hc4 : ¬cond4 i) (x0 : Vec F S1024x1024 .f32) (xs0 xs1 xs2 : Vec F S512x512 .f32) (y : S512x512.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 xs0 xs1 xs2).2.2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 xs0 xs1 xs2).2.2.1 S512x512.size (by sl_kernel_rfl) y

theorem coverC0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : cond3 i) (hc4 : ¬cond4 i) (x0 : Vec F S1024x1024 .f32) (x1 : Vec F S1024x256 .f32) (x2 : Vec F S256x256 .f32) (x3 : Vec F S1x256 .f32) (xs0 xs1 xs2 : Vec F S512x512 .f32) (y : S512x512.Idx) :
    ∃ pc ∈ (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).1 S512x512.size (by sl_kernel_rfl) y

theorem coverC1 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : cond3 i) (hc4 : ¬cond4 i) (x0 : Vec F S1024x1024 .f32) (x1 : Vec F S1024x256 .f32) (x2 : Vec F S256x256 .f32) (x3 : Vec F S1x256 .f32) (xs0 xs1 xs2 : Vec F S512x512 .f32) (y : S512x512.Idx) :
    ∃ pc ∈ (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).2.1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).2.1 S512x512.size (by sl_kernel_rfl) y

theorem coverC2 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : cond3 i) (hc4 : ¬cond4 i) (x0 : Vec F S1024x1024 .f32) (x1 : Vec F S1024x256 .f32) (x2 : Vec F S256x256 .f32) (x3 : Vec F S1x256 .f32) (xs0 xs1 xs2 : Vec F S512x512 .f32) (y : S512x512.Idx) :
    ∃ pc ∈ (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).2.2.1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).2.2.1 S512x512.size (by sl_kernel_rfl) y

theorem coverC3 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : cond3 i) (hc4 : ¬cond4 i) (x0 : Vec F S1024x1024 .f32) (x1 : Vec F S1024x256 .f32) (x2 : Vec F S256x256 .f32) (x3 : Vec F S1x256 .f32) (xs0 xs1 xs2 : Vec F S512x512 .f32) (y : S1024x384.Idx) :
    ∃ pc ∈ (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).2.2.2.1, y ∈ pc.1.set :=
  View.cover_of_tiledBy (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).2.2.2.1 ![512, 128] (by sl_kernel_rfl) y

theorem coverC4 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : cond3 i) (hc4 : ¬cond4 i) (x0 : Vec F S1024x1024 .f32) (x1 : Vec F S1024x256 .f32) (x2 : Vec F S256x256 .f32) (x3 : Vec F S1x256 .f32) (xs0 xs1 xs2 : Vec F S512x512 .f32) (y : S1024x256.Idx) :
    ∃ pc ∈ (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).2.2.2.2.1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).2.2.2.2.1 S1024x256.size (by sl_kernel_rfl) y

theorem coverD7 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : ¬cond2 i) (hc3 : ¬cond3 i) (hc4 : cond4 i) (x4 : Vec F S1000x256 .f32) (x5 : Vec F S256x256 .f32) (x6 : Vec F S1x256 .f32) (xs3 : Vec F S1024x384 .bf16) (xs4 : Vec F S1024x256 .bf16) (y : S1000x256.Idx) :
    ∃ pc ∈ (runD c i arg1 harg1 arg2 harg2 arg3 harg3 arg4 harg4 arg5 harg5 arg6 harg6 arg7 harg7 arg8 harg8 arg9 harg9 arg10 harg10 arg11 harg11 arg12 harg12 arg13 harg13 hc1 hc2 hc3 hc4 x4 x5 x6 xs3 xs4).1, y ∈ pc.1.set :=
  View.cover_of_tiledL (runD c i arg1 harg1 arg2 harg2 arg3 harg3 arg4 harg4 arg5 harg5 arg6 harg6 arg7 harg7 arg8 harg8 arg9 harg9 arg10 harg10 arg11 harg11 arg12 harg12 arg13 harg13 hc1 hc2 hc3 hc4 x4 x5 x6 xs3 xs4).1 S1000x256.size (by sl_kernel_rfl) y

/-! ## What each case leaves: its pieces read back -/

/-- The three Gram accumulators after the first point. -/
def gA (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : cond1 i) (hc2 : ¬cond2 i) (hc3 : ¬cond3 i) (hc4 : ¬cond4 i) (x0 : Vec F S1024x1024 .f32) : Vec F S512x512 .f32 × Vec F S512x512 .f32 × Vec F S512x512 .f32 :=
  (VS0.read (Elt F) (VS0.writes (Elt F) VS0.junk (runA c i arg1 harg1 arg2 harg2 arg3 harg3 arg4 harg4 arg5 harg5 arg6 harg6 arg7 harg7 arg8 harg8 arg9 harg9 arg10 harg10 arg11 harg11 arg12 harg12 arg13 harg13 hc1 hc2 hc3 hc4 x0).1),
   VS1.read (Elt F) (VS1.writes (Elt F) VS1.junk (runA c i arg1 harg1 arg2 harg2 arg3 harg3 arg4 harg4 arg5 harg5 arg6 harg6 arg7 harg7 arg8 harg8 arg9 harg9 arg10 harg10 arg11 harg11 arg12 harg12 arg13 harg13 hc1 hc2 hc3 hc4 x0).2.1),
   VS2.read (Elt F) (VS2.writes (Elt F) VS2.junk (runA c i arg1 harg1 arg2 harg2 arg3 harg3 arg4 harg4 arg5 harg5 arg6 harg6 arg7 harg7 arg8 harg8 arg9 harg9 arg10 harg10 arg11 harg11 arg12 harg12 arg13 harg13 hc1 hc2 hc3 hc4 x0).2.2.1))

/-- The three Gram accumulators after point 1 or 2, over what the point before left. -/
def gB (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : ¬cond3 i) (hc4 : ¬cond4 i) (x0 : Vec F S1024x1024 .f32) (xs0 xs1 xs2 : Vec F S512x512 .f32) : Vec F S512x512 .f32 × Vec F S512x512 .f32 × Vec F S512x512 .f32 :=
  (VS0.read (Elt F) (VS0.writes (Elt F) VS0.junk (runB c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 xs0 xs1 xs2).1),
   VS1.read (Elt F) (VS1.writes (Elt F) VS1.junk (runB c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 xs0 xs1 xs2).2.1),
   VS2.read (Elt F) (VS2.writes (Elt F) VS2.junk (runB c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 xs0 xs1 xs2).2.2.1))

/-- The mixing matrix with its ones, and the scaled keys, after point 3, over what point 2 left in the accumulators. -/
def omkC (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : cond3 i) (hc4 : ¬cond4 i) (x0 : Vec F S1024x1024 .f32) (x1 : Vec F S1024x256 .f32) (x2 : Vec F S256x256 .f32) (x3 : Vec F S1x256 .f32) (xs0 xs1 xs2 : Vec F S512x512 .f32) : Vec F S1024x384 .bf16 × Vec F S1024x256 .bf16 :=
  (VS3.read (Elt F) (VS3.writes (Elt F) VS3.junk (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).2.2.2.1),
   VS4.read (Elt F) (VS4.writes (Elt F) VS4.junk (runC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).2.2.2.2.1))

/-- The output's block after one of the points 4 to 13. -/
def outD (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : ¬cond2 i) (hc3 : ¬cond3 i) (hc4 : cond4 i) (x4 : Vec F S1000x256 .f32) (x5 : Vec F S256x256 .f32) (x6 : Vec F S1x256 .f32) (xs3 : Vec F S1024x384 .bf16) (xs4 : Vec F S1024x256 .bf16) : Vec F S1000x256 .f32 :=
  VO7.read (Elt F) (VO7.writes (Elt F) VO7.junk (runD c i arg1 harg1 arg2 harg2 arg3 harg3 arg4 harg4 arg5 harg5 arg6 harg6 arg7 harg7 arg8 harg8 arg9 harg9 arg10 harg10 arg11 harg11 arg12 harg12 arg13 harg13 hc1 hc2 hc3 hc4 x4 x5 x6 xs3 xs4).1)

/-! ## Point by point -/

/-- The Gram accumulators after point `n`, for n = 0, 1, 2: started at point 0, added to at points 1 and 2. -/
def gramAt (c : Dev nD) : (n : ℕ) → n < 3 → Vec F S512x512 .f32 × Vec F S512x512 .f32 × Vec F S512x512 .f32
  | 0, hn =>
    let t : Fin cfg0.N := ⟨0, by decide⟩
    have h0 : t.val = 0 := rfl
    gA c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) ((hcond1 t).mpr h0) (fun h => by have := (hcond2 t).mp h; omega) (fun h => by have := (hcond3 t).mp h; omega) (fun h => by have := (hcond4 t).mp h; omega) (iblk m c 0 t)
  | n + 1, hn =>
    let t : Fin cfg0.N := ⟨n + 1, lt_of_lt_of_le hn (by decide)⟩
    have hlo : 1 ≤ t.val := Nat.succ_le_succ (Nat.zero_le n)
    have hhi : t.val < 3 := hn
    gB c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) (fun h => by have := (hcond1 t).mp h; omega) ((hcond2 t).mpr ⟨hlo, by omega⟩) (fun h => by have := (hcond3 t).mp h; omega) (fun h => by have := (hcond4 t).mp h; omega) (iblk m c 0 t)
      (gramAt c n (Nat.lt_of_succ_lt hn)).1 (gramAt c n (Nat.lt_of_succ_lt hn)).2.1 (gramAt c n (Nat.lt_of_succ_lt hn)).2.2

/-- Point 3. -/
abbrev t3 : Fin cfg0.N := ⟨3, by decide⟩

/-- The mixing matrix with its ones and the scaled keys, as a point `t` = 3 leaves them over what point 2 left. -/
def omkAt (c : Dev nD) (t : Fin cfg0.N) (h3 : t.val = 3) : Vec F S1024x384 .bf16 × Vec F S1024x256 .bf16 :=
  omkC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) (fun h => by have := (hcond1 t).mp h; omega) ((hcond2 t).mpr ⟨by omega, by omega⟩) ((hcond3 t).mpr h3) (fun h => by have := (hcond4 t).mp h; omega) (iblk m c 0 t) (iblk m c 1 t) (iblk m c 2 t) (iblk m c 3 t)
    (gramAt m c (t.val - 1) (by omega)).1 (gramAt m c (t.val - 1) (by omega)).2.1 (gramAt m c (t.val - 1) (by omega)).2.2

/-- The mixing matrix with its ones and the scaled keys, as point 3 leaves them. -/
def omk (c : Dev nD) : Vec F S1024x384 .bf16 × Vec F S1024x256 .bf16 := omkAt m c t3 rfl

/-- The output's block as point `t` ≥ 4 leaves it. -/
def outAt (c : Dev nD) (t : Fin cfg0.N) (h4 : 4 ≤ t.val) : Vec F S1000x256 .f32 :=
  outD c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) (fun h => by have := (hcond1 t).mp h; omega) (fun h => by have := (hcond2 t).mp h; omega) (fun h => by have := (hcond3 t).mp h; omega) ((hcond4 t).mpr h4) (iblk m c 4 t) (iblk m c 5 t) (iblk m c 6 t) (omk m c).1 (omk m c).2

theorem gramAt_succ (c : Dev nD) (t : Fin cfg0.N) (hlo : 1 ≤ t.val) (hhi : t.val < 3) :
    gramAt m c t.val hhi = gB c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) (fun h => by have := (hcond1 t).mp h; omega) ((hcond2 t).mpr ⟨hlo, by omega⟩) (fun h => by have := (hcond3 t).mp h; omega) (fun h => by have := (hcond4 t).mp h; omega) (iblk m c 0 t)
      (gramAt m c (t.val - 1) (by omega)).1 (gramAt m c (t.val - 1) (by omega)).2.1 (gramAt m c (t.val - 1) (by omega)).2.2 := by
  obtain ⟨n, hn⟩ := t
  cases n with
  | zero => exact absurd hlo (Nat.not_succ_le_zero 0)
  | succ n => rfl

theorem gramAt_zero (c : Dev nD) (t : Fin cfg0.N) (h0 : t.val = 0) (h : t.val < 3) :
    gramAt m c t.val h = gA c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) ((hcond1 t).mpr h0) (fun h => by have := (hcond2 t).mp h; omega) (fun h => by have := (hcond3 t).mp h; omega) (fun h => by have := (hcond4 t).mp h; omega) (iblk m c 0 t) := by
  obtain ⟨n, hn⟩ := t
  cases n with
  | zero => rfl
  | succ n => exact absurd h0 (Nat.succ_ne_zero n)

theorem omk_eq (c : Dev nD) (t : Fin cfg0.N) (h3 : t.val = 3) : omk m c = omkAt m c t h3 := by
  obtain ⟨n, hn⟩ := t
  have h3' : n = 3 := h3
  subst h3'
  rfl

/-! ## The region's invariant, point by point -/

/-- Before point `n`: before the first point every scratch buffer holds anything; before points 1, 2, 3 the Gram
    accumulators hold what the point before left and the two other buffers anything; from point 4 on the mixing matrix and
    the keys hold what point 3 left and the accumulators anything. The generator register is at some state throughout. -/
def PhiS (c : Dev nD) : (n : ℕ) → n ≤ cfg0.N → sProp 𝕄
  | 0, _ => Pipeline.ΦA spec0 c
  | n + 1, _ =>
    if h3 : n < 3 then
      iprop(iprop(owns (c : Thread nD τ) sc0 fullShare (gramAt m c n h3).1 ∗ owns (c : Thread nD τ) sc1 fullShare (gramAt m c n h3).2.1
        ∗ owns (c : Thread nD τ) sc2 fullShare (gramAt m c n h3).2.2 ∗ (∃ d, owns (c : Thread nD τ) sc3 fullShare d) ∗ (∃ d, owns (c : Thread nD τ) sc4 fullShare d)) ∗ (∃ r, prngReg c r))
    else
      iprop(iprop((∃ d, owns (c : Thread nD τ) sc0 fullShare d) ∗ (∃ d, owns (c : Thread nD τ) sc1 fullShare d) ∗ (∃ d, owns (c : Thread nD τ) sc2 fullShare d) ∗ owns (c : Thread nD τ) sc3 fullShare (omk m c).1 ∗ owns (c : Thread nD τ) sc4 fullShare (omk m c).2) ∗ (∃ r, prngReg c r))

theorem PhiS_zero (c : Dev nD) (n : ℕ) (h : n ≤ cfg0.N) (hz : n = 0) : PhiS m c n h = Pipeline.ΦA spec0 c := by
  subst hz; rfl

theorem PhiS_succ_gram (c : Dev nD) (n : ℕ) (hn : n + 1 ≤ cfg0.N) (h3 : n < 3) :
    PhiS m c (n + 1) hn = iprop(iprop(owns (c : Thread nD τ) sc0 fullShare (gramAt m c n h3).1 ∗ owns (c : Thread nD τ) sc1 fullShare (gramAt m c n h3).2.1
        ∗ owns (c : Thread nD τ) sc2 fullShare (gramAt m c n h3).2.2 ∗ (∃ d, owns (c : Thread nD τ) sc3 fullShare d) ∗ (∃ d, owns (c : Thread nD τ) sc4 fullShare d)) ∗ (∃ r, prngReg c r)) := by
  show (if h3 : n < 3 then _ else _) = _
  rw [dif_pos h3]

theorem PhiS_succ_late (c : Dev nD) (n : ℕ) (hn : n + 1 ≤ cfg0.N) (h3 : 3 ≤ n) :
    PhiS m c (n + 1) hn = iprop(iprop((∃ d, owns (c : Thread nD τ) sc0 fullShare d) ∗ (∃ d, owns (c : Thread nD τ) sc1 fullShare d) ∗ (∃ d, owns (c : Thread nD τ) sc2 fullShare d) ∗ owns (c : Thread nD τ) sc3 fullShare (omk m c).1 ∗ owns (c : Thread nD τ) sc4 fullShare (omk m c).2) ∗ (∃ r, prngReg c r)) := by
  show (if h3 : n < 3 then _ else _) = _
  rw [dif_neg (by omega)]

theorem PhiS_pos_gram (c : Dev nD) (n : ℕ) (h : n ≤ cfg0.N) (hz : n ≠ 0) (h3 : n ≤ 3) :
    PhiS m c n h = iprop(iprop(owns (c : Thread nD τ) sc0 fullShare (gramAt m c (n - 1) (by omega)).1 ∗ owns (c : Thread nD τ) sc1 fullShare (gramAt m c (n - 1) (by omega)).2.1
        ∗ owns (c : Thread nD τ) sc2 fullShare (gramAt m c (n - 1) (by omega)).2.2 ∗ (∃ d, owns (c : Thread nD τ) sc3 fullShare d) ∗ (∃ d, owns (c : Thread nD τ) sc4 fullShare d)) ∗ (∃ r, prngReg c r)) := by
  cases n with
  | zero => exact absurd rfl hz
  | succ k => exact PhiS_succ_gram m c k h (by omega)

theorem PhiS_pos_late (c : Dev nD) (n : ℕ) (h : n ≤ cfg0.N) (h4 : 4 ≤ n) :
    PhiS m c n h = iprop(iprop((∃ d, owns (c : Thread nD τ) sc0 fullShare d) ∗ (∃ d, owns (c : Thread nD τ) sc1 fullShare d) ∗ (∃ d, owns (c : Thread nD τ) sc2 fullShare d) ∗ owns (c : Thread nD τ) sc3 fullShare (omk m c).1 ∗ owns (c : Thread nD τ) sc4 fullShare (omk m c).2) ∗ (∃ r, prngReg c r)) := by
  cases n with
  | zero => exact absurd h4 (by decide)
  | succ k => exact PhiS_succ_late m c k h (by omega)

/-! ## The pipeline's proof data -/

/-- The arrays as the region finds them; after the body each input's buffer at its block, the output's at the block
    point `t` ≥ 4 computed (before that the window is idle and nothing consults its entry); the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => if h4 : 4 ≤ t.val then outAt m c t h4 else VO7.read (Elt F) VO7.junk
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) (h4 : 4 ≤ t.val) : (dats m 0 c).after 7 t = outAt m c t h4 := by
  dsimp only [dats]; rw [dif_pos h4]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

set_option maxHeartbeats 16000000 in
/-- The body at any point: the inputs' buffers hold their blocks; the point is in one of the four cases, whose run
    applies; the invariant hands the body the scratch buffers the case needs at what the point before left and takes
    them back at this point's contents; buffers the case does not touch pass through unchanged. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, Phi_castSucc]
  have hN : t.val < 14 := lt_of_lt_of_eq t.isLt (show cfg0.N = 14 from N_0)
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [show (dats m 0 c).leavesExact 6 t = owns (c : Thread nD τ) (ms6 t) fullShare ((dats m 0 c).after 6 t) from by
    unfold Dat.leavesExact; rw [liveAt6 t], after6]
  by_cases h4 : 4 ≤ t.val
  · -- points 4 to 13
    rw [show (dats m 0 c).leavesExact 7 t = owns (c : Thread nD τ) (ms7 t) fullShare ((dats m 0 c).after 7 t) from by
      unfold Dat.leavesExact; rw [liveAt7 t h4], after7 m c t h4]
    rw [PhiS_pos_late m c _ _ h4, PhiS_succ_late m c _ _ (by omega)]
    unfold outAt outD
    iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) (fun h => by have := (hcond1 t).mp h; omega) (fun h => by have := (hcond2 t).mp h; omega) (fun h => by have := (hcond3 t).mp h; omega) ((hcond4 t).mpr h4) (iblk m c 4 t) (iblk m c 5 t) (iblk m c 6 t) (omk m c).1 (omk m c).2).2 _ Set.univ _)
    isplitl [H4]; · iexact H4
    isplitl [H5]; · iexact H5
    isplitl [H6]; · iexact H6
    isplitl [S3]; · iexact S3
    isplitl [S4]; · iexact S4
    isplitl [H7]; · iexact H7
    iintro ⟨H4, H5, H6, S3, S4, ⟨%e7, H7⟩⟩
    isplitl [S0 S1 S2 S3 S4 Hg]
    · isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverD7 c _ _ _ _ _ _ _ _ _ _ _ _ _ _ _ _ _ _ _ _ _ _ _ _ _ _ _ _ _ _ _ _ _ _ _ _)
  · have h4' : t.val < 4 := by omega
    rw [Dat.leavesExact_idle (dats m 0 c) 7 t (idleAt7 t h4') (noFlush7 t h4')]
    by_cases h0 : t.val = 0
    · -- the first point
      rw [PhiS_zero m c _ _ h0, PhiA_eq, PhiS_succ_gram m c _ _ (by omega), gramAt_zero m c t h0]
      unfold gA; dsimp only
      iintro ⟨⟨⟨⟨%e0, S0⟩, ⟨%e1, S1⟩, ⟨%e2, S2⟩, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) ((hcond1 t).mpr h0) (fun h => by have := (hcond2 t).mp h; omega) (fun h => by have := (hcond3 t).mp h; omega) (fun h => by have := (hcond4 t).mp h; omega) (iblk m c 0 t)).2.2.2 _ _ _ Set.univ _)
      isplitl [H0]; · iexact H0
      isplitl [S0]; · iexact S0
      isplitl [S1]; · iexact S1
      isplitl [S2]; · iexact S2
      iintro ⟨H0, ⟨%f0, S0⟩, ⟨%f1, S1⟩, ⟨%f2, S2⟩⟩
      isplitl [S0 S1 S2 S3 S4 Hg]
      · isplitl [S0 S1 S2 S3 S4]
        · isplitl [S0]
          · unfold owns; iexists _; isplitr
            swap; · iexact S0
            ipureintro; exact View.read_writes_of_cover _ _ _ _ _ (coverA0 c _ _ _ _ _ _ _ _ _ _ _ _ _ _ _ _ _ _ _ _ _ _ _ _ _ _ _ _ _ _ _ _)
          isplitl [S1]
          · unfold owns; iexists _; isplitr
            swap; · iexact S1
            ipureintro; exact View.read_writes_of_cover _ _ _ _ _ (coverA1 c _ _ _ _ _ _ _ _ _ _ _ _ _ _ _ _ _ _ _ _ _ _ _ _ _ _ _ _ _ _ _ _)
          isplitl [S2]
          · unfold owns; iexists _; isplitr
            swap; · iexact S2
            ipureintro; exact View.read_writes_of_cover _ _ _ _ _ (coverA2 c _ _ _ _ _ _ _ _ _ _ _ _ _ _ _ _ _ _ _ _ _ _ _ _ _ _ _ _ _ _ _ _)
          isplitl [S3]; · iexact S3
          iexact S4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · by_cases h3 : t.val = 3
      · -- point 3
        rw [PhiS_pos_gram m c _ _ h0 (by omega), PhiS_succ_late m c _ _ (by omega), omk_eq m c t h3]
        unfold omkAt omkC; dsimp only
        iintro ⟨⟨⟨S0, S1, S2, ⟨%e3, S3⟩, ⟨%e4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) (fun h => by have := (hcond1 t).mp h; omega) ((hcond2 t).mpr ⟨by omega, by omega⟩) ((hcond3 t).mpr h3) (fun h => by have := (hcond4 t).mp h; omega) (iblk m c 0 t) (iblk m c 1 t) (iblk m c 2 t) (iblk m c 3 t)
          (gramAt m c (t.val - 1) (by omega)).1 (gramAt m c (t.val - 1) (by omega)).2.1 (gramAt m c (t.val - 1) (by omega)).2.2).2.2.2.2.2 _ _ Set.univ _)
        isplitl [H0]; · iexact H0
        isplitl [H1]; · iexact H1
        isplitl [H2]; · iexact H2
        isplitl [H3]; · iexact H3
        isplitl [S0]; · iexact S0
        isplitl [S1]; · iexact S1
        isplitl [S2]; · iexact S2
        isplitl [S3]; · iexact S3
        isplitl [S4]; · iexact S4
        iintro ⟨H0, H1, H2, H3, ⟨%f0, S0⟩, ⟨%f1, S1⟩, ⟨%f2, S2⟩, ⟨%f3, S3⟩, ⟨%f4, S4⟩⟩
        isplitl [S0 S1 S2 S3 S4 Hg]
        · isplitl [S0 S1 S2 S3 S4]
          · isplitl [S0]
            · iexists _; unfold owns; iexists _; isplitr
              swap; · iexact S0
              ipureintro; rfl
            isplitl [S1]
            · iexists _; unfold owns; iexists _; isplitr
              swap; · iexact S1
              ipureintro; rfl
            isplitl [S2]
            · iexists _; unfold owns; iexists _; isplitr
              swap; · iexact S2
              ipureintro; rfl
            isplitl [S3]
            · unfold owns; iexists _; isplitr
              swap; · iexact S3
              ipureintro; exact View.read_writes_of_cover _ _ _ _ _ (coverC3 c _ _ _ _ _ _ _ _ _ _ _ _ _ _ _ _ _ _ _ _ _ _ _ _ _ _ _ _ _ _ _ _ _ _ _ _ _ _)
            unfold owns; iexists _; isplitr
            swap; · iexact S4
            ipureintro; exact View.read_writes_of_cover _ _ _ _ _ (coverC4 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · -- points 1 and 2
        have hlo : 1 ≤ t.val := by omega
        have hhi : t.val < 3 := by omega
        rw [PhiS_pos_gram m c _ _ h0 (by omega), PhiS_succ_gram m c _ _ hhi, gramAt_succ m c t hlo hhi]
        unfold gB; dsimp only
        iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) (fun h => by have := (hcond1 t).mp h; omega) ((hcond2 t).mpr ⟨hlo, by omega⟩) (fun h => by have := (hcond3 t).mp h; omega) (fun h => by have := (hcond4 t).mp h; omega) (iblk m c 0 t)
          (gramAt m c (t.val - 1) (by omega)).1 (gramAt m c (t.val - 1) (by omega)).2.1 (gramAt m c (t.val - 1) (by omega)).2.2).2.2.2 Set.univ _)
        isplitl [H0]; · iexact H0
        isplitl [S0]; · iexact S0
        isplitl [S1]; · iexact S1
        isplitl [S2]; · iexact S2
        iintro ⟨H0, ⟨%f0, S0⟩, ⟨%f1, S1⟩, ⟨%f2, S2⟩⟩
        isplitl [S0 S1 S2 S3 S4 Hg]
        · isplitl [S0 S1 S2 S3 S4]
          · isplitl [S0]
            · unfold owns; iexists _; isplitr
              swap; · iexact S0
              ipureintro; exact View.read_writes_of_cover _ _ _ _ _ (coverB0 c _ _ _ _ _ _ _ _ _ _ _ _ _ _ _ _ _ _ _ _ _ _ _ _ _ _ _ _ _ _ _ _ _ _ _)
            isplitl [S1]
            · unfold owns; iexists _; isplitr
              swap; · iexact S1
              ipureintro; exact View.read_writes_of_cover _ _ _ _ _ (coverB1 c _ _ _ _ _ _ _ _ _ _ _ _ _ _ _ _ _ _ _ _ _ _ _ _ _ _ _ _ _ _ _ _ _ _ _)
            isplitl [S2]
            · unfold owns; iexists _; isplitr
              swap; · iexact S2
              ipureintro; exact View.read_writes_of_cover _ _ _ _ _ (coverB2 c _ _ _ _ _ _ _ _ _ _ _ _ _ _ _ _ _ _ _ _ _ _ _ _ _ _ _ _ _ _ _ _ _ _ _)
            isplitl [S3]; · iexact S3
            iexact S4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos_late m c _ _ (by rw [Fin.val_last]; have : cfg0.N = 14 := N_0; omega), PhiA_eq]
  iintro ⟨⟨S0, S1, S2, S3, S4⟩, Hg⟩
  isplitl [S0 S1 S2 S3 S4]
  · isplitl [S0]; · iexact S0
    isplitl [S1]; · iexact S1
    isplitl [S2]; · iexact S2
    isplitl [S3]; · iexists _; iexact S3
    iexists _; iexact S4
  iexact Hg

/-! ## The run and the frame -/

set_option backward.isDefEq.respectTransparency.types false in
/-- Every weakly fair execution of the program terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body

end
-- ==== Proof.Spec.lean ====
/-
  THE SPECIFICATION, as formulas over the argument arrays read as functions of their coordinates.
  Arguments: main (10000 × 256), other (1024 × 256), fix (4096 × 1024), Wq (256 × 256), bq (256), Wk (256 × 256), bk (256).
  Two forms of the same result are stated here, and a third module proves them equal:
  * the REFERENCE's form (`refO`): queries and keys, logits divided by 16, a softmax shifted by some row value M,
    the square roots of the Gram matrix fixᵀ·fix divided by their column sums, mixed with `other`, then
    the attention-weighted sum;
  * the KERNEL's form (`kerO`): the Gram matrix accumulated over four chunks of 1024 rows and kept in
    quadrants of 512 × 512, the column normalisation moved onto the rows of `other`, the keys pre-scaled by 1/16,
    no shift in the exponentials, and the softmax denominator computed as one more column (a column of ones)
    of the weighted sum.
-/
import Idealize.ShloMosaic.PureOps.Ideal
import Mathlib.Algebra.BigOperators.Fin

noncomputable section

namespace Cert.Spec

open Idealize.ShloMosaic

/-- The constants of the two programs. -/
def c16 : EReal := Ideal.ofBits .f32 0x41800000#32      -- 16
def c16i : EReal := Ideal.ofBits .f32 0x3D800000#32     -- 1/16
def cOne : EReal := Ideal.ofBits .f32 0x3F800000#32     -- 1
def cOneB : EReal := Ideal.ofBits .bf16 0x3F80#16       -- 1, as the kernel's column of ones holds it

/-- Index maps: the two halves of 1024, the four chunks of 4096, the ten blocks of 10000. -/
def lo (k : Fin 512) : Fin 1024 := ⟨k.val, by omega⟩
def hi (k : Fin 512) : Fin 1024 := ⟨512 + k.val, by omega⟩
def row4 (t : Fin 4) (r : Fin 1024) : Fin 4096 := ⟨1024 * t.val + r.val, by omega⟩
def row10 (b : Fin 10) (r : Fin 1000) : Fin 10000 := ⟨1000 * b.val + r.val, by omega⟩

variable (main : Fin 10000 → Fin 256 → EReal) (other : Fin 1024 → Fin 256 → EReal) (fix : Fin 4096 → Fin 1024 → EReal)
  (Wq : Fin 256 → Fin 256 → EReal) (bq : Fin 256 → EReal) (Wk : Fin 256 → Fin 256 → EReal) (bk : Fin 256 → EReal)

/-! ## Shared by both forms -/

/-- Row r of the queries: main · Wqᵀ + bq. -/
def qry (r : Fin 10000) (e : Fin 256) : EReal := (∑ a : Fin 256, main r a * Wq e a) + bq e
/-- Row j of the keys: other · Wkᵀ + bk. -/
def key (j : Fin 1024) (e : Fin 256) : EReal := (∑ a : Fin 256, other j a * Wk e a) + bk e

/-! ## The reference's form -/

/-- The Gram matrix fixᵀ · fix. -/
def gram (i k : Fin 1024) : EReal := ∑ r : Fin 4096, fix r i * fix r k
/-- Its entrywise square root. -/
def rt (i k : Fin 1024) : EReal := Ideal.sqrt (gram fix i k)
/-- The column sums of the square roots. -/
def csum (k : Fin 1024) : EReal := ∑ i : Fin 1024, rt fix i k
/-- The column-normalised square roots, times `other`. -/
def mixR (j : Fin 1024) (d : Fin 256) : EReal := ∑ k : Fin 1024, Ideal.div (rt fix j k) (csum fix k) * other k d
/-- The logits, and the logits divided by 16. -/
def lgt (r : Fin 10000) (j : Fin 1024) : EReal := ∑ e : Fin 256, qry main Wq bq r e * key other Wk bk j e
def scl (r : Fin 10000) (j : Fin 1024) : EReal := Ideal.div (lgt main other Wq bq Wk bk r j) c16
/-- The reference's result, its softmax shifted by `M r` on row r. -/
def refO (M : Fin 10000 → EReal) (r : Fin 10000) (d : Fin 256) : EReal :=
  ∑ j : Fin 1024, Ideal.div (Ideal.exp (scl main other Wq bq Wk bk r j - M r))
      (∑ j' : Fin 1024, Ideal.exp (scl main other Wq bq Wk bk r j' - M r)) * mixR other fix j d

/-! ## The kernel's form -/

/-- One chunk's contribution to the Gram matrix. -/
def chunkP (t : Fin 4) (i k : Fin 1024) : EReal := ∑ r : Fin 1024, fix (row4 t r) i * fix (row4 t r) k
/-- The Gram matrix as the kernel accumulates it: started at chunk 0, chunks 1, 2, 3 added in turn. -/
def gramK (i k : Fin 1024) : EReal := ((chunkP fix 0 i k + chunkP fix 1 i k) + chunkP fix 2 i k) + chunkP fix 3 i k
def rtK (i k : Fin 1024) : EReal := Ideal.sqrt (gramK fix i k)
/-- The column sums of the left and right halves, from the three quadrants the kernel keeps
    (the lower-left quadrant is the upper-right one transposed). -/
def csL (k : Fin 512) : EReal := (∑ i : Fin 512, rtK fix (lo i) (lo k)) + (∑ i : Fin 512, rtK fix (lo k) (hi i))
def csR (k : Fin 512) : EReal := (∑ i : Fin 512, rtK fix (lo i) (hi k)) + (∑ i : Fin 512, rtK fix (hi i) (hi k))
/-- The rows of `other` divided by the column sums. -/
def soL (k : Fin 512) (d : Fin 256) : EReal := Ideal.div (other (lo k) d) (csL fix k)
def soR (k : Fin 512) (d : Fin 256) : EReal := Ideal.div (other (hi k) d) (csR fix k)
/-- The mixing matrix times `other`, upper and lower half of its rows. -/
def mixTop (i : Fin 512) (d : Fin 256) : EReal :=
  (∑ k : Fin 512, rtK fix (lo i) (lo k) * soL other fix k d) + (∑ k : Fin 512, rtK fix (lo i) (hi k) * soR other fix k d)
def mixBot (i : Fin 512) (d : Fin 256) : EReal :=
  (∑ k : Fin 512, rtK fix (lo k) (hi i) * soL other fix k d) + (∑ k : Fin 512, rtK fix (hi i) (hi k) * soR other fix k d)
/-- What the kernel's 1024 × 384 scratch holds after point 3: the mixed rows in columns 0 to 255, ones after. -/
def omFull (j : Fin 1024) (d : Fin 384) : EReal :=
  if hd : d.val < 256 then
    (if hj : j.val < 512 then mixTop other fix ⟨j.val, hj⟩ ⟨d.val, hd⟩ else mixBot other fix ⟨j.val - 512, by omega⟩ ⟨d.val, hd⟩)
  else cOneB
/-- The keys pre-scaled by 1/16, the logits against them. -/
def keyS (j : Fin 1024) (e : Fin 256) : EReal := key other Wk bk j e * c16i
def lgtK (r : Fin 10000) (j : Fin 1024) : EReal := ∑ e : Fin 256, qry main Wq bq r e * keyS other Wk bk j e
/-- The weighted sums with the column of ones carried along. -/
def oaug (r : Fin 10000) (d : Fin 384) : EReal :=
  ∑ j : Fin 1024, Ideal.exp (lgtK main other Wq bq Wk bk r j) * omFull other fix j d
/-- The kernel's result. -/
def kerO (r : Fin 10000) (d : Fin 256) : EReal :=
  oaug main other fix Wq bq Wk bk r ⟨d.val, by omega⟩ * Ideal.div cOne (oaug main other fix Wq bq Wk bk r ⟨256, by omega⟩)

end Cert.Spec

end
-- ==== Proof.Arr.lean ====
/-
  An array of rank 2 or 1 read as a function of its coordinates.
-/
import proofs.«138382_g52209622450808_cont_9to1_m_767_28_alg».proof.Proof.Spec
import Idealize.ShloMosaic.Lib.ValueIdx

noncomputable section

namespace Cert.Spec

open Idealize.ShloMosaic Idealize.ShloMosaic.ValueIdx

/-- A matrix as a function of its row and its column. -/
abbrev cur2 {a b : Nat} (x : (⟨2, ![a, b]⟩ : Shape).Idx → EReal) : Fin a → Fin b → EReal := fun i j => x (ix2 i j)
/-- A vector as a function of its coordinate. -/
abbrev cur1 {a : Nat} (x : (⟨1, ![a]⟩ : Shape).Idx → EReal) : Fin a → EReal := fun i => x (ix1 i)

/-- Every entry is a real number. -/
def Real2 {a b : Nat} (f : Fin a → Fin b → EReal) : Prop := ∀ i j, ∃ x : ℝ, f i j = (x : EReal)
def Real1 {a : Nat} (f : Fin a → EReal) : Prop := ∀ i, ∃ x : ℝ, f i = (x : EReal)

end Cert.Spec

end
-- ==== Proof.KvBlocks.lean ====
/-
  The kernel's argument arrays, as the region finds them, read as functions of their coordinates; and each window's
  block at a grid point read at an index as an entry of its array: the chunk of `fix` at point t is rows
  1024·min(t,3) onward, the block of `main` at point t ≥ 4 is rows 1000·(t−4) onward, every other window's block is
  its whole array; the two biases reach the kernel through a host reshape of a vector to one row.
-/
import proofs.«138382_g52209622450808_cont_9to1_m_767_28_alg».proof.Proof.Gen.KernelIdeal.Frame
import proofs.«138382_g52209622450808_cont_9to1_m_767_28_alg».proof.Proof.Arr
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Kv

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ)

/-- The seven arguments as launched, as functions of their coordinates. -/
def mainC (c : Dev nD) : Fin 10000 → Fin 256 → EReal := cur2 (m ((c.tc : Thread nD τ).loc main_arg0))
def otherC (c : Dev nD) : Fin 1024 → Fin 256 → EReal := cur2 (m ((c.tc : Thread nD τ).loc main_arg1))
def fixC (c : Dev nD) : Fin 4096 → Fin 1024 → EReal := cur2 (m ((c.tc : Thread nD τ).loc main_arg2))
def WqC (c : Dev nD) : Fin 256 → Fin 256 → EReal := cur2 (m ((c.tc : Thread nD τ).loc main_arg3))
def bqC (c : Dev nD) : Fin 256 → EReal := cur1 (m ((c.tc : Thread nD τ).loc main_arg4))
def WkC (c : Dev nD) : Fin 256 → Fin 256 → EReal := cur2 (m ((c.tc : Thread nD τ).loc main_arg5))
def bkC (c : Dev nD) : Fin 256 → EReal := cur1 (m ((c.tc : Thread nD τ).loc main_arg6))

/-! ## The printed index maps over the grid -/

/-- Each window's block index at every grid point: `fix` moves by one block of rows per point up to point 3 and
    stays there, `main` starts to move at point 4, every other window sits at block (0, 0). -/
private theorem idx_facts : ∀ t : Fin cfg0.N,
    win0_0.index t (0 : Fin 2) = min t.val 3 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val - 4 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The two biases as the region finds them: a vector of 256 reshaped to one row -/

private theorem V_main_v1 (c : Dev nD) :
    (V m c main_v1 : S1x256.Idx → EReal) = shapeCast S1x256 (m ((c.tc : Thread nD τ).loc main_arg6)) shapeCasts_S256_S1x256 := by
  dsimp only [Gen.V, Gen.hostOps0]; after_results; rfl

private theorem V_main_v0 (c : Dev nD) :
    (V m c main_v0 : S1x256.Idx → EReal) = shapeCast S1x256 (m ((c.tc : Thread nD τ).loc main_arg4)) shapeCasts_S256_S1x256 := by
  dsimp only [Gen.V, Gen.hostOps0]; after_results; rfl

/-! ## The blocks: a block's coordinate in its array is (block index) · (block size) + (coordinate inside the block) -/

/-- The chunk of `fix` at point t: rows 1024·min(t,3) onward. -/
theorem iblk0_apply (c : Dev nD) (t : Fin cfg0.N) (r : Fin 1024) (k : Fin 1024) :
    iblk m c 0 t (ix2 r k) = fixC m c ⟨1024 * min t.val 3 + r.val, by have := r.isLt; omega⟩ k := by
  show V m c main_arg2 (((cfg0.win 0).blk t).view.emb (ix2 r k))
    = m ((c.tc : Thread nD τ).loc main_arg2) (ix2 (⟨1024 * min t.val 3 + r.val, by have := r.isLt; omega⟩ : Fin 4096) k)
  rw [V_main_arg2]
  refine congrArg _ (funext fun ax => Fin.ext ?_)
  obtain ⟨e0, e1, -⟩ := idx_facts t
  match ax with
  | ⟨0, _⟩ => show win0_0.index t (0 : Fin 2) * 1024 + 1 * r.val = 1024 * min t.val 3 + r.val; omega
  | ⟨1, _⟩ => show win0_0.index t (1 : Fin 2) * 1024 + 1 * k.val = k.val; omega

/-- The window of `other`: the whole array at every point. -/
theorem iblk1_apply (c : Dev nD) (t : Fin cfg0.N) (j : Fin 1024) (a : Fin 256) :
    iblk m c 1 t (ix2 j a) = otherC m c j a := by
  show V m c main_arg1 (((cfg0.win 1).blk t).view.emb (ix2 j a)) = m ((c.tc : Thread nD τ).loc main_arg1) (ix2 j a)
  rw [V_main_arg1]
  refine congrArg _ (funext fun ax => Fin.ext ?_)
  obtain ⟨-, -, e0, e1, -⟩ := idx_facts t
  match ax with
  | ⟨0, _⟩ => show win0_1.index t (0 : Fin 2) * 1024 + 1 * j.val = j.val; omega
  | ⟨1, _⟩ => show win0_1.index t (1 : Fin 2) * 256 + 1 * a.val = a.val; omega

/-- The window of Wk: the whole array at every point. -/
theorem iblk2_apply (c : Dev nD) (t : Fin cfg0.N) (e : Fin 256) (a : Fin 256) :
    iblk m c 2 t (ix2 e a) = WkC m c e a := by
  show V m c main_arg5 (((cfg0.win 2).blk t).view.emb (ix2 e a)) = m ((c.tc : Thread nD τ).loc main_arg5) (ix2 e a)
  rw [V_main_arg5]
  refine congrArg _ (funext fun ax => Fin.ext ?_)
  obtain ⟨-, -, -, -, e0, e1, -⟩ := idx_facts t
  match ax with
  | ⟨0, _⟩ => show win0_2.index t (0 : Fin 2) * 256 + 1 * e.val = e.val; omega
  | ⟨1, _⟩ => show win0_2.index t (1 : Fin 2) * 256 + 1 * a.val = a.val; omega

/-- The window of bk (a host reshape of the vector to one row): the whole row at every point. -/
theorem iblk3_apply (c : Dev nD) (t : Fin cfg0.N) (e : Fin 256) :
    iblk m c 3 t (ix2 0 e) = bkC m c e := by
  show V m c main_v1 (((cfg0.win 3).blk t).view.emb (ix2 0 e)) = m ((c.tc : Thread nD τ).loc main_arg6) (ix1 e)
  have hi : ((cfg0.win 3).blk t).view.emb (ix2 0 e) = ix2 (0 : Fin 1) e := funext fun ax => Fin.ext (by
    obtain ⟨-, -, -, -, -, -, e0, e1, -⟩ := idx_facts t
    match ax with
    | ⟨0, _⟩ => show win0_3.index t (0 : Fin 2) * 1 + 1 * 0 = 0; omega
    | ⟨1, _⟩ => show win0_3.index t (1 : Fin 2) * 256 + 1 * e.val = e.val; omega)
  rw [hi, V_main_v1]
  exact shapeCast_a_1a_apply _ _ 0 e

/-- The block of `main` at point t ≥ 4: rows 1000·(t−4) onward. -/
theorem iblk4_apply (c : Dev nD) (t : Fin cfg0.N) (h4 : 4 ≤ t.val) (r : Fin 1000) (a : Fin 256) :
    iblk m c 4 t (ix2 r a) = mainC m c ⟨1000 * (t.val - 4) + r.val, by have := r.isLt; have := t.isLt; have : cfg0.N = 14 := N_0; omega⟩ a := by
  show V m c main_arg0 (((cfg0.win 4).blk t).view.emb (ix2 r a))
    = m ((c.tc : Thread nD τ).loc main_arg0) (ix2 (⟨1000 * (t.val - 4) + r.val, by have := r.isLt; have := t.isLt; have : cfg0.N = 14 := N_0; omega⟩ : Fin 10000) a)
  rw [V_main_arg0]
  refine congrArg _ (funext fun ax => Fin.ext ?_)
  obtain ⟨-, -, -, -, -, -, -, -, e0, e1, -⟩ := idx_facts t
  match ax with
  | ⟨0, _⟩ => show win0_4.index t (0 : Fin 2) * 1000 + 1 * r.val = 1000 * (t.val - 4) + r.val; omega
  | ⟨1, _⟩ => show win0_4.index t (1 : Fin 2) * 256 + 1 * a.val = a.val; omega

/-- The window of Wq: the whole array at every point. -/
theorem iblk5_apply (c : Dev nD) (t : Fin cfg0.N) (e : Fin 256) (a : Fin 256) :
    iblk m c 5 t (ix2 e a) = WqC m c e a := by
  show V m c main_arg3 (((cfg0.win 5).blk t).view.emb (ix2 e a)) = m ((c.tc : Thread nD τ).loc main_arg3) (ix2 e a)
  rw [V_main_arg3]
  refine congrArg _ (funext fun ax => Fin.ext ?_)
  obtain ⟨-, -, -, -, -, -, -, -, -, -, e0, e1, -⟩ := idx_facts t
  match ax with
  | ⟨0, _⟩ => show win0_5.index t (0 : Fin 2) * 256 + 1 * e.val = e.val; omega
  | ⟨1, _⟩ => show win0_5.index t (1 : Fin 2) * 256 + 1 * a.val = a.val; omega

/-- The window of bq (a host reshape of the vector to one row): the whole row at every point. -/
theorem iblk6_apply (c : Dev nD) (t : Fin cfg0.N) (e : Fin 256) :
    iblk m c 6 t (ix2 0 e) = bqC m c e := by
  show V m c main_v0 (((cfg0.win 6).blk t).view.emb (ix2 0 e)) = m ((c.tc : Thread nD τ).loc main_arg4) (ix1 e)
  have hi : ((cfg0.win 6).blk t).view.emb (ix2 0 e) = ix2 (0 : Fin 1) e := funext fun ax => Fin.ext (by
    obtain ⟨-, -, -, -, -, -, -, -, -, -, -, -, e0, e1⟩ := idx_facts t
    match ax with
    | ⟨0, _⟩ => show win0_6.index t (0 : Fin 2) * 1 + 1 * 0 = 0; omega
    | ⟨1, _⟩ => show win0_6.index t (1 : Fin 2) * 256 + 1 * e.val = e.val; omega)
  rw [hi, V_main_v0]
  exact shapeCast_a_1a_apply _ _ 0 e

end Cert.KernelIdeal.Kv

end
-- ==== Proof.KvPieces.lean ====
/-
  What each case of the kernel's body leaves in the buffers it stores into, as the kernel's arithmetic applied to what
  it loaded: the stores of a case were found as pieces (a rectangle and a value each) when the body was run; read back
  over any prior contents, pieces that cover a buffer give its contents. A chunk of `fix` is loaded as its left and right
  halves; an accumulator is stored whole; the 1024 × 384 scratch is stored in three rectangles (rows 0-511 and 512-1023
  of columns 0-255, and columns 256-383), so its contents are given piecewise.
-/
import proofs.«138382_g52209622450808_cont_9to1_m_767_28_alg».proof.Proof.BodyIdeal.Frame
import Idealize.ShloMosaic.Lib.ValueIdx
import Idealize.ShloMosaic.Lib.Pipeline.Value
import Idealize.ShloMosaic.Lib.Pipeline.FrameBody

set_option maxRecDepth 16384

noncomputable section

namespace Cert.KernelIdeal.Kv

open Cert.KernelIdeal Cert.KernelIdeal.Gen Cert.KernelIdeal.Body
open Idealize.ShloMosaic Idealize.ShloMosaic.TcCoe Idealize.ShloMosaic.ValueIdx Idealize.SL.Sem

variable {F : FTy → Type} [FloatOps F]

/-- The left and the right half (512 columns each) of a chunk of 1024 rows. -/
def xL (x0 : Vec F S1024x1024 .f32) : Vec F S1024x512 .f32 :=
  fun y => x0 (ix2 (⟨(y 0).val, idx2_lt0 y⟩ : Fin 1024) (⟨(y 1).val, by have h : (y 1).val < 512 := idx2_lt1 y; omega⟩ : Fin 1024))
def xR (x0 : Vec F S1024x1024 .f32) : Vec F S1024x512 .f32 :=
  fun y => x0 (ix2 (⟨(y 0).val, idx2_lt0 y⟩ : Fin 1024) (⟨512 + (y 1).val, by have h : (y 1).val < 512 := idx2_lt1 y; omega⟩ : Fin 1024))

/-- The zero offsets of a rank-2 rectangle, as the constant function. -/
private theorem hz2 : (![0, 0] : Fin 2 → ℕ) = fun _ => 0 := by
  funext a
  match a with
  | ⟨0, _⟩ => rfl
  | ⟨1, _⟩ => rfl

/-- A load of columns 0 to 511 of the chunk reads its left half. -/
private theorem ld_left (x0 : Vec F S1024x1024 .f32) :
    View.ld x0 (Rect.unit ![0, 0] ![1024, 512] inb_S1024x1024_S1024x512_0_0) = xL x0 := by
  funext y
  unfold xL
  refine congrArg x0 (funext fun a => Fin.ext ?_)
  match a with
  | ⟨0, _⟩ => show 0 + 1 * (y 0).val = (y 0).val; omega
  | ⟨1, _⟩ => show 0 + 1 * (y 1).val = (y 1).val; omega

/-- A load of columns 512 to 1023 of the chunk reads its right half. -/
private theorem ld_right (x0 : Vec F S1024x1024 .f32) :
    View.ld x0 (Rect.unit ![0, 512] ![1024, 512] inb_S1024x1024_S1024x512_0_512) = xR x0 := by
  funext y
  unfold xR
  refine congrArg x0 (funext fun a => Fin.ext ?_)
  match a with
  | ⟨0, _⟩ => show 0 + 1 * (y 0).val = (y 0).val; omega
  | ⟨1, _⟩ => show 512 + 1 * (y 1).val = 512 + (y 1).val; omega

/-- Under the last store, through a unit-stride rectangle: at an index whose coordinates are the rectangle's offsets
    plus a local index's, the contents are the stored value at that local index. -/
private theorem canon_unit_at {Val : EltTy → Type} [∀ e, Nonempty (Val e)] {S : Shape} {e : EltTy}
    {off size : Fin S.rank → ℕ} {inb : ∀ a, off a + size a ≤ S.size a}
    (w : (Rect.unit off size inb).shape.Idx → Val e) (L : List (View.Piece Val S e)) (y : S.Idx)
    (x : (Rect.unit off size inb).shape.Idx) (h : ∀ a, (y a).val = off a + (x a).val) :
    View.canon ((⟨Rect.unit off size inb, w⟩ : View.Piece Val S e) :: L) y = w x := by
  have hy : y = (Rect.unit off size inb).emb x := funext fun a => Fin.ext (by
    rw [h a]; show off a + (x a).val = off a + 1 * (x a).val; omega)
  rw [hy]
  exact View.canon_cons_emb _ w L x

/-- Off the last store's rectangle (some coordinate before its offset or past its end) the contents are what the
    earlier stores left. -/
private theorem canon_unit_skip {Val : EltTy → Type} [∀ e, Nonempty (Val e)] {S : Shape} {e : EltTy}
    {off size : Fin S.rank → ℕ} {inb : ∀ a, off a + size a ≤ S.size a}
    (w : (Rect.unit off size inb).shape.Idx → Val e) (L : List (View.Piece Val S e)) (y : S.Idx)
    (a : Fin S.rank) (h : (y a).val < off a ∨ off a + size a ≤ (y a).val) :
    View.canon ((⟨Rect.unit off size inb, w⟩ : View.Piece Val S e) :: L) y = View.canon L y := by
  refine View.canon_cons_of_not_mem _ L (fun hm => ?_)
  have hm' : y ∈ (Rect.unit off size inb).set := hm
  have := (Rect.mem_set_unit (inb := inb)).mp hm' a
  omega

/-- The first point starts the accumulators at the products of the halves. -/
theorem gA_eq (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : cond1 i) (hc2 : ¬cond2 i) (hc3 : ¬cond3 i) (hc4 : ¬cond4 i) (x0 : Vec F S1024x1024 .f32) :
    gA c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 = (k0_pay3 (xL x0), k0_pay4 (xL x0) (xR x0), k0_pay5 (xR x0)) := by
  unfold gA
  rw [View.read_writes_junk_eq_canon, View.read_writes_junk_eq_canon, View.read_writes_junk_eq_canon]
  unfold runA
  dsimp only
  sl_unfold_words
  rw [View.canon_unit_zero hz2, View.canon_unit_zero hz2, View.canon_unit_zero hz2]
  simp only [View.readAt_eq_ld, harg1.read_unread, ld_left, ld_right]

/-- Points 1 and 2 add the products of the halves to what the accumulators held. -/
theorem gB_eq (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : ¬cond3 i) (hc4 : ¬cond4 i) (x0 : Vec F S1024x1024 .f32) (xs0 xs1 xs2 : Vec F S512x512 .f32) :
    gB c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 xs0 xs1 xs2 = (k0_pay8 (xL x0) xs0, k0_pay9 (xL x0) (xR x0) xs1, k0_pay10 (xR x0) xs2) := by
  unfold gB
  rw [View.read_writes_junk_eq_canon, View.read_writes_junk_eq_canon, View.read_writes_junk_eq_canon]
  unfold runB
  dsimp only
  sl_unfold_words
  rw [View.canon_unit_zero hz2, View.canon_unit_zero hz2, View.canon_unit_zero hz2]
  simp only [View.readAt_eq_ld, harg1.read_unread, harg9.read_unread, harg10.read_unread, harg11.read_unread, ld_left, ld_right,
    View.ld_unit_zero (S := S512x512) hz2]

/-- Point 3 leaves the scaled keys in the 1024 × 256 scratch. -/
theorem omkC_snd (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : cond3 i) (hc4 : ¬cond4 i) (x0 : Vec F S1024x1024 .f32) (x1 : Vec F S1024x256 .f32)
    (x2 : Vec F S256x256 .f32) (x3 : Vec F S1x256 .f32) (xs0 xs1 xs2 : Vec F S512x512 .f32) :
    (omkC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).2 = k0_pay13 x1 x2 x3 := by
  unfold omkC
  dsimp only
  rw [View.read_writes_junk_eq_canon]
  unfold runC
  dsimp only
  sl_unfold_words
  rw [View.canon_unit_zero hz2]
  simp only [View.readAt_eq_ld, harg2.read_unread, harg3.read_unread, harg4.read_unread,
    View.ld_unit_zero (S := S1024x256) hz2, View.ld_unit_zero (S := S256x256) hz2, View.ld_unit_zero (S := S1x256) hz2]

/-- Point 3 leaves in the 1024 × 384 scratch, computed from the accumulators as its own last addition left them:
    the upper mixed rows, the lower mixed rows, and ones in columns 256 to 383. -/
theorem omkC_fst_apply (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : cond2 i) (hc3 : cond3 i) (hc4 : ¬cond4 i) (x0 : Vec F S1024x1024 .f32) (x1 : Vec F S1024x256 .f32)
    (x2 : Vec F S256x256 .f32) (x3 : Vec F S1x256 .f32) (xs0 xs1 xs2 : Vec F S512x512 .f32) (j : Fin 1024) (d : Fin 384) :
    (omkC c i arg1 harg1 arg2 harg2 arg3 harg3 arg4 harg4 arg5 harg5 arg6 harg6 arg7 harg7 arg8 harg8 arg9 harg9 arg10 harg10 arg11 harg11 arg12 harg12 arg13 harg13 hc1 hc2 hc3 hc4 x0 x1 x2 x3 xs0 xs1 xs2).1 (ix2 j d)
      = if hd : d.val < 256 then
          (if hj : j.val < 512 then
            k0_pay20 (k0_pay8 (xL x0) xs0) (k0_pay9 (xL x0) (xR x0) xs1) (k0_pay10 (xR x0) xs2) x1 (ix2 (⟨j.val, hj⟩ : Fin 512) (⟨d.val, hd⟩ : Fin 256))
          else
            k0_pay11 (k0_pay21 (k0_pay8 (xL x0) xs0) (k0_pay9 (xL x0) (xR x0) xs1) (k0_pay10 (xR x0) xs2) x1)
              (ix2 (⟨j.val - 512, by have := j.isLt; omega⟩ : Fin 512) (⟨d.val, hd⟩ : Fin 256)))
        else k0_pay12 (F := F) (ix2 j (⟨d.val - 256, by have := d.isLt; omega⟩ : Fin 128)) := by
  unfold omkC
  dsimp only
  rw [View.read_writes_junk_eq_canon]
  unfold runC
  dsimp only
  sl_unfold_words
  simp only [View.readCov_unit_zero (S := S512x512) _ hz2, View.readAt_eq_ld, harg1.read_unread, harg2.read_unread, harg9.read_unread, harg10.read_unread, harg11.read_unread, ld_left, ld_right,
    View.ld_unit_zero (S := S512x512) hz2, View.ld_unit_zero (S := S1024x256) hz2]
  by_cases hd : d.val < 256
  · rw [dif_pos hd]
    refine (canon_unit_skip _ _ (ix2 j d) 1 (Or.inl ?_)).trans ?_
    · show d.val < 256; exact hd
    by_cases hj : j.val < 512
    · rw [dif_pos hj]
      refine (canon_unit_skip _ _ (ix2 j d) 0 (Or.inl ?_)).trans ?_
      · show j.val < 512; exact hj
      refine canon_unit_at _ _ (ix2 j d) (ix2 (⟨j.val, hj⟩ : Fin 512) (⟨d.val, hd⟩ : Fin 256)) (fun a => ?_)
      match a with
      | ⟨0, _⟩ => show j.val = 0 + j.val; omega
      | ⟨1, _⟩ => show d.val = 0 + d.val; omega
    · rw [dif_neg hj]
      refine canon_unit_at _ _ (ix2 j d) (ix2 (⟨j.val - 512, by have := j.isLt; omega⟩ : Fin 512) (⟨d.val, hd⟩ : Fin 256)) (fun a => ?_)
      match a with
      | ⟨0, _⟩ => show j.val = 512 + (j.val - 512); omega
      | ⟨1, _⟩ => show d.val = 0 + d.val; omega
  · rw [dif_neg hd]
    refine canon_unit_at _ _ (ix2 j d) (ix2 j (⟨d.val - 256, by have := d.isLt; omega⟩ : Fin 128)) (fun a => ?_)
    match a with
    | ⟨0, _⟩ => show j.val = 0 + j.val; omega
    | ⟨1, _⟩ => show d.val = 256 + (d.val - 256); omega

/-- Points 4 to 13 leave the attention block in the output's buffer. -/
theorem outD_eq (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc1 : ¬cond1 i) (hc2 : ¬cond2 i) (hc3 : ¬cond3 i) (hc4 : cond4 i) (x4 : Vec F S1000x256 .f32) (x5 : Vec F S256x256 .f32)
    (x6 : Vec F S1x256 .f32) (xs3 : Vec F S1024x384 .bf16) (xs4 : Vec F S1024x256 .bf16) :
    outD c i arg1 harg1 arg2 harg2 arg3 harg3 arg4 harg4 arg5 harg5 arg6 harg6 arg7 harg7 arg8 harg8 arg9 harg9 arg10 harg10 arg11 harg11 arg12 harg12 arg13 harg13 hc1 hc2 hc3 hc4 x4 x5 x6 xs3 xs4 = k0_pay14 x4 x5 x6 xs4 xs3 := by
  unfold outD
  rw [View.read_writes_junk_eq_canon]
  unfold runD
  dsimp only
  sl_unfold_words
  rw [View.canon_unit_zero hz2]
  simp only [View.readAt_eq_ld, harg5.read_unread, harg6.read_unread, harg7.read_unread, harg12.read_unread, harg13.read_unread,
    View.ld_unit_zero (S := S1000x256) hz2, View.ld_unit_zero (S := S256x256) hz2, View.ld_unit_zero (S := S1x256) hz2,
    View.ld_unit_zero (S := S1024x256) hz2, View.ld_unit_zero (S := S1024x384) hz2]

end Cert.KernelIdeal.Kv

end
-- ==== Proof.PayGram.lean ====
/-
  The kernel's arithmetic for the Gram accumulators and for the keys, read at an index over the extended reals.
  A chunk of 1024 rows of `fix` is read as a left half xl and a right half xr (512 columns each). Starting an
  accumulator stores the product of two halves contracted over the chunk's rows; adding to it stores the old
  contents plus that product. The keys are other · Wkᵀ + bk, scaled by 1/16.
-/
import proofs.«138382_g52209622450808_cont_9to1_m_767_28_alg».proof.Proof.Gen.KernelIdeal.Skeleton
import proofs.«138382_g52209622450808_cont_9to1_m_767_28_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Cert.KernelIdeal Cert.KernelIdeal.Gen Cert.Spec
open Idealize.ShloMosaic Idealize.ShloMosaic.ValueIdx

/-- The product of two halves of a chunk, contracted over the chunk's 1024 rows. -/
def halfProd (a b : Vec Ideal S1024x512 .f32) (i k : Fin 512) : EReal := ∑ r : Fin 1024, a (ix2 r i) * b (ix2 r k)

/-! ## The operand indices of the two contractions

The Gram product contracts axis 0 of both operands: at output (i, k) and contraction index r the left operand is read
at (r, i) and the right at (r, k). The key product contracts axis 1 of both: at output (j, e) and contraction index a
the left operand is read at (j, a) and the right at (e, a). -/

private theorem lhs_gram_0 (i : S512x512.Idx) (q : dot_S1024x512_S1024x512_S512x512_0_0_1_1_n_n.contr.Idx) :
    (dot_S1024x512_S1024x512_S512x512_0_0_1_1_n_n.lhsIdx i q 0).val = (q ⟨0, by decide⟩).val :=
  dot_S1024x512_S1024x512_S512x512_0_0_1_1_n_n.lhsIdx_val_of_single rfl i q
private theorem lhs_gram_1 (i : S512x512.Idx) (q : dot_S1024x512_S1024x512_S512x512_0_0_1_1_n_n.contr.Idx) :
    (dot_S1024x512_S1024x512_S512x512_0_0_1_1_n_n.lhsIdx i q 1).val = (i 0).val := by
  unfold DotDims.lhsIdx
  rw [dif_neg (show ¬(1 : Fin S1024x512.rank) ∈ dot_S1024x512_S1024x512_S512x512_0_0_1_1_n_n.lhsBatch by decide), dif_pos (show (1 : Fin S1024x512.rank) ∈ dot_S1024x512_S1024x512_S512x512_0_0_1_1_n_n.lhsNonContracting by decide)]
  rfl
private theorem rhs_gram_0 (i : S512x512.Idx) (q : dot_S1024x512_S1024x512_S512x512_0_0_1_1_n_n.contr.Idx) :
    (dot_S1024x512_S1024x512_S512x512_0_0_1_1_n_n.rhsIdx i q 0).val = (q ⟨0, by decide⟩).val :=
  dot_S1024x512_S1024x512_S512x512_0_0_1_1_n_n.rhsIdx_val_of_single rfl i q
private theorem rhs_gram_1 (i : S512x512.Idx) (q : dot_S1024x512_S1024x512_S512x512_0_0_1_1_n_n.contr.Idx) :
    (dot_S1024x512_S1024x512_S512x512_0_0_1_1_n_n.rhsIdx i q 1).val = (i 1).val := by
  unfold DotDims.rhsIdx
  rw [dif_neg (show ¬(1 : Fin S1024x512.rank) ∈ dot_S1024x512_S1024x512_S512x512_0_0_1_1_n_n.rhsBatch by decide), dif_pos (show (1 : Fin S1024x512.rank) ∈ dot_S1024x512_S1024x512_S512x512_0_0_1_1_n_n.rhsNonContracting by decide)]
  rfl

private theorem lhs_key_0 (i : S1024x256.Idx) (q : dot_S1024x256_S256x256_S1024x256_1_1_0_0_n_n.contr.Idx) :
    (dot_S1024x256_S256x256_S1024x256_1_1_0_0_n_n.lhsIdx i q 0).val = (i 0).val := by
  unfold DotDims.lhsIdx
  rw [dif_neg (show ¬(0 : Fin S1024x256.rank) ∈ dot_S1024x256_S256x256_S1024x256_1_1_0_0_n_n.lhsBatch by decide), dif_pos (show (0 : Fin S1024x256.rank) ∈ dot_S1024x256_S256x256_S1024x256_1_1_0_0_n_n.lhsNonContracting by decide)]
  rfl
private theorem lhs_key_1 (i : S1024x256.Idx) (q : dot_S1024x256_S256x256_S1024x256_1_1_0_0_n_n.contr.Idx) :
    (dot_S1024x256_S256x256_S1024x256_1_1_0_0_n_n.lhsIdx i q 1).val = (q ⟨0, by decide⟩).val :=
  dot_S1024x256_S256x256_S1024x256_1_1_0_0_n_n.lhsIdx_val_of_single rfl i q
private theorem rhs_key_0 (i : S1024x256.Idx) (q : dot_S1024x256_S256x256_S1024x256_1_1_0_0_n_n.contr.Idx) :
    (dot_S1024x256_S256x256_S1024x256_1_1_0_0_n_n.rhsIdx i q 0).val = (i 1).val := by
  unfold DotDims.rhsIdx
  rw [dif_neg (show ¬(0 : Fin S256x256.rank) ∈ dot_S1024x256_S256x256_S1024x256_1_1_0_0_n_n.rhsBatch by decide), dif_pos (show (0 : Fin S256x256.rank) ∈ dot_S1024x256_S256x256_S1024x256_1_1_0_0_n_n.rhsNonContracting by decide)]
  rfl
private theorem rhs_key_1 (i : S1024x256.Idx) (q : dot_S1024x256_S256x256_S1024x256_1_1_0_0_n_n.contr.Idx) :
    (dot_S1024x256_S256x256_S1024x256_1_1_0_0_n_n.rhsIdx i q 1).val = (q ⟨0, by decide⟩).val :=
  dot_S1024x256_S256x256_S1024x256_1_1_0_0_n_n.rhsIdx_val_of_single rfl i q

/-- The Gram product into a zero accumulator, read at (i, k): the sum over the chunk's rows of the products. -/
private theorem gram_apply {φ₁ φ₂ : FTy} (a : FVec Ideal S1024x512 φ₁) (b : FVec Ideal S1024x512 φ₂) (i k : Fin 512) :
    matmul (F := Ideal) dot_S1024x512_S1024x512_S512x512_0_0_1_1_n_n none a b (constant (F := Ideal) S512x512 .f32 0x00000000#32) (ix2 i k)
      = ∑ r : Fin 1024, a (ix2 r i) * b (ix2 r k) := by
  simp only [matmul]
  rw [Ideal.matmul_constant_zero_apply, ← Equiv.sum_comp (ValueIdx.contrEquiv1 dot_S1024x512_S1024x512_S512x512_0_0_1_1_n_n 1024 rfl rfl).symm]
  refine Finset.sum_congr rfl fun r _ => ?_
  have hk := ValueIdx.contrEquiv1_symm_val dot_S1024x512_S1024x512_S512x512_0_0_1_1_n_n 1024 rfl rfl r
  have el : dot_S1024x512_S1024x512_S512x512_0_0_1_1_n_n.lhsIdx (ix2 i k) ((ValueIdx.contrEquiv1 dot_S1024x512_S1024x512_S512x512_0_0_1_1_n_n 1024 rfl rfl).symm r) = ix2 r i := funext fun a => Fin.ext (by
    match a with
    | ⟨0, _⟩ => exact (lhs_gram_0 _ _).trans hk
    | ⟨1, _⟩ => exact lhs_gram_1 _ _)
  have er : dot_S1024x512_S1024x512_S512x512_0_0_1_1_n_n.rhsIdx (ix2 i k) ((ValueIdx.contrEquiv1 dot_S1024x512_S1024x512_S512x512_0_0_1_1_n_n 1024 rfl rfl).symm r) = ix2 r k := funext fun a => Fin.ext (by
    match a with
    | ⟨0, _⟩ => exact (rhs_gram_0 _ _).trans hk
    | ⟨1, _⟩ => exact rhs_gram_1 _ _)
  rw [el, er]

/-- The key product into a zero accumulator, read at (j, e): the sum over the 256 features of the products. -/
private theorem key_apply {φ₁ φ₂ : FTy} (a : FVec Ideal S1024x256 φ₁) (b : FVec Ideal S256x256 φ₂) (j : Fin 1024) (e : Fin 256) :
    matmul (F := Ideal) dot_S1024x256_S256x256_S1024x256_1_1_0_0_n_n none a b (constant (F := Ideal) S1024x256 .f32 0x00000000#32) (ix2 j e)
      = ∑ c : Fin 256, a (ix2 j c) * b (ix2 e c) := by
  simp only [matmul]
  rw [Ideal.matmul_constant_zero_apply, ← Equiv.sum_comp (ValueIdx.contrEquiv1 dot_S1024x256_S256x256_S1024x256_1_1_0_0_n_n 256 rfl rfl).symm]
  refine Finset.sum_congr rfl fun r _ => ?_
  have hk := ValueIdx.contrEquiv1_symm_val dot_S1024x256_S256x256_S1024x256_1_1_0_0_n_n 256 rfl rfl r
  have el : dot_S1024x256_S256x256_S1024x256_1_1_0_0_n_n.lhsIdx (ix2 j e) ((ValueIdx.contrEquiv1 dot_S1024x256_S256x256_S1024x256_1_1_0_0_n_n 256 rfl rfl).symm r) = ix2 j r := funext fun a => Fin.ext (by
    match a with
    | ⟨0, _⟩ => exact lhs_key_0 _ _
    | ⟨1, _⟩ => exact (lhs_key_1 _ _).trans hk)
  have er : dot_S1024x256_S256x256_S1024x256_1_1_0_0_n_n.rhsIdx (ix2 j e) ((ValueIdx.contrEquiv1 dot_S1024x256_S256x256_S1024x256_1_1_0_0_n_n 256 rfl rfl).symm r) = ix2 e r := funext fun a => Fin.ext (by
    match a with
    | ⟨0, _⟩ => exact rhs_key_0 _ _
    | ⟨1, _⟩ => exact (rhs_key_1 _ _).trans hk)
  rw [el, er]

theorem pay3_apply (xl : Vec Ideal S1024x512 .f32) (i k : Fin 512) :
    k0_pay3 (F := Ideal) xl (ix2 i k) = halfProd xl xl i k := by
  unfold k0_pay3 k0_pay1 halfProd
  rw [shapeCast_self]
  exact gram_apply _ _ i k

theorem pay4_apply (xl xr : Vec Ideal S1024x512 .f32) (i k : Fin 512) :
    k0_pay4 (F := Ideal) xl xr (ix2 i k) = halfProd xl xr i k := by
  unfold k0_pay4 k0_pay1 k0_pay2 halfProd
  rw [shapeCast_self]
  exact gram_apply _ _ i k

theorem pay5_apply (xr : Vec Ideal S1024x512 .f32) (i k : Fin 512) :
    k0_pay5 (F := Ideal) xr (ix2 i k) = halfProd xr xr i k := by
  unfold k0_pay5 k0_pay2 halfProd
  rw [shapeCast_self]
  exact gram_apply _ _ i k

theorem pay8_apply (xl : Vec Ideal S1024x512 .f32) (g : Vec Ideal S512x512 .f32) (i k : Fin 512) :
    k0_pay8 (F := Ideal) xl g (ix2 i k) = g (ix2 i k) + halfProd xl xl i k := by
  unfold k0_pay8 k0_pay6 halfProd
  rw [shapeCast_self, addf_apply]
  exact congrArg (g (ix2 i k) + ·) (gram_apply _ _ i k)

theorem pay9_apply (xl xr : Vec Ideal S1024x512 .f32) (g : Vec Ideal S512x512 .f32) (i k : Fin 512) :
    k0_pay9 (F := Ideal) xl xr g (ix2 i k) = g (ix2 i k) + halfProd xl xr i k := by
  unfold k0_pay9 k0_pay6 k0_pay7 halfProd
  rw [shapeCast_self, addf_apply]
  exact congrArg (g (ix2 i k) + ·) (gram_apply _ _ i k)

theorem pay10_apply (xr : Vec Ideal S1024x512 .f32) (g : Vec Ideal S512x512 .f32) (i k : Fin 512) :
    k0_pay10 (F := Ideal) xr g (ix2 i k) = g (ix2 i k) + halfProd xr xr i k := by
  unfold k0_pay10 k0_pay7 halfProd
  rw [shapeCast_self, addf_apply]
  exact congrArg (g (ix2 i k) + ·) (gram_apply _ _ i k)

/-- The block of ones. -/
theorem pay12_apply (j : Fin 1024) (d : Fin 128) : k0_pay12 (F := Ideal) (ix2 j d) = cOneB := by
  unfold k0_pay12 cOneB
  rw [shapeCast_self]
  rfl

/-- The scaled keys: (other · Wkᵀ + bk) · (1/16). -/
theorem pay13_apply (o : Vec Ideal S1024x256 .f32) (wk : Vec Ideal S256x256 .f32) (b : Vec Ideal S1x256 .f32) (j : Fin 1024) (e : Fin 256) :
    k0_pay13 (F := Ideal) o wk b (ix2 j e) = ((∑ a : Fin 256, o (ix2 j a) * wk (ix2 e a)) + b (ix2 0 e)) * c16i := by
  unfold k0_pay13 c16i
  rw [shapeCast_self, truncf_apply, mulf_apply, addf_apply, broadcast_apply, shapeCast_self]
  have hb : broadcastTo S1024x256 b broadcasts_S1x256_S1024x256 (ix2 j e) = b (ix2 0 e) :=
    broadcastTo_apply b broadcasts_S1x256_S1024x256 (ix2 j e) (ix2 0 e) (fun a => by
      match a with
      | ⟨0, _⟩ => rfl
      | ⟨1, _⟩ => rfl)
  rw [hb, key_apply]
  rfl

end Cert.KernelIdeal.Pay

end
-- ==== Proof.KvStages.lean ====
/-
  What the scratch buffers hold after point 3, in the specification's terms (over the extended reals): the Gram
  accumulators after points 0, 1, 2 are the sums of the first one, two, three chunks' products of column halves; the 1024 × 256 scratch is the specification's scaled keys (`Spec.keyS`).
-/
import proofs.«138382_g52209622450808_cont_9to1_m_767_28_alg».proof.Proof.KvBlocks
import proofs.«138382_g52209622450808_cont_9to1_m_767_28_alg».proof.Proof.KvPieces
import proofs.«138382_g52209622450808_cont_9to1_m_767_28_alg».proof.Proof.PayGram

set_option maxRecDepth 16384

noncomputable section

namespace Cert.KernelIdeal.Kv

open Cert.KernelIdeal Cert.KernelIdeal.Gen Cert.KernelIdeal.Body Cert.Spec
open Idealize.ShloMosaic Idealize.ShloMosaic.TcCoe Idealize.ShloMosaic.ValueIdx Idealize.SL.Sem

variable (m : (ℓ : Loc nD τ sig) → Buf (Elt Ideal) ℓ)

open Cert.KernelIdeal.Pay

/-! ## The halves of a chunk, and a chunk's products -/

/-- The left half of a chunk at (r, i) is the chunk at column i; the right half at column 512 + i. -/
private theorem xL_apply (x0 : Vec Ideal S1024x1024 .f32) (r : Fin 1024) (i : Fin 512) :
    xL x0 (ix2 r i) = x0 (ix2 r (lo i)) := rfl
private theorem xR_apply (x0 : Vec Ideal S1024x1024 .f32) (r : Fin 1024) (i : Fin 512) :
    xR x0 (ix2 r i) = x0 (ix2 r (hi i)) := rfl

/-- The chunk at a point whose number, cut off at 3, is u: at (r, k) it is row 1024·u + r of `fix`. -/
private theorem iblk0_row4 (c : Dev nD) (t : Fin cfg0.N) (u : Fin 4) (h : min t.val 3 = u.val) (r k : Fin 1024) :
    iblk m c 0 t (ix2 r k) = fixC m c (row4 u r) k := by
  rw [iblk0_apply]
  exact congrArg (fun x => fixC m c x k)
    (Fin.ext (by show 1024 * min t.val 3 + r.val = 1024 * u.val + r.val; rw [h]))

/-- The products of the halves of that chunk, contracted over its rows, are chunk u's contribution to the Gram matrix. -/
private theorem half_LL (c : Dev nD) (t : Fin cfg0.N) (u : Fin 4) (h : min t.val 3 = u.val) (i k : Fin 512) :
    halfProd (xL (iblk m c 0 t)) (xL (iblk m c 0 t)) i k = chunkP (fixC m c) u (lo i) (lo k) := by
  unfold halfProd chunkP
  exact Finset.sum_congr rfl fun r _ => by
    simp only [xL_apply, iblk0_row4 m c t u h]
private theorem half_LR (c : Dev nD) (t : Fin cfg0.N) (u : Fin 4) (h : min t.val 3 = u.val) (i k : Fin 512) :
    halfProd (xL (iblk m c 0 t)) (xR (iblk m c 0 t)) i k = chunkP (fixC m c) u (lo i) (hi k) := by
  unfold halfProd chunkP
  exact Finset.sum_congr rfl fun r _ => by
    simp only [xL_apply, xR_apply, iblk0_row4 m c t u h]
private theorem half_RR (c : Dev nD) (t : Fin cfg0.N) (u : Fin 4) (h : min t.val 3 = u.val) (i k : Fin 512) :
    halfProd (xR (iblk m c 0 t)) (xR (iblk m c 0 t)) i k = chunkP (fixC m c) u (hi i) (hi k) := by
  unfold halfProd chunkP
  exact Finset.sum_congr rfl fun r _ => by
    simp only [xR_apply, iblk0_row4 m c t u h]

/-- The accumulators after points 0, 1, 2: chunk 0's products; plus chunk 1's; plus chunk 2's. -/
theorem gramAt0_apply (c : Dev nD) (i k : Fin 512) :
    (gramAt m c 0 (by decide)).1 (ix2 i k) = chunkP (fixC m c) 0 (lo i) (lo k)
    ∧ (gramAt m c 0 (by decide)).2.1 (ix2 i k) = chunkP (fixC m c) 0 (lo i) (hi k)
    ∧ (gramAt m c 0 (by decide)).2.2 (ix2 i k) = chunkP (fixC m c) 0 (hi i) (hi k) := by
  have h0 : gramAt m c 0 (by decide) = _ := gramAt_zero m c ⟨0, by decide⟩ rfl (by decide)
  rw [h0, gA_eq]
  have hm : min (⟨0, by decide⟩ : Fin cfg0.N).val 3 = (0 : Fin 4).val := by decide
  exact ⟨(pay3_apply _ i k).trans (half_LL m c _ 0 hm i k),
    (pay4_apply _ _ i k).trans (half_LR m c _ 0 hm i k),
    (pay5_apply _ i k).trans (half_RR m c _ 0 hm i k)⟩

theorem gramAt1_apply (c : Dev nD) (i k : Fin 512) :
    (gramAt m c 1 (by decide)).1 (ix2 i k) = chunkP (fixC m c) 0 (lo i) (lo k) + chunkP (fixC m c) 1 (lo i) (lo k)
    ∧ (gramAt m c 1 (by decide)).2.1 (ix2 i k) = chunkP (fixC m c) 0 (lo i) (hi k) + chunkP (fixC m c) 1 (lo i) (hi k)
    ∧ (gramAt m c 1 (by decide)).2.2 (ix2 i k) = chunkP (fixC m c) 0 (hi i) (hi k) + chunkP (fixC m c) 1 (hi i) (hi k) := by
  have h1 : gramAt m c 1 (by decide) = _ := gramAt_succ m c ⟨1, by decide⟩ (by decide) (by decide)
  rw [h1, gB_eq]
  obtain ⟨g0, g1, g2⟩ := gramAt0_apply m c i k
  have hm : min (⟨1, by decide⟩ : Fin cfg0.N).val 3 = (1 : Fin 4).val := by decide
  exact ⟨(pay8_apply _ _ i k).trans (congrArg₂ (· + ·) g0 (half_LL m c _ 1 hm i k)),
    (pay9_apply _ _ _ i k).trans (congrArg₂ (· + ·) g1 (half_LR m c _ 1 hm i k)),
    (pay10_apply _ _ i k).trans (congrArg₂ (· + ·) g2 (half_RR m c _ 1 hm i k))⟩

theorem gramAt2_apply (c : Dev nD) (i k : Fin 512) :
    (gramAt m c 2 (by decide)).1 (ix2 i k)
      = (chunkP (fixC m c) 0 (lo i) (lo k) + chunkP (fixC m c) 1 (lo i) (lo k)) + chunkP (fixC m c) 2 (lo i) (lo k)
    ∧ (gramAt m c 2 (by decide)).2.1 (ix2 i k)
      = (chunkP (fixC m c) 0 (lo i) (hi k) + chunkP (fixC m c) 1 (lo i) (hi k)) + chunkP (fixC m c) 2 (lo i) (hi k)
    ∧ (gramAt m c 2 (by decide)).2.2 (ix2 i k)
      = (chunkP (fixC m c) 0 (hi i) (hi k) + chunkP (fixC m c) 1 (hi i) (hi k)) + chunkP (fixC m c) 2 (hi i) (hi k) := by
  have h2 : gramAt m c 2 (by decide) = _ := gramAt_succ m c ⟨2, by decide⟩ (by decide) (by decide)
  rw [h2, gB_eq]
  obtain ⟨g0, g1, g2⟩ := gramAt1_apply m c i k
  have hm : min (⟨2, by decide⟩ : Fin cfg0.N).val 3 = (2 : Fin 4).val := by decide
  exact ⟨(pay8_apply _ _ i k).trans (congrArg₂ (· + ·) g0 (half_LL m c _ 2 hm i k)),
    (pay9_apply _ _ _ i k).trans (congrArg₂ (· + ·) g1 (half_LR m c _ 2 hm i k)),
    (pay10_apply _ _ i k).trans (congrArg₂ (· + ·) g2 (half_RR m c _ 2 hm i k))⟩

/-- The 1024 × 256 scratch after point 3 is the specification's scaled keys. -/
theorem omk_snd_apply (c : Dev nD) (j : Fin 1024) (e : Fin 256) :
    (omk m c).2 (ix2 j e) = keyS (otherC m c) (WkC m c) (bkC m c) j e := by
  unfold omk omkAt
  rw [omkC_snd, pay13_apply]
  simp only [keyS, key, iblk1_apply, iblk2_apply, iblk3_apply]

end Cert.KernelIdeal.Kv

end
-- ==== Proof.PayMix.lean ====
/-
  The kernel's arithmetic at point 3 for the mixing matrix, read at an index over the extended reals.
  From the three finished Gram quadrants g00, g01, g11 (512 × 512 each; the lower-left quadrant is g01 transposed)
  and the rows of `other`: square roots, the column sums of the left and right halves, the rows of `other`
  divided by them, and the two halves of (square roots) · (scaled rows).
-/
import proofs.«138382_g52209622450808_cont_9to1_m_767_28_alg».proof.Proof.Gen.KernelIdeal.Skeleton
import proofs.«138382_g52209622450808_cont_9to1_m_767_28_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Cert.KernelIdeal Cert.KernelIdeal.Gen Cert.Spec
open Idealize.ShloMosaic Idealize.ShloMosaic.ValueIdx

/-- The column sums of the square roots: of the left 512 columns (g00 summed down its columns plus g01 summed
    along its rows) and of the right 512 columns (g01 and g11 summed down their columns). -/
def colL (g00 g01 : Vec Ideal S512x512 .f32) (k : Fin 512) : EReal :=
  (∑ i : Fin 512, Ideal.sqrt (g00 (ix2 i k))) + (∑ i : Fin 512, Ideal.sqrt (g01 (ix2 k i)))
def colR (g01 g11 : Vec Ideal S512x512 .f32) (k : Fin 512) : EReal :=
  (∑ i : Fin 512, Ideal.sqrt (g01 (ix2 i k))) + (∑ i : Fin 512, Ideal.sqrt (g11 (ix2 i k)))

/-! ## Square roots, entry by entry -/

private theorem pay15_apply (g : Vec Ideal S512x512 .f32) (j : S512x512.Idx) :
    k0_pay15 (F := Ideal) g j = Ideal.sqrt (g j) := rfl
private theorem pay16_apply (g : Vec Ideal S512x512 .f32) (j : S512x512.Idx) :
    k0_pay16 (F := Ideal) g j = Ideal.sqrt (g j) := rfl
private theorem pay17_apply (g : Vec Ideal S512x512 .f32) (j : S512x512.Idx) :
    k0_pay17 (F := Ideal) g j = Ideal.sqrt (g j) := rfl

/-! ## Sums of a 512 × 512 matrix along one axis -/

/-- Summed down its columns (over the row index), at column `k`. -/
private theorem sumRows_apply (x : FVec Ideal S512x512 .f32) (h : S512x512.Reduces [0] S512) (hφ : FKind.Formats .f32)
    (hacc : (0x00000000#32 : BitVec 32) = 0x00000000#32) (k : Fin 512) :
    multiReduction (F := Ideal) .add [0] S512 x 0x00000000#32 h hφ hacc (ix1 k) = ∑ i : Fin 512, x (ix2 i k) := by
  refine (Ideal.multiReduction_add_single x 0x00000000#32 h hφ hacc (ix1 k)).trans ?_
  exact Finset.sum_congr rfl fun i _ => congrArg x (funext fun a => match a with
    | ⟨0, _⟩ => rfl
    | ⟨1, _⟩ => rfl)

/-- Summed along its rows (over the column index), at row `k`. -/
private theorem sumCols_apply (x : FVec Ideal S512x512 .f32) (h : S512x512.Reduces [1] S512) (hφ : FKind.Formats .f32)
    (hacc : (0x00000000#32 : BitVec 32) = 0x00000000#32) (k : Fin 512) :
    multiReduction (F := Ideal) .add [1] S512 x 0x00000000#32 h hφ hacc (ix1 k) = ∑ i : Fin 512, x (ix2 k i) := by
  refine (Ideal.multiReduction_add_single x 0x00000000#32 h hφ hacc (ix1 k)).trans ?_
  exact Finset.sum_congr rfl fun i _ => congrArg x (funext fun a => match a with
    | ⟨0, _⟩ => rfl
    | ⟨1, _⟩ => rfl)

/-! ## A vector of 512 laid along the rows of a 512 × 256 array -/

/-- Cast to a 512 × 1 column and broadcast over 256 columns, the vector reads at `(k, d)` its entry `k`:
    the broadcast pins the unit axis at 0, and the row-major position `k · 1 + 0` of the column is `k`. -/
private theorem column_apply (x : S512.Idx → EReal) (h₁ : S512.ShapeCasts S512x1) (h₂ : S512x1.Broadcasts S512x256)
    (k : Fin 512) (d : Fin 256) :
    broadcastTo S512x256 (shapeCast S512x1 x h₁) h₂ (ix2 k d) = x (ix1 k) := by
  refine (broadcastTo_apply _ h₂ (ix2 k d) (ix2 k (0 : Fin 1)) fun a => ?_).trans ?_
  · match a with
    | ⟨0, _⟩ => show k.val = if (512 : ℕ) = 1 then 0 else k.val; rw [if_neg (by decide)]
    | ⟨1, _⟩ => show (0 : ℕ) = if (1 : ℕ) = 1 then 0 else d.val; rw [if_pos rfl]
  · refine shapeCast_apply x h₁ _ (ix1 k) ?_
    rw [Shape.rowMajor_val_one, Shape.rowMajor_val_two]
    show k.val = k.val * 1 + 0
    omega

/-! ## The two matrix products into a zero accumulator -/

/-- The contraction of the plain product: the left operand's axis 1 with the right operand's axis 0. -/
private theorem lhsN_0 (j : S512x256.Idx) (q : dot_S512x512_S512x256_S512x256_1_0_0_1_n_n.contr.Idx) :
    (dot_S512x512_S512x256_S512x256_1_0_0_1_n_n.lhsIdx j q 0).val = (j 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
private theorem lhsN_1 (j : S512x256.Idx) (q : dot_S512x512_S512x256_S512x256_1_0_0_1_n_n.contr.Idx) :
    (dot_S512x512_S512x256_S512x256_1_0_0_1_n_n.lhsIdx j q 1).val = (q ⟨0, by decide⟩).val :=
  dot_S512x512_S512x256_S512x256_1_0_0_1_n_n.lhsIdx_val_of_single rfl j q
private theorem rhsN_0 (j : S512x256.Idx) (q : dot_S512x512_S512x256_S512x256_1_0_0_1_n_n.contr.Idx) :
    (dot_S512x512_S512x256_S512x256_1_0_0_1_n_n.rhsIdx j q 0).val = (q ⟨0, by decide⟩).val :=
  dot_S512x512_S512x256_S512x256_1_0_0_1_n_n.rhsIdx_val_of_single rfl j q
private theorem rhsN_1 (j : S512x256.Idx) (q : dot_S512x512_S512x256_S512x256_1_0_0_1_n_n.contr.Idx) :
    (dot_S512x512_S512x256_S512x256_1_0_0_1_n_n.rhsIdx j q 1).val = (j 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- A · B at `(i, d)`: the sum over `k` of A at `(i, k)` times B at `(k, d)`. -/
private theorem mulN_apply (A : FVec Ideal S512x512 .bf16) (B : FVec Ideal S512x256 .bf16) (i : Fin 512) (d : Fin 256) :
    matmul (F := Ideal) dot_S512x512_S512x256_S512x256_1_0_0_1_n_n none A B (constant S512x256 .f32 0x00000000#32) (ix2 i d)
      = ∑ k : Fin 512, A (ix2 i k) * B (ix2 k d) := by
  simp only [matmul]
  rw [Ideal.matmul_constant_zero_apply, ← Equiv.sum_comp (ValueIdx.contrEquiv1 dot_S512x512_S512x256_S512x256_1_0_0_1_n_n 512 rfl rfl).symm]
  refine Finset.sum_congr rfl fun k _ => ?_
  have hk := ValueIdx.contrEquiv1_symm_val dot_S512x512_S512x256_S512x256_1_0_0_1_n_n 512 rfl rfl k
  have el : dot_S512x512_S512x256_S512x256_1_0_0_1_n_n.lhsIdx (ix2 i d) ((ValueIdx.contrEquiv1 dot_S512x512_S512x256_S512x256_1_0_0_1_n_n 512 rfl rfl).symm k) = ix2 i k := funext fun a => Fin.ext (by
    match a with
    | ⟨0, _⟩ => exact lhsN_0 _ _
    | ⟨1, _⟩ => exact (lhsN_1 _ _).trans hk)
  have er : dot_S512x512_S512x256_S512x256_1_0_0_1_n_n.rhsIdx (ix2 i d) ((ValueIdx.contrEquiv1 dot_S512x512_S512x256_S512x256_1_0_0_1_n_n 512 rfl rfl).symm k) = ix2 k d := funext fun a => Fin.ext (by
    match a with
    | ⟨0, _⟩ => exact (rhsN_0 _ _).trans hk
    | ⟨1, _⟩ => exact rhsN_1 _ _)
  rw [el, er]

/-- The contraction of the product with the left operand transposed: the left operand's axis 0 with the right operand's axis 0. -/
private theorem lhsT_0 (j : S512x256.Idx) (q : dot_S512x512_S512x256_S512x256_0_0_1_1_n_n.contr.Idx) :
    (dot_S512x512_S512x256_S512x256_0_0_1_1_n_n.lhsIdx j q 0).val = (q ⟨0, by decide⟩).val :=
  dot_S512x512_S512x256_S512x256_0_0_1_1_n_n.lhsIdx_val_of_single rfl j q
private theorem lhsT_1 (j : S512x256.Idx) (q : dot_S512x512_S512x256_S512x256_0_0_1_1_n_n.contr.Idx) :
    (dot_S512x512_S512x256_S512x256_0_0_1_1_n_n.lhsIdx j q 1).val = (j 0).val := by
  unfold DotDims.lhsIdx
  rw [dif_neg (show ¬(1 : Fin S512x512.rank) ∈ dot_S512x512_S512x256_S512x256_0_0_1_1_n_n.lhsBatch by decide), dif_pos (show (1 : Fin S512x512.rank) ∈ dot_S512x512_S512x256_S512x256_0_0_1_1_n_n.lhsNonContracting by decide)]
  rfl
private theorem rhsT_0 (j : S512x256.Idx) (q : dot_S512x512_S512x256_S512x256_0_0_1_1_n_n.contr.Idx) :
    (dot_S512x512_S512x256_S512x256_0_0_1_1_n_n.rhsIdx j q 0).val = (q ⟨0, by decide⟩).val :=
  dot_S512x512_S512x256_S512x256_0_0_1_1_n_n.rhsIdx_val_of_single rfl j q
private theorem rhsT_1 (j : S512x256.Idx) (q : dot_S512x512_S512x256_S512x256_0_0_1_1_n_n.contr.Idx) :
    (dot_S512x512_S512x256_S512x256_0_0_1_1_n_n.rhsIdx j q 1).val = (j 1).val := by
  unfold DotDims.rhsIdx
  rw [dif_neg (show ¬(1 : Fin S512x256.rank) ∈ dot_S512x512_S512x256_S512x256_0_0_1_1_n_n.rhsBatch by decide), dif_pos (show (1 : Fin S512x256.rank) ∈ dot_S512x512_S512x256_S512x256_0_0_1_1_n_n.rhsNonContracting by decide)]
  rfl

/-- Aᵀ · B at `(i, d)`: the sum over `k` of A at `(k, i)` times B at `(k, d)`. -/
private theorem mulT_apply (A : FVec Ideal S512x512 .bf16) (B : FVec Ideal S512x256 .bf16) (i : Fin 512) (d : Fin 256) :
    matmul (F := Ideal) dot_S512x512_S512x256_S512x256_0_0_1_1_n_n none A B (constant S512x256 .f32 0x00000000#32) (ix2 i d)
      = ∑ k : Fin 512, A (ix2 k i) * B (ix2 k d) := by
  simp only [matmul]
  rw [Ideal.matmul_constant_zero_apply, ← Equiv.sum_comp (ValueIdx.contrEquiv1 dot_S512x512_S512x256_S512x256_0_0_1_1_n_n 512 rfl rfl).symm]
  refine Finset.sum_congr rfl fun k _ => ?_
  have hk := ValueIdx.contrEquiv1_symm_val dot_S512x512_S512x256_S512x256_0_0_1_1_n_n 512 rfl rfl k
  have el : dot_S512x512_S512x256_S512x256_0_0_1_1_n_n.lhsIdx (ix2 i d) ((ValueIdx.contrEquiv1 dot_S512x512_S512x256_S512x256_0_0_1_1_n_n 512 rfl rfl).symm k) = ix2 k i := funext fun a => Fin.ext (by
    match a with
    | ⟨0, _⟩ => exact (lhsT_0 _ _).trans hk
    | ⟨1, _⟩ => exact lhsT_1 _ _)
  have er : dot_S512x512_S512x256_S512x256_0_0_1_1_n_n.rhsIdx (ix2 i d) ((ValueIdx.contrEquiv1 dot_S512x512_S512x256_S512x256_0_0_1_1_n_n 512 rfl rfl).symm k) = ix2 k d := funext fun a => Fin.ext (by
    match a with
    | ⟨0, _⟩ => exact (rhsT_0 _ _).trans hk
    | ⟨1, _⟩ => exact rhsT_1 _ _)
  rw [el, er]

/-- The rows of `other` divided by the column sums: rows 0 to 511, and rows 512 to 1023. -/
theorem pay18_apply (g00 g01 : Vec Ideal S512x512 .f32) (o : Vec Ideal S1024x256 .f32) (k : Fin 512) (d : Fin 256) :
    k0_pay18 (F := Ideal) g00 g01 o (ix2 k d) = Ideal.div (o (ix2 (lo k) d)) (colL g00 g01 k) := by
  unfold k0_pay18
  show Ideal.div (extractStridedSlice S512x256 ![0, 0] o _ (ix2 k d))
      (broadcastTo S512x256 (shapeCast S512x1 (addf
        (multiReduction (F := Ideal) .add [0] S512 (k0_pay15 (F := Ideal) g00) 0x00000000#32 _ _ _)
        (multiReduction (F := Ideal) .add [1] S512 (k0_pay16 (F := Ideal) g01) 0x00000000#32 _ _ _)) _) _ (ix2 k d)) = _
  rw [slice2_axis0_apply 0 o _ k d (lo k) (by show k.val = 0 + k.val; omega), column_apply, addf_apply,
    sumRows_apply, sumCols_apply]
  simp only [pay15_apply, pay16_apply]
  rfl

theorem pay19_apply (g01 g11 : Vec Ideal S512x512 .f32) (o : Vec Ideal S1024x256 .f32) (k : Fin 512) (d : Fin 256) :
    k0_pay19 (F := Ideal) g01 g11 o (ix2 k d) = Ideal.div (o (ix2 (hi k) d)) (colR g01 g11 k) := by
  unfold k0_pay19
  show Ideal.div (extractStridedSlice S512x256 ![512, 0] o _ (ix2 k d))
      (broadcastTo S512x256 (shapeCast S512x1 (addf
        (multiReduction (F := Ideal) .add [0] S512 (k0_pay16 (F := Ideal) g01) 0x00000000#32 _ _ _)
        (multiReduction (F := Ideal) .add [0] S512 (k0_pay17 (F := Ideal) g11) 0x00000000#32 _ _ _)) _) _ (ix2 k d)) = _
  rw [slice2_axis0_apply 512 o _ k d (hi k) (by show 512 + k.val = 512 + k.val; rfl), column_apply, addf_apply,
    sumRows_apply, sumRows_apply]
  simp only [pay16_apply, pay17_apply]
  rfl

/-- The upper half of the mixed rows. -/
theorem pay20_apply (g00 g01 g11 : Vec Ideal S512x512 .f32) (o : Vec Ideal S1024x256 .f32) (i : Fin 512) (d : Fin 256) :
    k0_pay20 (F := Ideal) g00 g01 g11 o (ix2 i d)
      = (∑ k : Fin 512, Ideal.sqrt (g00 (ix2 i k)) * Ideal.div (o (ix2 (lo k) d)) (colL g00 g01 k))
        + (∑ k : Fin 512, Ideal.sqrt (g01 (ix2 i k)) * Ideal.div (o (ix2 (hi k) d)) (colR g01 g11 k)) := by
  simp only [k0_pay20, shapeCast_self, truncf_apply, addf_apply, mulN_apply, pay15_apply, pay16_apply, pay18_apply, pay19_apply]

/-- The lower half of the mixed rows (as stored: `k0_pay11` of `k0_pay21`). -/
theorem pay11_21_apply (g00 g01 g11 : Vec Ideal S512x512 .f32) (o : Vec Ideal S1024x256 .f32) (i : Fin 512) (d : Fin 256) :
    k0_pay11 (F := Ideal) (k0_pay21 (F := Ideal) g00 g01 g11 o) (ix2 i d)
      = (∑ k : Fin 512, Ideal.sqrt (g01 (ix2 k i)) * Ideal.div (o (ix2 (lo k) d)) (colL g00 g01 k))
        + (∑ k : Fin 512, Ideal.sqrt (g11 (ix2 i k)) * Ideal.div (o (ix2 (hi k) d)) (colR g01 g11 k)) := by
  simp only [k0_pay11, k0_pay21, shapeCast_self, truncf_apply, addf_apply, mulN_apply, mulT_apply, pay16_apply, pay17_apply, pay18_apply, pay19_apply]

end Cert.KernelIdeal.Pay

end
-- ==== Proof.KvMix.lean ====
/-
  What the 1024 × 384 scratch holds after point 3, in the specification's terms (over the extended reals): the mixing
  matrix with its ones, `Spec.omFull`. Its three rectangles were computed from the accumulators as point 3's own addition
  of the last chunk left them — the full Gram quadrants, `Spec.gramK` —: square roots, column sums from the quadrants,
  the rows of `other` divided by them, and the two halves of the product.
-/
import proofs.«138382_g52209622450808_cont_9to1_m_767_28_alg».proof.Proof.KvStages
import proofs.«138382_g52209622450808_cont_9to1_m_767_28_alg».proof.Proof.PayMix

set_option maxRecDepth 16384

noncomputable section

namespace Cert.KernelIdeal.Kv

open Cert.KernelIdeal Cert.KernelIdeal.Gen Cert.KernelIdeal.Body Cert.Spec
open Idealize.ShloMosaic Idealize.ShloMosaic.TcCoe Idealize.ShloMosaic.ValueIdx Idealize.SL.Sem
open Cert.KernelIdeal.Pay

variable (m : (ℓ : Loc nD τ sig) → Buf (Elt Ideal) ℓ)

private theorem xL_apply' (x0 : Vec Ideal S1024x1024 .f32) (r : Fin 1024) (i : Fin 512) :
    xL x0 (ix2 r i) = x0 (ix2 r (lo i)) := rfl
private theorem xR_apply' (x0 : Vec Ideal S1024x1024 .f32) (r : Fin 1024) (i : Fin 512) :
    xR x0 (ix2 r i) = x0 (ix2 r (hi i)) := rfl

/-- Point 3's chunk at (r, k) is row 1024·3 + r of `fix`. -/
private theorem iblk0_row4_3 (c : Dev nD) (r k : Fin 1024) :
    iblk m c 0 t3 (ix2 r k) = fixC m c (row4 3 r) k := by
  rw [iblk0_apply]
  exact congrArg (fun x => fixC m c x k) (Fin.ext (by
    have h : min (t3 : Fin cfg0.N).val 3 = (3 : Fin 4).val := by decide
    show 1024 * min (t3 : Fin cfg0.N).val 3 + r.val = 1024 * (3 : Fin 4).val + r.val
    rw [h]))

/-! ## Point 3: the finished Gram quadrants, the mixing matrix -/

/-- The accumulators as point 3's own addition leaves them: the Gram matrix's upper-left, upper-right and
    lower-right quadrants, all four chunks added in turn. -/
private theorem acc3_apply (c : Dev nD) (i k : Fin 512) :
    k0_pay8 (F := Ideal) (xL (iblk m c 0 t3)) (gramAt m c 2 (by decide)).1 (ix2 i k) = gramK (fixC m c) (lo i) (lo k)
    ∧ k0_pay9 (F := Ideal) (xL (iblk m c 0 t3)) (xR (iblk m c 0 t3)) (gramAt m c 2 (by decide)).2.1 (ix2 i k)
      = gramK (fixC m c) (lo i) (hi k)
    ∧ k0_pay10 (F := Ideal) (xR (iblk m c 0 t3)) (gramAt m c 2 (by decide)).2.2 (ix2 i k) = gramK (fixC m c) (hi i) (hi k) := by
  obtain ⟨g0, g1, g2⟩ := gramAt2_apply m c i k
  have h3LL : ∀ i k : Fin 512, halfProd (xL (iblk m c 0 t3)) (xL (iblk m c 0 t3)) i k = chunkP (fixC m c) 3 (lo i) (lo k) := fun i k => by
    unfold halfProd chunkP; exact Finset.sum_congr rfl fun r _ => by simp only [xL_apply', iblk0_row4_3]
  have h3LR : ∀ i k : Fin 512, halfProd (xL (iblk m c 0 t3)) (xR (iblk m c 0 t3)) i k = chunkP (fixC m c) 3 (lo i) (hi k) := fun i k => by
    unfold halfProd chunkP; exact Finset.sum_congr rfl fun r _ => by simp only [xL_apply', xR_apply', iblk0_row4_3]
  have h3RR : ∀ i k : Fin 512, halfProd (xR (iblk m c 0 t3)) (xR (iblk m c 0 t3)) i k = chunkP (fixC m c) 3 (hi i) (hi k) := fun i k => by
    unfold halfProd chunkP; exact Finset.sum_congr rfl fun r _ => by simp only [xR_apply', iblk0_row4_3]
  exact ⟨(pay8_apply _ _ i k).trans (congrArg₂ (· + ·) g0 ((h3LL i k))),
    (pay9_apply _ _ _ i k).trans (congrArg₂ (· + ·) g1 ((h3LR i k))),
    (pay10_apply _ _ i k).trans (congrArg₂ (· + ·) g2 ((h3RR i k)))⟩

/-- From quadrants that are the Gram matrix's and rows that are `other`'s, the kernel's upper mixed rows are the
    specification's: its column sums are the specification's, term by term. -/
private theorem mix_top_eq (other : Fin 1024 → Fin 256 → EReal) (fix : Fin 4096 → Fin 1024 → EReal)
    (G00 G01 G11 : Vec Ideal S512x512 .f32) (o : Vec Ideal S1024x256 .f32)
    (h00 : ∀ i k : Fin 512, G00 (ix2 i k) = gramK fix (lo i) (lo k))
    (h01 : ∀ i k : Fin 512, G01 (ix2 i k) = gramK fix (lo i) (hi k))
    (h11 : ∀ i k : Fin 512, G11 (ix2 i k) = gramK fix (hi i) (hi k))
    (ho : ∀ (j : Fin 1024) (a : Fin 256), o (ix2 j a) = other j a) (i : Fin 512) (d : Fin 256) :
    k0_pay20 (F := Ideal) G00 G01 G11 o (ix2 i d) = mixTop other fix i d := by
  rw [pay20_apply]
  simp only [colL, colR, h00, h01, h11, ho, mixTop, soL, soR, csL, csR, rtK]

/-- The same for the lower mixed rows, whose left factor is the upper-right quadrant transposed. -/
private theorem mix_bot_eq (other : Fin 1024 → Fin 256 → EReal) (fix : Fin 4096 → Fin 1024 → EReal)
    (G00 G01 G11 : Vec Ideal S512x512 .f32) (o : Vec Ideal S1024x256 .f32)
    (h00 : ∀ i k : Fin 512, G00 (ix2 i k) = gramK fix (lo i) (lo k))
    (h01 : ∀ i k : Fin 512, G01 (ix2 i k) = gramK fix (lo i) (hi k))
    (h11 : ∀ i k : Fin 512, G11 (ix2 i k) = gramK fix (hi i) (hi k))
    (ho : ∀ (j : Fin 1024) (a : Fin 256), o (ix2 j a) = other j a) (i : Fin 512) (d : Fin 256) :
    k0_pay11 (F := Ideal) (k0_pay21 (F := Ideal) G00 G01 G11 o) (ix2 i d) = mixBot other fix i d := by
  rw [pay11_21_apply]
  simp only [colL, colR, h00, h01, h11, ho, mixBot, soL, soR, csL, csR, rtK]

theorem omk_fst_apply (c : Dev nD) (j : Fin 1024) (d : Fin 384) :
    (omk m c).1 (ix2 j d) = omFull (otherC m c) (fixC m c) j d := by
  unfold omk omkAt
  rw [omkC_fst_apply]
  unfold omFull
  by_cases hd : d.val < 256
  · rw [dif_pos hd, dif_pos hd]
    by_cases hj : j.val < 512
    · rw [dif_pos hj, dif_pos hj]
      exact mix_top_eq (otherC m c) (fixC m c) _ _ _ _ (fun i k => (acc3_apply m c i k).1) (fun i k => (acc3_apply m c i k).2.1)
        (fun i k => (acc3_apply m c i k).2.2) (iblk1_apply m c t3) _ _
    · rw [dif_neg hj, dif_neg hj]
      exact mix_bot_eq (otherC m c) (fixC m c) _ _ _ _ (fun i k => (acc3_apply m c i k).1) (fun i k => (acc3_apply m c i k).2.1)
        (fun i k => (acc3_apply m c i k).2.2) (iblk1_apply m c t3) _ _
  · rw [dif_neg hd, dif_neg hd]
    exact pay12_apply _ _

end Cert.KernelIdeal.Kv

end
-- ==== Proof.PayAttn.lean ====
/-
  The kernel's arithmetic at points 4 to 13, read at an index over the extended reals: a block of 1000 rows of
  `main` is projected to queries (main · Wqᵀ + bq), multiplied with the stored scaled keys, exponentiated,
  multiplied with the stored 1024 × 384 matrix; the first 256 columns of the product are multiplied by the
  reciprocal of column 256.
-/
import proofs.«138382_g52209622450808_cont_9to1_m_767_28_alg».proof.Proof.Gen.KernelIdeal.Skeleton
import proofs.«138382_g52209622450808_cont_9to1_m_767_28_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Cert.KernelIdeal Cert.KernelIdeal.Gen Cert.Spec
open Idealize.ShloMosaic Idealize.ShloMosaic.ValueIdx

/-- A query row of the block, a logit against the stored keys, and a column of the weighted sum. -/
def qRow (x : Vec Ideal S1000x256 .f32) (wq : Vec Ideal S256x256 .f32) (b : Vec Ideal S1x256 .f32) (r : Fin 1000) (e : Fin 256) : EReal :=
  (∑ a : Fin 256, x (ix2 r a) * wq (ix2 e a)) + b (ix2 0 e)
def lgRow (x : Vec Ideal S1000x256 .f32) (wq : Vec Ideal S256x256 .f32) (b : Vec Ideal S1x256 .f32) (ks : Vec Ideal S1024x256 .bf16)
    (r : Fin 1000) (j : Fin 1024) : EReal :=
  ∑ e : Fin 256, qRow x wq b r e * ks (ix2 j e)
def augRow (x : Vec Ideal S1000x256 .f32) (wq : Vec Ideal S256x256 .f32) (b : Vec Ideal S1x256 .f32) (ks : Vec Ideal S1024x256 .bf16)
    (om : Vec Ideal S1024x384 .bf16) (r : Fin 1000) (d : Fin 384) : EReal :=
  ∑ j : Fin 1024, Ideal.exp (lgRow x wq b ks r j) * om (ix2 j d)

/-! ### Queries: the block times the transposed query weights -/

private theorem lhsQ_0 (i : S1000x256.Idx) (q : dot_S1000x256_S256x256_S1000x256_1_1_0_0_n_n.contr.Idx) :
    (dot_S1000x256_S256x256_S1000x256_1_1_0_0_n_n.lhsIdx i q 0).val = (i 0).val := by
  unfold DotDims.lhsIdx
  rw [dif_neg (show ¬(0 : Fin S1000x256.rank) ∈ dot_S1000x256_S256x256_S1000x256_1_1_0_0_n_n.lhsBatch by decide), dif_pos (show (0 : Fin S1000x256.rank) ∈ dot_S1000x256_S256x256_S1000x256_1_1_0_0_n_n.lhsNonContracting by decide)]
  rfl
private theorem lhsQ_1 (i : S1000x256.Idx) (q : dot_S1000x256_S256x256_S1000x256_1_1_0_0_n_n.contr.Idx) :
    (dot_S1000x256_S256x256_S1000x256_1_1_0_0_n_n.lhsIdx i q 1).val = (q ⟨0, by decide⟩).val :=
  dot_S1000x256_S256x256_S1000x256_1_1_0_0_n_n.lhsIdx_val_of_single rfl i q
private theorem rhsQ_0 (i : S1000x256.Idx) (q : dot_S1000x256_S256x256_S1000x256_1_1_0_0_n_n.contr.Idx) :
    (dot_S1000x256_S256x256_S1000x256_1_1_0_0_n_n.rhsIdx i q 0).val = (i 1).val := by
  unfold DotDims.rhsIdx
  rw [dif_neg (show ¬(0 : Fin S256x256.rank) ∈ dot_S1000x256_S256x256_S1000x256_1_1_0_0_n_n.rhsBatch by decide), dif_pos (show (0 : Fin S256x256.rank) ∈ dot_S1000x256_S256x256_S1000x256_1_1_0_0_n_n.rhsNonContracting by decide)]
  rfl
private theorem rhsQ_1 (i : S1000x256.Idx) (q : dot_S1000x256_S256x256_S1000x256_1_1_0_0_n_n.contr.Idx) :
    (dot_S1000x256_S256x256_S1000x256_1_1_0_0_n_n.rhsIdx i q 1).val = (q ⟨0, by decide⟩).val :=
  dot_S1000x256_S256x256_S1000x256_1_1_0_0_n_n.rhsIdx_val_of_single rfl i q

/-- The product into a zero accumulator, at row `r` and column `c`: the sum over the one contracted axis. -/
private theorem mmQ_apply (u : FVec Ideal S1000x256 .bf16) (w : FVec Ideal S256x256 .bf16) (r : Fin 1000) (c : Fin 256) :
    matmul dot_S1000x256_S256x256_S1000x256_1_1_0_0_n_n none u w (constant (F := Ideal) S1000x256 .f32 0x00000000#32) (ix2 r c)
      = ∑ k : Fin 256, u (ix2 r k) * w (ix2 c k) := by
  refine (Ideal.matmul_constant_zero_apply dot_S1000x256_S256x256_S1000x256_1_1_0_0_n_n none u w (ix2 r c)).trans ?_
  rw [← Equiv.sum_comp (ValueIdx.contrEquiv1 dot_S1000x256_S256x256_S1000x256_1_1_0_0_n_n 256 rfl rfl).symm]
  refine Finset.sum_congr rfl fun k _ => ?_
  have hk := ValueIdx.contrEquiv1_symm_val dot_S1000x256_S256x256_S1000x256_1_1_0_0_n_n 256 rfl rfl k
  have el : dot_S1000x256_S256x256_S1000x256_1_1_0_0_n_n.lhsIdx (ix2 r c) ((ValueIdx.contrEquiv1 dot_S1000x256_S256x256_S1000x256_1_1_0_0_n_n 256 rfl rfl).symm k) = ix2 r k := funext fun a => Fin.ext (by
    match a with
    | ⟨0, _⟩ => exact lhsQ_0 _ _
    | ⟨1, _⟩ => exact (lhsQ_1 _ _).trans hk)
  have er : dot_S1000x256_S256x256_S1000x256_1_1_0_0_n_n.rhsIdx (ix2 r c) ((ValueIdx.contrEquiv1 dot_S1000x256_S256x256_S1000x256_1_1_0_0_n_n 256 rfl rfl).symm k) = ix2 c k := funext fun a => Fin.ext (by
    match a with
    | ⟨0, _⟩ => exact rhsQ_0 _ _
    | ⟨1, _⟩ => exact (rhsQ_1 _ _).trans hk)
  rw [el, er]

/-! ### Logits: the queries times the transposed stored keys -/

private theorem lhsL_0 (i : S1000x1024.Idx) (q : dot_S1000x256_S1024x256_S1000x1024_1_1_0_0_n_n.contr.Idx) :
    (dot_S1000x256_S1024x256_S1000x1024_1_1_0_0_n_n.lhsIdx i q 0).val = (i 0).val := by
  unfold DotDims.lhsIdx
  rw [dif_neg (show ¬(0 : Fin S1000x256.rank) ∈ dot_S1000x256_S1024x256_S1000x1024_1_1_0_0_n_n.lhsBatch by decide), dif_pos (show (0 : Fin S1000x256.rank) ∈ dot_S1000x256_S1024x256_S1000x1024_1_1_0_0_n_n.lhsNonContracting by decide)]
  rfl
private theorem lhsL_1 (i : S1000x1024.Idx) (q : dot_S1000x256_S1024x256_S1000x1024_1_1_0_0_n_n.contr.Idx) :
    (dot_S1000x256_S1024x256_S1000x1024_1_1_0_0_n_n.lhsIdx i q 1).val = (q ⟨0, by decide⟩).val :=
  dot_S1000x256_S1024x256_S1000x1024_1_1_0_0_n_n.lhsIdx_val_of_single rfl i q
private theorem rhsL_0 (i : S1000x1024.Idx) (q : dot_S1000x256_S1024x256_S1000x1024_1_1_0_0_n_n.contr.Idx) :
    (dot_S1000x256_S1024x256_S1000x1024_1_1_0_0_n_n.rhsIdx i q 0).val = (i 1).val := by
  unfold DotDims.rhsIdx
  rw [dif_neg (show ¬(0 : Fin S1024x256.rank) ∈ dot_S1000x256_S1024x256_S1000x1024_1_1_0_0_n_n.rhsBatch by decide), dif_pos (show (0 : Fin S1024x256.rank) ∈ dot_S1000x256_S1024x256_S1000x1024_1_1_0_0_n_n.rhsNonContracting by decide)]
  rfl
private theorem rhsL_1 (i : S1000x1024.Idx) (q : dot_S1000x256_S1024x256_S1000x1024_1_1_0_0_n_n.contr.Idx) :
    (dot_S1000x256_S1024x256_S1000x1024_1_1_0_0_n_n.rhsIdx i q 1).val = (q ⟨0, by decide⟩).val :=
  dot_S1000x256_S1024x256_S1000x1024_1_1_0_0_n_n.rhsIdx_val_of_single rfl i q

/-- The product into a zero accumulator, at row `r` and column `c`: the sum over the one contracted axis. -/
private theorem mmL_apply (u : FVec Ideal S1000x256 .bf16) (w : FVec Ideal S1024x256 .bf16) (r : Fin 1000) (c : Fin 1024) :
    matmul dot_S1000x256_S1024x256_S1000x1024_1_1_0_0_n_n none u w (constant (F := Ideal) S1000x1024 .f32 0x00000000#32) (ix2 r c)
      = ∑ k : Fin 256, u (ix2 r k) * w (ix2 c k) := by
  refine (Ideal.matmul_constant_zero_apply dot_S1000x256_S1024x256_S1000x1024_1_1_0_0_n_n none u w (ix2 r c)).trans ?_
  rw [← Equiv.sum_comp (ValueIdx.contrEquiv1 dot_S1000x256_S1024x256_S1000x1024_1_1_0_0_n_n 256 rfl rfl).symm]
  refine Finset.sum_congr rfl fun k _ => ?_
  have hk := ValueIdx.contrEquiv1_symm_val dot_S1000x256_S1024x256_S1000x1024_1_1_0_0_n_n 256 rfl rfl k
  have el : dot_S1000x256_S1024x256_S1000x1024_1_1_0_0_n_n.lhsIdx (ix2 r c) ((ValueIdx.contrEquiv1 dot_S1000x256_S1024x256_S1000x1024_1_1_0_0_n_n 256 rfl rfl).symm k) = ix2 r k := funext fun a => Fin.ext (by
    match a with
    | ⟨0, _⟩ => exact lhsL_0 _ _
    | ⟨1, _⟩ => exact (lhsL_1 _ _).trans hk)
  have er : dot_S1000x256_S1024x256_S1000x1024_1_1_0_0_n_n.rhsIdx (ix2 r c) ((ValueIdx.contrEquiv1 dot_S1000x256_S1024x256_S1000x1024_1_1_0_0_n_n 256 rfl rfl).symm k) = ix2 c k := funext fun a => Fin.ext (by
    match a with
    | ⟨0, _⟩ => exact rhsL_0 _ _
    | ⟨1, _⟩ => exact (rhsL_1 _ _).trans hk)
  rw [el, er]

/-! ### Weighted sums: the exponentials times the stored 1024 × 384 matrix -/

private theorem lhsA_0 (i : S1000x384.Idx) (q : dot_S1000x1024_S1024x384_S1000x384_1_0_0_1_n_n.contr.Idx) :
    (dot_S1000x1024_S1024x384_S1000x384_1_0_0_1_n_n.lhsIdx i q 0).val = (i 0).val := by
  unfold DotDims.lhsIdx
  rw [dif_neg (show ¬(0 : Fin S1000x1024.rank) ∈ dot_S1000x1024_S1024x384_S1000x384_1_0_0_1_n_n.lhsBatch by decide), dif_pos (show (0 : Fin S1000x1024.rank) ∈ dot_S1000x1024_S1024x384_S1000x384_1_0_0_1_n_n.lhsNonContracting by decide)]
  rfl
private theorem lhsA_1 (i : S1000x384.Idx) (q : dot_S1000x1024_S1024x384_S1000x384_1_0_0_1_n_n.contr.Idx) :
    (dot_S1000x1024_S1024x384_S1000x384_1_0_0_1_n_n.lhsIdx i q 1).val = (q ⟨0, by decide⟩).val :=
  dot_S1000x1024_S1024x384_S1000x384_1_0_0_1_n_n.lhsIdx_val_of_single rfl i q
private theorem rhsA_0 (i : S1000x384.Idx) (q : dot_S1000x1024_S1024x384_S1000x384_1_0_0_1_n_n.contr.Idx) :
    (dot_S1000x1024_S1024x384_S1000x384_1_0_0_1_n_n.rhsIdx i q 0).val = (q ⟨0, by decide⟩).val :=
  dot_S1000x1024_S1024x384_S1000x384_1_0_0_1_n_n.rhsIdx_val_of_single rfl i q
private theorem rhsA_1 (i : S1000x384.Idx) (q : dot_S1000x1024_S1024x384_S1000x384_1_0_0_1_n_n.contr.Idx) :
    (dot_S1000x1024_S1024x384_S1000x384_1_0_0_1_n_n.rhsIdx i q 1).val = (i 1).val := by
  unfold DotDims.rhsIdx
  rw [dif_neg (show ¬(1 : Fin S1024x384.rank) ∈ dot_S1000x1024_S1024x384_S1000x384_1_0_0_1_n_n.rhsBatch by decide), dif_pos (show (1 : Fin S1024x384.rank) ∈ dot_S1000x1024_S1024x384_S1000x384_1_0_0_1_n_n.rhsNonContracting by decide)]
  rfl

/-- The product into a zero accumulator, at row `r` and column `c`: the sum over the one contracted axis. -/
private theorem mmA_apply (u : FVec Ideal S1000x1024 .bf16) (w : FVec Ideal S1024x384 .bf16) (r : Fin 1000) (c : Fin 384) :
    matmul dot_S1000x1024_S1024x384_S1000x384_1_0_0_1_n_n none u w (constant (F := Ideal) S1000x384 .f32 0x00000000#32) (ix2 r c)
      = ∑ k : Fin 1024, u (ix2 r k) * w (ix2 k c) := by
  refine (Ideal.matmul_constant_zero_apply dot_S1000x1024_S1024x384_S1000x384_1_0_0_1_n_n none u w (ix2 r c)).trans ?_
  rw [← Equiv.sum_comp (ValueIdx.contrEquiv1 dot_S1000x1024_S1024x384_S1000x384_1_0_0_1_n_n 1024 rfl rfl).symm]
  refine Finset.sum_congr rfl fun k _ => ?_
  have hk := ValueIdx.contrEquiv1_symm_val dot_S1000x1024_S1024x384_S1000x384_1_0_0_1_n_n 1024 rfl rfl k
  have el : dot_S1000x1024_S1024x384_S1000x384_1_0_0_1_n_n.lhsIdx (ix2 r c) ((ValueIdx.contrEquiv1 dot_S1000x1024_S1024x384_S1000x384_1_0_0_1_n_n 1024 rfl rfl).symm k) = ix2 r k := funext fun a => Fin.ext (by
    match a with
    | ⟨0, _⟩ => exact lhsA_0 _ _
    | ⟨1, _⟩ => exact (lhsA_1 _ _).trans hk)
  have er : dot_S1000x1024_S1024x384_S1000x384_1_0_0_1_n_n.rhsIdx (ix2 r c) ((ValueIdx.contrEquiv1 dot_S1000x1024_S1024x384_S1000x384_1_0_0_1_n_n 1024 rfl rfl).symm k) = ix2 k c := funext fun a => Fin.ext (by
    match a with
    | ⟨0, _⟩ => exact (rhsA_0 _ _).trans hk
    | ⟨1, _⟩ => exact rhsA_1 _ _)
  rw [el, er]

/-! ### The three stages as vectors, and the payload over them -/

/-- The queries of the block. -/
private def qV (x : Vec Ideal S1000x256 .f32) (wq : Vec Ideal S256x256 .f32) (b : Vec Ideal S1x256 .f32) : FVec Ideal S1000x256 .f32 :=
  addf (matmul (φ₁ := .bf16) (φ₂ := .bf16) dot_S1000x256_S256x256_S1000x256_1_1_0_0_n_n none (truncf .bf16 x bitsLt_bf16_f32) (truncf .bf16 wq bitsLt_bf16_f32)
      (constant (F := Ideal) S1000x256 .f32 0x00000000#32))
    (broadcastTo S1000x256 (shapeCast S1x256 b shapeCasts_S1x256_S1x256) broadcasts_S1x256_S1000x256)
/-- The logits of the block against the stored keys. -/
private def lV (x : Vec Ideal S1000x256 .f32) (wq : Vec Ideal S256x256 .f32) (b : Vec Ideal S1x256 .f32) (ks : Vec Ideal S1024x256 .bf16) :
    FVec Ideal S1000x1024 .f32 :=
  matmul (φ₁ := .bf16) (φ₂ := .bf16) dot_S1000x256_S1024x256_S1000x1024_1_1_0_0_n_n none (truncf .bf16 (qV x wq b) bitsLt_bf16_f32) ks
    (constant (F := Ideal) S1000x1024 .f32 0x00000000#32)
/-- The exponentials times the stored matrix: 384 columns, the softmax denominator among them. -/
private def aV (x : Vec Ideal S1000x256 .f32) (wq : Vec Ideal S256x256 .f32) (b : Vec Ideal S1x256 .f32) (ks : Vec Ideal S1024x256 .bf16)
    (om : Vec Ideal S1024x384 .bf16) : FVec Ideal S1000x384 .f32 :=
  matmul (φ₁ := .bf16) (φ₂ := .bf16) dot_S1000x1024_S1024x384_S1000x384_1_0_0_1_n_n none (truncf .bf16 (exp (lV x wq b ks)) bitsLt_bf16_f32) om
    (constant (F := Ideal) S1000x384 .f32 0x00000000#32)

/-- The payload is the first 256 columns of the weighted sums times the reciprocal of column 256. -/
private theorem pay14_eq (x : Vec Ideal S1000x256 .f32) (wq : Vec Ideal S256x256 .f32) (b : Vec Ideal S1x256 .f32) (ks : Vec Ideal S1024x256 .bf16)
    (om : Vec Ideal S1024x384 .bf16) :
    k0_pay14 (F := Ideal) x wq b ks om
      = mulf (extractStridedSlice S1000x256 ![0, 0] (aV x wq b ks om) slices_S1000x384_o0_0_S1000x256)
          (broadcastTo S1000x256
            (divf (broadcast S1000x1 (Scalar.ofBits (F := Ideal) .f32 0x3F800000#32))
              (extractStridedSlice S1000x1 ![0, 256] (aV x wq b ks om) slices_S1000x384_o0_256_S1000x1))
            broadcasts_S1000x1_S1000x256) := rfl

/-- A query at row `r`, feature `e`. -/
private theorem qV_apply (x : Vec Ideal S1000x256 .f32) (wq : Vec Ideal S256x256 .f32) (b : Vec Ideal S1x256 .f32) (r : Fin 1000) (e : Fin 256) :
    qV x wq b (ix2 r e) = qRow x wq b r e := by
  unfold qV qRow
  refine (addf_apply _ _ _).trans ?_
  refine congrArg₂ (· + ·) ?_ ?_
  · exact mmQ_apply _ _ r e
  · rw [shapeCast_self]
    exact broadcastTo_1b_ab_apply b broadcasts_S1x256_S1000x256 r e

/-- A logit at row `r`, key `j`. -/
private theorem lV_apply (x : Vec Ideal S1000x256 .f32) (wq : Vec Ideal S256x256 .f32) (b : Vec Ideal S1x256 .f32) (ks : Vec Ideal S1024x256 .bf16)
    (r : Fin 1000) (j : Fin 1024) : lV x wq b ks (ix2 r j) = lgRow x wq b ks r j := by
  unfold lV lgRow
  refine (mmL_apply _ _ r j).trans ?_
  refine Finset.sum_congr rfl fun e _ => ?_
  refine congrArg (· * ks (ix2 j e)) ?_
  exact (truncf_apply (ψ := .bf16) (qV x wq b) bitsLt_bf16_f32 (ix2 r e)).trans (qV_apply x wq b r e)

/-- A weighted sum at row `r`, column `d` of the 384. -/
private theorem aV_apply (x : Vec Ideal S1000x256 .f32) (wq : Vec Ideal S256x256 .f32) (b : Vec Ideal S1x256 .f32) (ks : Vec Ideal S1024x256 .bf16)
    (om : Vec Ideal S1024x384 .bf16) (r : Fin 1000) (d : Fin 384) : aV x wq b ks om (ix2 r d) = augRow x wq b ks om r d := by
  unfold aV augRow
  refine (mmA_apply _ _ r d).trans ?_
  refine Finset.sum_congr rfl fun j _ => ?_
  refine congrArg (· * om (ix2 j d)) ?_
  refine (truncf_apply (ψ := .bf16) (exp (lV x wq b ks)) bitsLt_bf16_f32 (ix2 r j)).trans ?_
  show FloatOps.exp (lV x wq b ks (ix2 r j)) = _
  rw [Ideal.exp_def, lV_apply]

theorem pay14_apply (x : Vec Ideal S1000x256 .f32) (wq : Vec Ideal S256x256 .f32) (b : Vec Ideal S1x256 .f32) (ks : Vec Ideal S1024x256 .bf16)
    (om : Vec Ideal S1024x384 .bf16) (r : Fin 1000) (d : Fin 256) :
    k0_pay14 (F := Ideal) x wq b ks om (ix2 r d)
      = augRow x wq b ks om r ⟨d.val, by omega⟩ * Ideal.div cOne (augRow x wq b ks om r ⟨256, by omega⟩) := by
  rw [pay14_eq]
  refine (mulf_apply _ _ _).trans ?_
  refine congrArg₂ (· * ·) ?_ ?_
  · -- columns 0 to 255 of the weighted sums
    refine (slice2_axis1_apply 0 (aV x wq b ks om) slices_S1000x384_o0_0_S1000x256 r d ⟨d.val, by omega⟩ (Nat.zero_add _).symm).trans ?_
    exact aV_apply x wq b ks om r _
  · -- the reciprocal of column 256, the same along each row
    refine (broadcastTo_apply _ broadcasts_S1000x1_S1000x256 (ix2 r d) (ix2 r (0 : Fin 1)) (fun a => ?_)).trans ?_
    · match a with
      | ⟨0, _⟩ =>
        show r.val = if (1000 : Nat) = 1 then 0 else r.val
        rw [if_neg (by decide)]
      | ⟨1, _⟩ =>
        show 0 = if (1 : Nat) = 1 then 0 else d.val
        rw [if_pos rfl]
    · refine (divf_apply _ _ _).trans ?_
      refine congrArg₂ Ideal.div ?_ ?_
      · rfl
      · refine (slice2_axis1_apply 256 (aV x wq b ks om) slices_S1000x384_o0_256_S1000x1 r (0 : Fin 1) ⟨256, by omega⟩ rfl).trans ?_
        exact aV_apply x wq b ks om r _

end Cert.KernelIdeal.Pay

end
-- ==== Proof.KvOut.lean ====
/-
  What the output's block holds after a point t ≥ 4, and what the output array holds after the run, in the
  specification's terms: block t−4 of the specification's kernel form `Spec.kerO`; the ten blocks written back at
  points 4 to 13 tile the 10000 rows, row ρ lying in block ρ / 1000.
-/
import proofs.«138382_g52209622450808_cont_9to1_m_767_28_alg».proof.Proof.KvMix
import proofs.«138382_g52209622450808_cont_9to1_m_767_28_alg».proof.Proof.PayAttn
import Idealize.ShloMosaic.Lib.Pipeline.Frame

set_option maxRecDepth 16384

noncomputable section

namespace Cert.KernelIdeal.Kv

open Cert.KernelIdeal Cert.KernelIdeal.Gen Cert.KernelIdeal.Body Cert.Spec
open Idealize.ShloMosaic Idealize.ShloMosaic.TcCoe Idealize.ShloMosaic.ValueIdx Idealize.SL.Sem

variable (m : (ℓ : Loc nD τ sig) → Buf (Elt Ideal) ℓ)

/-- The kernel's result array, as the specification gives it. -/
def kerArr (c : Dev nD) : S10000x256.Idx → EReal := fun y =>
  kerO (mainC m c) (otherC m c) (fixC m c) (WqC m c) (bqC m c) (WkC m c) (bkC m c) ⟨(y 0).val, (y 0).isLt⟩ ⟨(y 1).val, (y 1).isLt⟩

/-! ### The block after a point, in the specification's terms -/

/-- The row of `main` that row `r` of the block at point `t` is. -/
private def rowAt (t : Fin cfg0.N) (r : Fin 1000) : Fin 10000 :=
  ⟨1000 * (t.val - 4) + r.val, by have := r.isLt; have := t.isLt; have : cfg0.N = 14 := N_0; omega⟩

/-- The block's queries are the specification's queries of those rows. -/
private theorem qRow_eq (c : Dev nD) (t : Fin cfg0.N) (h4 : 4 ≤ t.val) (r : Fin 1000) (e : Fin 256) :
    Pay.qRow (iblk m c 4 t) (iblk m c 5 t) (iblk m c 6 t) r e = qry (mainC m c) (WqC m c) (bqC m c) (rowAt t r) e := by
  unfold Pay.qRow qry
  exact congrArg₂ (· + ·)
    (Finset.sum_congr rfl fun a _ => congrArg₂ (· * ·) (iblk4_apply m c t h4 r a) (iblk5_apply m c t e a))
    (iblk6_apply m c t e)

/-- Its logits against the stored keys are the specification's logits against the scaled keys. -/
private theorem lgRow_eq (c : Dev nD) (t : Fin cfg0.N) (h4 : 4 ≤ t.val) (r : Fin 1000) (j : Fin 1024) :
    Pay.lgRow (iblk m c 4 t) (iblk m c 5 t) (iblk m c 6 t) (omk m c).2 r j
      = lgtK (mainC m c) (otherC m c) (WqC m c) (bqC m c) (WkC m c) (bkC m c) (rowAt t r) j := by
  unfold Pay.lgRow lgtK
  exact Finset.sum_congr rfl fun e _ => congrArg₂ (· * ·) (qRow_eq m c t h4 r e) (omk_snd_apply m c j e)

/-- Its weighted sums, the column of ones carried along, are the specification's. -/
private theorem augRow_eq (c : Dev nD) (t : Fin cfg0.N) (h4 : 4 ≤ t.val) (r : Fin 1000) (d : Fin 384) :
    Pay.augRow (iblk m c 4 t) (iblk m c 5 t) (iblk m c 6 t) (omk m c).2 (omk m c).1 r d
      = oaug (mainC m c) (otherC m c) (fixC m c) (WqC m c) (bqC m c) (WkC m c) (bkC m c) (rowAt t r) d := by
  unfold Pay.augRow oaug
  exact Finset.sum_congr rfl fun j _ =>
    congrArg₂ (· * ·) (congrArg Ideal.exp (lgRow_eq m c t h4 r j)) (omk_fst_apply m c j d)

/-- The output's block after point t ≥ 4. -/
theorem outAt_apply (c : Dev nD) (t : Fin cfg0.N) (h4 : 4 ≤ t.val) (r : Fin 1000) (d : Fin 256) :
    outAt m c t h4 (ix2 r d)
      = kerO (mainC m c) (otherC m c) (fixC m c) (WqC m c) (bqC m c) (WkC m c) (bkC m c)
          ⟨1000 * (t.val - 4) + r.val, by have := r.isLt; have := t.isLt; have : cfg0.N = 14 := N_0; omega⟩ d := by
  unfold outAt
  rw [outD_eq]
  refine (Pay.pay14_apply _ _ _ _ _ r d).trans ?_
  show _ = kerO _ _ _ _ _ _ _ (rowAt t r) d
  unfold kerO
  exact congrArg₂ (· * ·) (augRow_eq m c t h4 r _) (congrArg (Ideal.div cOne) (augRow_eq m c t h4 r _))

/-! ### From the blocks to the array -/

/-- The output's block index at point `t` is `t − 4` along the rows (0 before point 4) and 0 along the columns. -/
private theorem idx7 : ∀ t : Fin cfg0.N, win0_7.index t (0 : Fin 2) = t.val - 4 ∧ win0_7.index t (1 : Fin 2) = 0 :=
  (by decide +kernel : ∀ t : Fin grid0.N, _)

/-- The output's block is written back at every point from 4 on. -/
private theorem flush7 : ∀ t : Fin cfg0.N, 4 ≤ t.val → (cfg0.win 7).flush t = true :=
  (by decide +kernel : ∀ t : Fin grid0.N, _)

/-- The result array at an index whose coordinates are `R` and `D`. -/
private theorem kerArr_apply (c : Dev nD) (y : S10000x256.Idx) (R : Fin 10000) (D : Fin 256) (h0 : (y 0).val = R.val) (h1 : (y 1).val = D.val) :
    kerArr m c y = kerO (mainC m c) (otherC m c) (fixC m c) (WqC m c) (bqC m c) (WkC m c) (bkC m c) R D := by
  have e0 : (⟨(y 0).val, (y 0).isLt⟩ : Fin 10000) = R := Fin.ext h0
  have e1 : (⟨(y 1).val, (y 1).isLt⟩ : Fin 256) = D := Fin.ext h1
  show kerO _ _ _ _ _ _ _ (⟨(y 0).val, (y 0).isLt⟩ : Fin 10000) (⟨(y 1).val, (y 1).isLt⟩ : Fin 256) = _
  rw [e0, e1]

/-- What a point that writes back writes is its block of the result array: row `r` of the block at point `t` is row
    `1000 (t − 4) + r` of the array. -/
private theorem flushed7_eq (c : Dev nD) (t : Fin cfg0.N) (hf : (cfg0.win 7).flush t = true) :
    (dats m 0 c).flushed 7 t = ((cfg0.win 7).blk t).view.read (Elt Ideal) (kerArr m c) := by
  have h4 : 4 ≤ t.val := by
    by_contra h
    rw [noFlush7 t (by omega)] at hf
    exact Bool.false_ne_true hf
  show (cfg0.win 7).cut (grid0.coords t) ((dats m 0 c).after 7 t) = _
  rw [after7 m c t h4]
  obtain ⟨e0, e1⟩ := idx7 t
  funext j
  rw [View.read_apply]
  show outAt m c t h4 j = kerArr m c (((cfg0.win 7).blk t).view.emb j)
  refine (congrArg (outAt m c t h4) (eq_ix2 (n0 := 1000) (n1 := 256) j)).trans ?_
  refine (outAt_apply m c t h4 (j 0) (j 1)).trans (kerArr_apply m c _ _ _ ?_ ?_).symm
  · show win0_7.index t (0 : Fin 2) * 1000 + 1 * (j 0).val = 1000 * (t.val - 4) + (j 0).val
    rw [e0]; omega
  · show win0_7.index t (1 : Fin 2) * 256 + 1 * (j 1).val = (j 1).val
    rw [e1]; omega

/-- An index of the array is in point `t`'s block iff each coordinate is in the block's range on its axis. -/
private theorem mem_blk7 (t : Fin cfg0.N) (i : S10000x256.Idx) :
    i ∈ ((cfg0.win 7).blk t).view.set
      ↔ ∀ a : Fin 2, win0_7.index t a * S1000x256.size a ≤ (i a).val ∧ (i a).val < win0_7.index t a * S1000x256.size a + S1000x256.size a := by
  show i ∈ ((View.whole main_v2).slice (win0_7.rect t)).set ↔ _
  rw [View.set_slice_whole, Rect.mem_set_unit]
  exact Iff.rfl

/-- The output array after the run is the specification's kernel form. -/
theorem final (c : Dev nD) : (dats m 0 c).arrAt 7 cfg0.N = kerArr m c := by
  refine (dats m 0 c).arrAt_eq_of_cover 7 (kerArr m c) (fun t hf => flushed7_eq m c t hf) fun i => ?_
  -- row ρ lies in the block written back at point 4 + ρ / 1000
  have hi0 : (i 0).val < 10000 := (i 0).isLt
  have hi1 : (i 1).val < 256 := (i 1).isLt
  have hN : cfg0.N = 14 := N_0
  obtain ⟨t, ht⟩ : ∃ t : Fin cfg0.N, t.val = 4 + (i 0).val / 1000 := ⟨⟨4 + (i 0).val / 1000, by omega⟩, rfl⟩
  obtain ⟨e0, e1⟩ := idx7 t
  refine ⟨t, flush7 t (by omega), ?_⟩
  rw [mem_blk7]
  intro a
  match a with
  | ⟨0, _⟩ =>
    show win0_7.index t (0 : Fin 2) * 1000 ≤ (i 0).val ∧ (i 0).val < win0_7.index t (0 : Fin 2) * 1000 + 1000
    rw [e0]; omega
  | ⟨1, _⟩ =>
    show win0_7.index t (1 : Fin 2) * 256 ≤ (i 1).val ∧ (i 1).val < win0_7.index t (1 : Fin 2) * 256 + 256
    rw [e1]; omega

end Cert.KernelIdeal.Kv

end
-- ==== Proof.RefRead.lean ====
/-
  The reference's run and its stages read at an index, brought in for the modules that compare the
  reference's result with the specification.
-/
import proofs.«138382_g52209622450808_cont_9to1_m_767_28_alg».proof.Proof.Gen.ReferenceIdeal.Run
import proofs.«138382_g52209622450808_cont_9to1_m_767_28_alg».proof.Proof.Gen.ReferenceIdeal.Read
-- ==== Proof.LibRowMax.lean ====
/-
  A row-wise maximum on the host, read at an index, at the ideal values.

  A one-operand reduce with a maximum body over axis 1 of an `m × n` array, started from the word of −∞, is at row `r`
  the fold of the binary maximum of the extended reals over the row's `n` entries, started from `⊥`.
-/
import Idealize.ShloMosaic.PureOps.Reduce
import Idealize.ShloMosaic.PureOps.Ideal.Laws
import Idealize.ShloMosaic.Lib.ValueIdx

noncomputable section

namespace Cert.LibRowMax

open Idealize.ShloMosaic Idealize.ShloMosaic.ValueIdx

/-- The f32 word of −∞ is the bottom of the extended reals. -/
theorem ofBits_neg_inf_f32 : Ideal.ofBits .f32 0xFF800000#32 = (⊥ : EReal) := by
  simp [Ideal.ofBits, Ideal.ieee]

/-- The reduced index `r` with column `k` put back is (r, k). -/
theorem lift_row {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- From −∞ the host's reduce with a maximum body along the rows, at row `r`, is the fold of `max` from `⊥` over the row. -/
theorem hostReduce_max_row {m n : Nat} (x : FVec Ideal ⟨2, ![m, n]⟩ .f32)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (r : Fin m) :
    Host.reduce FloatOps.maximumf x (constant (⟨0, ![]⟩ : Shape) .f32 0xFF800000#32) h' hu (ix1 r)
      = (Finset.univ : Finset (Fin n)).fold max (⊥ : EReal) (fun J => x (ix2 r J)) := by
  rw [Host.reduce_eq_fold_single FloatOps.maximumf x _ h' h hu]
  have hf : (x ∘ h.lift (ix1 r)) = fun k : Fin n => x (ix2 r k) := funext fun k => congrArg x (lift_row h r k)
  have hi : (constant (⟨0, ![]⟩ : Shape) .f32 0xFF800000#32 : FVec Ideal ⟨0, ![]⟩ .f32) (Shape.Idx.first hu) = (⊥ : EReal) :=
    ofBits_neg_inf_f32
  rw [hi]
  exact congrArg (fun f => Finset.fold max (⊥ : EReal) f (Finset.univ : Finset (Fin n))) hf

/-- info: 'Cert.LibRowMax.hostReduce_max_row' depends on axioms: [propext, Classical.choice, Quot.sound] -/
#guard_msgs in #print axioms hostReduce_max_row

end Cert.LibRowMax

end
-- ==== Proof.RefValue.lean ====
/-
  THE REFERENCE'S RESULT IS THE SPECIFICATION'S REFERENCE FORM, entry by entry: its run's term, read one operation at
  a time at an index, is `Spec.refO` of the argument arrays, with the row shift the reference's own row maximum
  (which is a real number when the inputs are).
-/
import proofs.«138382_g52209622450808_cont_9to1_m_767_28_alg».proof.Proof.RefRead
import proofs.«138382_g52209622450808_cont_9to1_m_767_28_alg».proof.Proof.Arr
import proofs.«138382_g52209622450808_cont_9to1_m_767_28_alg».proof.Proof.LibRowMax
import Idealize.ShloMosaic.Lib.ValueIdx
import Idealize.ShloMosaic.PureOps.Ideal.Laws

set_option maxRecDepth 16384

noncomputable section

namespace Cert.RefValue

open Cert.ReferenceIdeal Cert.ReferenceIdeal.Read Cert.Spec
open Idealize.ShloMosaic Idealize.ShloMosaic.ValueIdx

variable (x0 : (⟨S10000x256, .f32⟩ : BufTy).Contents (Elt Ideal)) (x1 : (⟨S1024x256, .f32⟩ : BufTy).Contents (Elt Ideal)) (x2 : (⟨S4096x1024, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal)) (x6 : (⟨S256, .f32⟩ : BufTy).Contents (Elt Ideal))

/-- The reference's row shift: the maximum of −∞ and the row's scaled logits. -/
def refM (r : Fin 10000) : EReal := val_main_v16 (F := Ideal) x0 x1 x3 x4 x5 x6 (ix1 r)

/-! ## The stages of the reference, each read at the index of its coordinates -/

/-- Two indices of rank 2 (of rank 1) with the same coordinates are equal. -/
local macro "idx2" : tactic =>
  `(tactic| exact funext fun a => Fin.ext (by match a with | ⟨0, _⟩ => rfl | ⟨1, _⟩ => rfl))
local macro "idx1" : tactic =>
  `(tactic| exact funext fun a => Fin.ext (by match a with | ⟨0, _⟩ => rfl))

/-- The queries: main · Wqᵀ + bq. -/
private theorem v4_eq (r : Fin 10000) (e : Fin 256) :
    val_main_v4 (F := Ideal) x0 x3 x4 (ix2 r e) = qry (cur2 x0) (cur2 x3) (cur1 x4) r e := by
  have e1 : ∀ k : Fin 256, lidx_main_v1 (ix2 r e) k = ix2 r k := fun k => by idx2
  have e2 : ∀ k : Fin 256, idx_main_v0 (ridx_main_v1 (ix2 r e) k) = ix2 e k := fun k => by idx2
  have e3 : idx_main_v2 (idx_main_v3 (ix2 r e)) = ix1 e := by idx1
  rw [val_main_v4_apply, val_main_v1_apply, val_main_v3_apply, val_main_v2_apply]
  simp only [val_main_v0_apply, e1, e2, e3, Ideal.addf_def, qry]

/-- The keys: other · Wkᵀ + bk. -/
private theorem v9_eq (j : Fin 1024) (e : Fin 256) :
    val_main_v9 (F := Ideal) x1 x5 x6 (ix2 j e) = key (cur2 x1) (cur2 x5) (cur1 x6) j e := by
  have e1 : ∀ k : Fin 256, lidx_main_v6 (ix2 j e) k = ix2 j k := fun k => by idx2
  have e2 : ∀ k : Fin 256, idx_main_v5 (ridx_main_v6 (ix2 j e) k) = ix2 e k := fun k => by idx2
  have e3 : idx_main_v7 (idx_main_v8 (ix2 j e)) = ix1 e := by idx1
  rw [val_main_v9_apply, val_main_v6_apply, val_main_v8_apply, val_main_v7_apply]
  simp only [val_main_v5_apply, e1, e2, e3, Ideal.addf_def, key]

/-- The scaled logits: queries · keysᵀ, divided by 16. -/
private theorem v13_eq (r : Fin 10000) (j : Fin 1024) :
    val_main_v13 (F := Ideal) x0 x1 x3 x4 x5 x6 (ix2 r j)
      = scl (cur2 x0) (cur2 x1) (cur2 x3) (cur1 x4) (cur2 x5) (cur1 x6) r j := by
  have e1 : ∀ k : Fin 256, lidx_main_v11 (ix2 r j) k = ix2 r k := fun k => by idx2
  have e2 : ∀ k : Fin 256, idx_main_v10 (ridx_main_v11 (ix2 r j) k) = ix2 j k := fun k => by idx2
  rw [val_main_v13_apply, val_main_v11_apply, val_main_v12_apply, val_main_cst_apply]
  simp only [val_main_v10_apply, e1, e2, v4_eq, v9_eq, Ideal.hostDivf_def, Ideal.ofBits_def, scl, lgt, c16]

/-- The shifted exponentials. -/
private theorem v20_eq (r : Fin 10000) (j : Fin 1024) :
    val_main_v20 (F := Ideal) x0 x1 x3 x4 x5 x6 (ix2 r j)
      = Ideal.exp (scl (cur2 x0) (cur2 x1) (cur2 x3) (cur1 x4) (cur2 x5) (cur1 x6) r j - refM x0 x1 x3 x4 x5 x6 r) := by
  have e1 : idx_main_v17 (idx_main_v18 (ix2 r j)) = ix1 r := by idx1
  rw [val_main_v20_apply, val_main_v19_apply, val_main_v18_apply, val_main_v17_apply, e1, v13_eq]
  simp only [Ideal.hostUnary_exp_def, Ideal.subf_def, refM]

/-- The softmax denominators: the row sums of the exponentials. -/
private theorem v21_eq (r : Fin 10000) :
    val_main_v21 (F := Ideal) x0 x1 x3 x4 x5 x6 (ix1 r)
      = ∑ j : Fin 1024, Ideal.exp (scl (cur2 x0) (cur2 x1) (cur2 x3) (cur1 x4) (cur2 x5) (cur1 x6) r j - refM x0 x1 x3 x4 x5 x6 r) := by
  have e1 : ∀ k : Fin 1024, idx_main_v21 (ix1 r) k = ix2 r k := fun k => by idx2
  rw [val_main_v21_apply, val_main_cst_2_apply]
  simp only [e1, v20_eq, Ideal.ofBits_def, Ideal.ofBits_zero_f32, zero_add]

/-- The softmax weights. -/
private theorem v24_eq (r : Fin 10000) (j : Fin 1024) :
    val_main_v24 (F := Ideal) x0 x1 x3 x4 x5 x6 (ix2 r j)
      = Ideal.div (Ideal.exp (scl (cur2 x0) (cur2 x1) (cur2 x3) (cur1 x4) (cur2 x5) (cur1 x6) r j - refM x0 x1 x3 x4 x5 x6 r))
          (∑ j' : Fin 1024, Ideal.exp (scl (cur2 x0) (cur2 x1) (cur2 x3) (cur1 x4) (cur2 x5) (cur1 x6) r j' - refM x0 x1 x3 x4 x5 x6 r)) := by
  have e1 : idx_main_v22 (idx_main_v23 (ix2 r j)) = ix1 r := by idx1
  rw [val_main_v24_apply, val_main_v23_apply, val_main_v22_apply, e1, v20_eq, v21_eq, Ideal.hostDivf_def]

/-- The Gram matrix fixᵀ · fix. -/
private theorem v26_eq (i k : Fin 1024) :
    val_main_v26 (F := Ideal) x2 (ix2 i k) = gram (cur2 x2) i k := by
  have e1 : ∀ q : Fin 4096, idx_main_v25 (lidx_main_v26 (ix2 i k) q) = ix2 q i := fun q => by idx2
  have e2 : ∀ q : Fin 4096, ridx_main_v26 (ix2 i k) q = ix2 q k := fun q => by idx2
  rw [val_main_v26_apply]
  simp only [val_main_v25_apply, e1, e2, gram]

/-- Its entrywise square root. -/
private theorem v27_eq (i k : Fin 1024) :
    val_main_v27 (F := Ideal) x2 (ix2 i k) = rt (cur2 x2) i k := by
  rw [val_main_v27_apply, v26_eq, Ideal.hostUnary_sqrt_def, rt]

/-- The column sums of the square roots. -/
private theorem v28_eq (k : Fin 1024) :
    val_main_v28 (F := Ideal) x2 (ix1 k) = csum (cur2 x2) k := by
  have e1 : ∀ i : Fin 1024, idx_main_v28 (ix1 k) i = ix2 i k := fun i => by idx2
  rw [val_main_v28_apply, val_main_cst_3_apply]
  simp only [e1, v27_eq, Ideal.ofBits_def, Ideal.ofBits_zero_f32, zero_add, csum]

/-- The column-normalised square roots. -/
private theorem v31_eq (j k : Fin 1024) :
    val_main_v31 (F := Ideal) x2 (ix2 j k) = Ideal.div (rt (cur2 x2) j k) (csum (cur2 x2) k) := by
  have e1 : idx_main_v29 (idx_main_v30 (ix2 j k)) = ix1 k := by idx1
  rw [val_main_v31_apply, val_main_v30_apply, val_main_v29_apply, e1, v27_eq, v28_eq, Ideal.hostDivf_def]

/-- The mixing matrix times `other`. -/
private theorem v32_eq (j : Fin 1024) (d : Fin 256) :
    val_main_v32 (F := Ideal) x1 x2 (ix2 j d) = mixR (cur2 x1) (cur2 x2) j d := by
  have e1 : ∀ k : Fin 1024, lidx_main_v32 (ix2 j d) k = ix2 j k := fun k => by idx2
  have e2 : ∀ k : Fin 1024, ridx_main_v32 (ix2 j d) k = ix2 k d := fun k => by idx2
  rw [val_main_v32_apply]
  simp only [e1, e2, v31_eq, mixR]

/-- The reference's result at (r, d). -/
theorem ref_eq (r : Fin 10000) (d : Fin 256) :
    val_main_v33 (F := Ideal) x0 x1 x2 x3 x4 x5 x6 (ix2 r d)
      = refO (cur2 x0) (cur2 x1) (cur2 x2) (cur2 x3) (cur1 x4) (cur2 x5) (cur1 x6) (refM x0 x1 x3 x4 x5 x6) r d := by
  have e1 : ∀ j : Fin 1024, lidx_main_v33 (ix2 r d) j = ix2 r j := fun j => by idx2
  have e2 : ∀ j : Fin 1024, ridx_main_v33 (ix2 r d) j = ix2 j d := fun j => by idx2
  rw [val_main_v33_apply]
  simp only [e1, e2, v24_eq, v32_eq, refO]

/-! ## The row shift is a real number -/

/-- The constant 16. -/
private theorem c16_eq : c16 = ((16 : ℝ) : EReal) := by
  unfold c16
  simp [Ideal.ofBits, Ideal.ieee, -EReal.coe_mul]; norm_num

/-- A sum of two real numbers is a real number. -/
private theorem real_add {a b : EReal} (ha : ∃ x : ℝ, a = (x : EReal)) (hb : ∃ y : ℝ, b = (y : EReal)) :
    ∃ z : ℝ, a + b = (z : EReal) := by
  obtain ⟨x, rfl⟩ := ha; obtain ⟨y, rfl⟩ := hb; exact ⟨x + y, (EReal.coe_add x y).symm⟩

/-- A product of two real numbers is a real number. -/
private theorem real_mul {a b : EReal} (ha : ∃ x : ℝ, a = (x : EReal)) (hb : ∃ y : ℝ, b = (y : EReal)) :
    ∃ z : ℝ, a * b = (z : EReal) := by
  obtain ⟨x, rfl⟩ := ha; obtain ⟨y, rfl⟩ := hb; exact ⟨x * y, (EReal.coe_mul x y).symm⟩

/-- A finite sum of real numbers is a real number. -/
private theorem real_sum {n : Nat} (s : Finset (Fin n)) (f : Fin n → EReal) (hf : ∀ i, ∃ y : ℝ, f i = (y : EReal)) :
    ∃ y : ℝ, ∑ i ∈ s, f i = (y : EReal) := by
  refine Finset.induction_on s ⟨0, by simp⟩ ?_
  rintro a s ha ⟨y, hy⟩
  obtain ⟨x, hx⟩ := hf a
  exact ⟨x + y, by rw [Finset.sum_insert ha, hx, hy, EReal.coe_add]⟩

/-- The maximum, started from −∞, of finitely many real numbers, at least one, is a real number: it is one of them. -/
private theorem real_fold_max {n : Nat} (f : Fin n → EReal) (hf : ∀ j, ∃ y : ℝ, f j = (y : EReal)) (s : Finset (Fin n)) :
    s.Nonempty → ∃ y : ℝ, s.fold max (⊥ : EReal) f = (y : EReal) := by
  refine Finset.induction_on s (fun h => absurd h Finset.not_nonempty_empty) ?_
  intro a s ha ih _
  obtain ⟨x, hx⟩ := hf a
  rw [Finset.fold_insert ha, hx]
  rcases s.eq_empty_or_nonempty with rfl | hne
  · exact ⟨x, by rw [Finset.fold_empty, max_bot_right]⟩
  · obtain ⟨y, hy⟩ := ih hne
    rw [hy]
    rcases max_choice (x : EReal) (y : EReal) with h | h
    · exact ⟨x, h⟩
    · exact ⟨y, h⟩

/-- With real inputs the row shift is a real number: the maximum of finitely many (and at least one) real numbers. -/
theorem refM_real (h0 : Real2 (cur2 x0)) (h1 : Real2 (cur2 x1)) (h3 : Real2 (cur2 x3)) (h4 : Real1 (cur1 x4))
    (h5 : Real2 (cur2 x5)) (h6 : Real1 (cur1 x6)) : Real1 (refM x0 x1 x3 x4 x5 x6) := by
  intro r
  -- the queries, the keys and the scaled logits of row r are real numbers
  have hq : ∀ e, ∃ y : ℝ, qry (cur2 x0) (cur2 x3) (cur1 x4) r e = (y : EReal) := fun e => by
    unfold qry
    exact real_add (real_sum _ _ fun a => real_mul (h0 r a) (h3 e a)) (h4 e)
  have hk : ∀ j e, ∃ y : ℝ, key (cur2 x1) (cur2 x5) (cur1 x6) j e = (y : EReal) := fun j e => by
    unfold key
    exact real_add (real_sum _ _ fun a => real_mul (h1 j a) (h5 e a)) (h6 e)
  have hs : ∀ j, ∃ y : ℝ, scl (cur2 x0) (cur2 x1) (cur2 x3) (cur1 x4) (cur2 x5) (cur1 x6) r j = (y : EReal) := fun j => by
    obtain ⟨l, hl⟩ := real_sum Finset.univ _ fun e => real_mul (hq e) (hk j e)
    refine ⟨l * (1 / 16), ?_⟩
    unfold scl lgt
    rw [hl, c16_eq, Ideal.div_coe (by norm_num), EReal.coe_mul]
  -- the shift is the maximum of −∞ and the fold of the maximum over the row, started from −∞
  show ∃ y : ℝ, refM x0 x1 x3 x4 x5 x6 r = (y : EReal)
  unfold refM
  rw [val_main_v16_apply, val_main_v15_apply, val_main_cst_1_apply, Ideal.maximumf_def, Ideal.ofBits_def,
    LibRowMax.ofBits_neg_inf_f32, max_bot_left]
  unfold val_main_v14 val_main_cst_0
  rw [LibRowMax.hostReduce_max_row (m := 10000) (n := 1024) _ Gen.reducesTo_S10000x1024_S10000_d1 (by decide) Gen.h_S_ r]
  simp only [v13_eq]
  exact real_fold_max _ hs Finset.univ Finset.univ_nonempty

end Cert.RefValue

end
-- ==== Proof.PreFacts.lean ====
/-
  WHAT THE PRECONDITION SAYS of the argument arrays at the extended reals: every entry of every input is a real
  number (its absolute value is below +∞), and every column of `fix` has a positive sum of squares.
-/
import proofs.«138382_g52209622450808_cont_9to1_m_767_28_alg».proof.Proof.Gen.Pre_finite_inputs
import proofs.«138382_g52209622450808_cont_9to1_m_767_28_alg».proof.Proof.Arr
import Idealize.ShloMosaic.Lib.ReduceAll
import Idealize.ShloMosaic.Lib.ValueIdx
import Idealize.ShloMosaic.Lib.IdealHost
import Idealize.ShloMosaic.PureOps.Ideal.Laws

set_option maxRecDepth 16384

noncomputable section

namespace Cert.PreFacts

open Cert.Pre_finite_inputs Cert.Spec
open Idealize.ShloMosaic Idealize.ShloMosaic.ValueIdx

/-- A rank-0 array has one index. -/
local instance : Subsingleton S_.Idx := ⟨fun a b => funext fun d => d.elim0⟩

/-- The f32 pattern with exponent field all ones and fraction zero is +∞. -/
private theorem inf_eq : Ideal.ofBits .f32 0x7F800000#32 = (⊤ : EReal) := by
  simp [Ideal.ofBits, Ideal.ieee]

/-- An extended real whose absolute value `max x (-x)` is below +∞ is neither infinity: it is a real number. -/
private theorem real_of_abs_lt_top (x : EReal) (h : max x (-x) < ⊤) : ∃ r : ℝ, x = (r : EReal) := by
  induction x using EReal.rec with
  | bot => simp at h
  | coe r => exact ⟨r, rfl⟩
  | top => simp at h

/-- A comparison bit that is 1 says the compared proposition holds. -/
private theorem of_ofBool_decide_eq_one {p : Prop} [Decidable p] (h : BitVec.ofBool (decide p) = 1#1) : p := by
  by_contra hc
  simp [hc] at h

/-- One element of `|x| < +∞`: the ordered less-than is `<` on the extended reals, and the absolute value is `max x (-x)`. -/
private theorem real_of_elt (x : Ideal .f32)
    (h : FloatOps.cmpf (F := Ideal) .olt (FloatOps.hostAbsf x) (FloatOps.ofBits .f32 0x7F800000#32) = 1#1) :
    ∃ r : ℝ, x = (r : EReal) := by
  have h1 : max x (-x) < Ideal.ofBits .f32 0x7F800000#32 := of_ofBool_decide_eq_one h
  rw [inf_eq] at h1
  exact real_of_abs_lt_top x h1

/-- `jnp.all(abs(x) < +inf)` of an array of any shape: the conjunction over all entries is 1, so each entry's
    comparison is 1, and the entry is a real number. -/
private theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ix0 = 1#1) (i : s.Idx) : ∃ r : ℝ, x i = (r : EReal) := by
  have h1 := Host.reduce_andi_all _ _ hr hu ix0 e i
  rw [cmpf_apply, broadcastInDim_scalar_apply] at h1
  exact real_of_elt (x i) h1

/-- `jnp.all(sum(fix * fix, axis=0) > 0)`: at column `k` the comparison is 1; the ordered greater-than is `<` read from
    the right; the sum along axis 0 from the initial value 0 is `∑ r, fix r k * fix r k`, the index inserted on the
    reduced axis at column `k` being `(r, k)`. -/
private theorem col_pos (a2 : FVec Ideal S4096x1024 .f32)
    (hr1 : S4096x1024.ReducesTo [0] S1024) (hb : S_.BroadcastsInDim S1024 (![] : Fin 0 → Fin S1024.rank))
    (hr2 : S1024.ReducesTo [0] S_) (hu : 0 < S_.numel)
    (e : Host.reduce IntOp.andi (cmpf .ogt (Host.reduceAdd (mulf a2 a2) (constant S_ .f32 0x00000000#32) hr1 hu)
          (broadcastInDim S1024 ![] hb (constant S_ .f32 0x00000000#32))) (constantI S_ 1 1#1) hr2 hu ix0 = 1#1)
    (k : Fin 1024) : 0 < ∑ r : Fin 4096, a2 (ix2 r k) * a2 (ix2 r k) := by
  have h1 := Host.reduce_andi_all _ _ hr2 hu ix0 e (ix1 k)
  rw [cmpf_apply, broadcastInDim_scalar_apply, hostReduceAdd_apply] at h1
  have h2 : Ideal.ofBits .f32 0x00000000#32
      < Ideal.hostReduceAdd hr1 (mulf a2 a2) (Ideal.ofBits .f32 0x00000000#32) (ix1 k) := of_ofBool_decide_eq_one h1
  have hR : S4096x1024.Reduces [0] S1024 := by decide
  rw [Ideal.hostReduceAdd_single hr1 hR, Ideal.ofBits_zero_f32, zero_add] at h2
  refine lt_of_lt_of_eq h2 (Finset.sum_congr rfl fun r _ => ?_)
  rw [mulf_apply]
  have hi : hR.lift (ix1 k) r = ix2 r k :=
    funext fun a => Fin.ext (by match a with | ⟨0, _⟩ => rfl | ⟨1, _⟩ => rfl)
  rw [hi]
  rfl

/-- The printed predicate is the conjunction of eight `jnp.all`s, nested to the left; each conjunct is read by the
    lemmas above. -/
theorem of_pre (a0 : FVec Ideal S10000x256 .f32) (a1 : FVec Ideal S1024x256 .f32) (a2 : FVec Ideal S4096x1024 .f32)
    (a3 : FVec Ideal S256x256 .f32) (a4 : FVec Ideal S256 .f32) (a5 : FVec Ideal S256x256 .f32) (a6 : FVec Ideal S256 .f32)
    (h : Cert.Pre_finite_inputs.fn (F := Ideal) a0 a1 a2 a3 a4 a5 a6 = fun _ => 1#1) :
    Real2 (cur2 a0) ∧ Real2 (cur2 a1) ∧ Real2 (cur2 a2) ∧ Real2 (cur2 a3) ∧ Real1 (cur1 a4) ∧ Real2 (cur2 a5) ∧ Real1 (cur1 a6)
      ∧ ∀ k : Fin 1024, 0 < ∑ r : Fin 4096, cur2 a2 r k * cur2 a2 r k := by
  have h0 := congrFun h ValueIdx.ix0
  dsimp only [Cert.Pre_finite_inputs.fn, Cert.Pre_finite_inputs.fn_part1, Cert.Pre_finite_inputs.fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i j => all_real a0 _ _ _ e0 (ix2 i j), fun i j => all_real a1 _ _ _ e1 (ix2 i j),
    fun i j => all_real a2 _ _ _ e2 (ix2 i j), fun i j => all_real a3 _ _ _ e3 (ix2 i j),
    fun i => all_real a4 _ _ _ e4 (ix1 i), fun i j => all_real a5 _ _ _ e5 (ix2 i j),
    fun i => all_real a6 _ _ _ e6 (ix1 i), fun k => col_pos a2 _ _ _ _ e7 k⟩

end Cert.PreFacts

end
-- ==== Proof.AlgMix.lean ====
/-
  THE MIXING MATRIX: the kernel's form equals the reference's, and is finite.
  Kernel: the Gram matrix is accumulated over four chunks of rows and kept in quadrants; the column sums of its
  square roots are formed from the quadrants (the lower-left quadrant is the upper-right one transposed, the Gram
  matrix being symmetric); the rows of `other` are divided by the column sums and then multiplied by the square roots.
  Reference: the square roots are divided by their column sums and then multiplied by `other`.
  Both are ∑ₖ rt(j,k) · other(k,d) / csum(k) wherever no column sum is zero: on the extended reals a quotient by a
  nonzero y is the product with y⁻¹, and products commute and associate. That every entry of `fix` is real makes the
  Gram entries real; a negative Gram entry has square root −∞ (the junk value), its column sum is then −∞, and both
  programs multiply by (−∞)⁻¹ = 0 there. A column whose sum of squares is positive has a positive diagonal square
  root, so its column sum is not zero.
-/
import proofs.«138382_g52209622450808_cont_9to1_m_767_28_alg».proof.Proof.Arr
import Mathlib.Algebra.BigOperators.Fin
import Mathlib.Analysis.Real.Sqrt

noncomputable section

namespace Cert.Spec

open Idealize.ShloMosaic

variable (other : Fin 1024 → Fin 256 → EReal) (fix : Fin 4096 → Fin 1024 → EReal)

/-! ## Splitting a sum into blocks -/

/-- A sum over 4096 rows is the sum over the four chunks of 1024 rows, added in turn. -/
private theorem sum_row4 (f : Fin 4096 → EReal) :
    ∑ r, f r = (((∑ r : Fin 1024, f (row4 0 r)) + ∑ r : Fin 1024, f (row4 1 r)) + ∑ r : Fin 1024, f (row4 2 r))
      + ∑ r : Fin 1024, f (row4 3 r) := by
  have h : ∑ x : Fin 4 × Fin 1024, f (finProdFinEquiv x) = ∑ r, f r :=
    Equiv.sum_comp (finProdFinEquiv : Fin 4 × Fin 1024 ≃ Fin 4096) f
  have e : ∀ (t : Fin 4) (r : Fin 1024), (finProdFinEquiv (t, r) : Fin 4096) = row4 t r := by
    intro t r
    apply Fin.ext
    show r.val + 1024 * t.val = 1024 * t.val + r.val
    omega
  refine h.symm.trans ?_
  rw [Fintype.sum_prod_type, Fin.sum_univ_four]
  simp only [e]

/-- A sum over 1024 columns is the sum over the lower half plus the sum over the upper half. -/
private theorem sum_halves (g : Fin 1024 → EReal) :
    ∑ i, g i = (∑ i : Fin 512, g (lo i)) + ∑ i : Fin 512, g (hi i) :=
  Fin.sum_univ_add (a := 512) (b := 512) g

/-- The Gram matrix accumulated chunk by chunk is the Gram matrix. -/
theorem gramK_eq_gram (i k : Fin 1024) : gramK fix i k = gram fix i k := by
  unfold gramK gram chunkP
  exact (sum_row4 (fun r => fix r i * fix r k)).symm

/-! ## Symmetry, and the kernel's column sums -/

private theorem gram_symm (i k : Fin 1024) : gram fix i k = gram fix k i := by
  unfold gram
  exact Finset.sum_congr rfl (fun r _ => mul_comm _ _)

private theorem rt_symm (i k : Fin 1024) : rt fix i k = rt fix k i := by
  unfold rt
  rw [gram_symm]

private theorem rtK_eq_rt (i k : Fin 1024) : rtK fix i k = rt fix i k := by
  unfold rtK rt
  rw [gramK_eq_gram]

/-- The left column sums, formed from the upper-left and the (transposed) upper-right quadrant. -/
private theorem csL_eq (k : Fin 512) : csL fix k = csum fix (lo k) := by
  unfold csL csum
  rw [sum_halves (fun i => rt fix i (lo k))]
  simp only [rtK_eq_rt]
  congr 1
  exact Finset.sum_congr rfl (fun i _ => rt_symm fix _ _)

/-- The right column sums, formed from the upper-right and the lower-right quadrant. -/
private theorem csR_eq (k : Fin 512) : csR fix k = csum fix (hi k) := by
  unfold csR csum
  rw [sum_halves (fun i => rt fix i (hi k))]
  simp only [rtK_eq_rt]

/-! ## Finite sums of reals -/

private theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

private theorem sum_real {n : ℕ} (g : Fin n → EReal) (h : ∀ i, ∃ x : ℝ, g i = (x : EReal)) :
    ∃ x : ℝ, ∑ i, g i = (x : EReal) := by
  choose Y hY using h
  exact ⟨∑ i, Y i, by rw [coe_sum]; exact Finset.sum_congr rfl (fun i _ => hY i)⟩

/-- A finite sum whose terms are each −∞ or a nonnegative real, one of them a positive real, is −∞ or a positive
    real; in the second case every term is real. -/
private theorem sum_bot_or_pos {n : ℕ} (g : Fin n → EReal)
    (h : ∀ i, g i = ⊥ ∨ ∃ y : ℝ, 0 ≤ y ∧ g i = (y : EReal))
    (k : Fin n) (hpos : ∃ y : ℝ, 0 < y ∧ g k = (y : EReal)) :
    ∑ i, g i = ⊥ ∨ ((∃ y : ℝ, 0 < y ∧ ∑ i, g i = (y : EReal)) ∧ ∀ i, ∃ z : ℝ, g i = (z : EReal)) := by
  by_cases hb : ∃ i, g i = ⊥
  · left
    obtain ⟨a, hab⟩ := hb
    rw [← Finset.add_sum_erase Finset.univ g (Finset.mem_univ a), hab, EReal.bot_add]
  · right
    have hr : ∀ i, ∃ y : ℝ, 0 ≤ y ∧ g i = (y : EReal) :=
      fun i => (h i).resolve_left (fun hi => hb ⟨i, hi⟩)
    choose Y hY0 hY using hr
    obtain ⟨y, hy, hgk⟩ := hpos
    have hyk : Y k = y := EReal.coe_eq_coe_iff.1 ((hY k).symm.trans hgk)
    refine ⟨⟨∑ i, Y i, ?_, ?_⟩, fun i => ⟨Y i, hY i⟩⟩
    · calc (0 : ℝ) < Y k := by rw [hyk]; exact hy
        _ ≤ ∑ i, Y i := Finset.single_le_sum (fun i _ => hY0 i) (Finset.mem_univ k)
    · rw [coe_sum]
      exact Finset.sum_congr rfl (fun i _ => hY i)

/-! ## The square roots of a real Gram matrix -/

private theorem gram_coe (X : Fin 4096 → Fin 1024 → ℝ) (hX : ∀ r i, fix r i = (X r i : EReal)) (i k : Fin 1024) :
    gram fix i k = ((∑ r, X r i * X r k : ℝ) : EReal) := by
  unfold gram
  rw [coe_sum]
  exact Finset.sum_congr rfl (fun r _ => by rw [hX, hX, EReal.coe_mul])

/-- Each square root is −∞ (of a negative entry) or a nonnegative real. -/
private theorem rt_cases (hfix : Real2 fix) (i k : Fin 1024) :
    rt fix i k = ⊥ ∨ ∃ y : ℝ, 0 ≤ y ∧ rt fix i k = (y : EReal) := by
  choose X hX using hfix
  unfold rt
  rw [gram_coe fix X hX, Ideal.sqrt_coe]
  split_ifs with h
  · exact Or.inl rfl
  · exact Or.inr ⟨_, Real.sqrt_nonneg _, rfl⟩

/-- A column whose sum of squares is positive has a positive diagonal square root. -/
private theorem rt_diag_pos (hfix : Real2 fix) (k : Fin 1024) (hk : 0 < ∑ r : Fin 4096, fix r k * fix r k) :
    ∃ y : ℝ, 0 < y ∧ rt fix k k = (y : EReal) := by
  choose X hX using hfix
  have hg := gram_coe fix X hX k k
  have hpos : 0 < ∑ r, X r k * X r k := by
    have h0 : (0 : EReal) < ((∑ r, X r k * X r k : ℝ) : EReal) := by
      rw [← hg]; exact hk
    exact EReal.coe_pos.1 h0
  refine ⟨Real.sqrt (∑ r, X r k * X r k), Real.sqrt_pos.2 hpos, ?_⟩
  unfold rt
  rw [hg, Ideal.sqrt_coe, if_neg (not_lt.2 hpos.le)]

/-- A column sum is −∞ or a positive real; in the second case the whole column of square roots is real. -/
private theorem csum_cases (hfix : Real2 fix) (hcs : ∀ k : Fin 1024, 0 < ∑ r : Fin 4096, fix r k * fix r k)
    (k : Fin 1024) :
    csum fix k = ⊥ ∨ ((∃ y : ℝ, 0 < y ∧ csum fix k = (y : EReal)) ∧ ∀ i, ∃ z : ℝ, rt fix i k = (z : EReal)) :=
  sum_bot_or_pos (fun i => rt fix i k) (fun i => rt_cases fix hfix i k) k (rt_diag_pos fix hfix k (hcs k))

private theorem csum_ne_zero (hfix : Real2 fix) (hcs : ∀ k : Fin 1024, 0 < ∑ r : Fin 4096, fix r k * fix r k)
    (k : Fin 1024) : csum fix k ≠ 0 := by
  rcases csum_cases fix hfix hcs k with h | ⟨⟨y, hy, h⟩, _⟩
  · rw [h]; exact EReal.bot_lt_zero.ne
  · rw [h]; exact EReal.coe_ne_zero.2 hy.ne'

/-! ## Moving the normalisation from the square roots onto the rows of `other` -/

/-- Off zero a quotient is the product with the inverse, and products commute and associate. -/
private theorem mul_div_swap (a o c : EReal) (hc : c ≠ 0) : a * Ideal.div o c = Ideal.div a c * o := by
  unfold Ideal.div
  rw [if_neg hc, if_neg hc, mul_assoc, mul_comm o]

private theorem mixTop_eq (hfix : Real2 fix) (hcs : ∀ k : Fin 1024, 0 < ∑ r : Fin 4096, fix r k * fix r k)
    (i : Fin 512) (d : Fin 256) : mixTop other fix i d = mixR other fix (lo i) d := by
  unfold mixTop mixR soL soR
  rw [sum_halves (fun k => Ideal.div (rt fix (lo i) k) (csum fix k) * other k d)]
  simp only [rtK_eq_rt, csL_eq, csR_eq]
  congr 1
  · exact Finset.sum_congr rfl (fun k _ => mul_div_swap _ _ _ (csum_ne_zero fix hfix hcs _))
  · exact Finset.sum_congr rfl (fun k _ => mul_div_swap _ _ _ (csum_ne_zero fix hfix hcs _))

private theorem mixBot_eq (hfix : Real2 fix) (hcs : ∀ k : Fin 1024, 0 < ∑ r : Fin 4096, fix r k * fix r k)
    (i : Fin 512) (d : Fin 256) : mixBot other fix i d = mixR other fix (hi i) d := by
  unfold mixBot mixR soL soR
  rw [sum_halves (fun k => Ideal.div (rt fix (hi i) k) (csum fix k) * other k d)]
  simp only [rtK_eq_rt, csL_eq, csR_eq]
  congr 1
  · exact Finset.sum_congr rfl (fun k _ => by
      rw [rt_symm fix (lo k) (hi i)]
      exact mul_div_swap _ _ _ (csum_ne_zero fix hfix hcs _))
  · exact Finset.sum_congr rfl (fun k _ => mul_div_swap _ _ _ (csum_ne_zero fix hfix hcs _))

/-- Columns 0 to 255 of the kernel's scratch hold the reference's mixed rows. -/
theorem omFull_mix (hfix : Real2 fix) (hother : Real2 other)
    (hcs : ∀ k : Fin 1024, 0 < ∑ r : Fin 4096, fix r k * fix r k) (j : Fin 1024) (d : Fin 256) :
    omFull other fix j ⟨d.val, by omega⟩ = mixR other fix j d := by
  unfold omFull
  have hd : (⟨d.val, by omega⟩ : Fin 384).val < 256 := d.isLt
  rw [dif_pos hd]
  by_cases hj : j.val < 512
  · rw [dif_pos hj]
    exact mixTop_eq other fix hfix hcs ⟨j.val, hj⟩ d
  · rw [dif_neg hj]
    have e : hi ⟨j.val - 512, by omega⟩ = j := Fin.ext (by show 512 + (j.val - 512) = j.val; omega)
    have := mixBot_eq other fix hfix hcs ⟨j.val - 512, by omega⟩ d
    rw [e] at this
    exact this

/-- The mixed rows are real numbers. -/
theorem mixR_real (hfix : Real2 fix) (hother : Real2 other)
    (hcs : ∀ k : Fin 1024, 0 < ∑ r : Fin 4096, fix r k * fix r k) : Real2 (mixR other fix) := by
  intro j d
  unfold mixR
  apply sum_real
  intro k
  obtain ⟨o, ho⟩ := hother k d
  have hne := csum_ne_zero fix hfix hcs k
  unfold Ideal.div
  rw [if_neg hne]
  rcases csum_cases fix hfix hcs k with h | ⟨⟨y, hy, h⟩, hall⟩
  · exact ⟨0, by rw [h, EReal.inv_bot, mul_zero, zero_mul, EReal.coe_zero]⟩
  · obtain ⟨z, hz⟩ := hall j
    exact ⟨z * y⁻¹ * o, by rw [h, hz, ho, ← EReal.coe_inv, ← EReal.coe_mul, ← EReal.coe_mul]⟩

/-- Column 256 of the kernel's scratch holds ones. -/
theorem omFull_ones (j : Fin 1024) : omFull other fix j ⟨256, by omega⟩ = cOneB := by
  unfold omFull
  exact dif_neg (Nat.lt_irrefl 256)

end Cert.Spec

end
-- ==== Proof.AlgAttn.lean ====
/-
  THE ATTENTION: the kernel's form equals the reference's, over the reals.
  Kernel: logits against keys pre-scaled by 1/16, exponentials with no shift, the weighted sum of the rows of a
  1024 × 384 matrix whose column 256 is all ones, the first 256 columns multiplied by the reciprocal of column 256.
  Reference: logits divided by 16, shifted by a row value M, exponentiated, divided by their row sum, then the weighted sum.
  With every input a real number: ∑ₑ q·(k·(1/16)) = (∑ₑ q·k)/16; exp(a − M) = exp(a)·exp(−M) with exp(−M) a nonzero real
  that cancels between numerator and denominator; the row sum of exponentials is a positive real; and a sum of reals
  times a real factor distributes.
-/
import proofs.«138382_g52209622450808_cont_9to1_m_767_28_alg».proof.Proof.Arr
import Mathlib.Algebra.BigOperators.Fin
import Mathlib.Analysis.SpecialFunctions.Exp

noncomputable section

namespace Cert.Spec

open Idealize.ShloMosaic

variable (main : Fin 10000 → Fin 256 → EReal) (other : Fin 1024 → Fin 256 → EReal)
  (Wq : Fin 256 → Fin 256 → EReal) (bq : Fin 256 → EReal) (Wk : Fin 256 → Fin 256 → EReal) (bk : Fin 256 → EReal)

/-- The values of the four constants. -/
theorem c16_eq : c16 = ((16 : ℝ) : EReal) := by
  simp [c16, Ideal.ofBits, Ideal.ieee, -EReal.coe_mul]; norm_num
theorem c16i_eq : c16i = ((1 / 16 : ℝ) : EReal) := by
  simp [c16i, Ideal.ofBits, Ideal.ieee, -EReal.coe_mul]; norm_num
theorem cOne_eq : cOne = ((1 : ℝ) : EReal) := by
  simp [cOne, Ideal.ofBits, Ideal.ieee, -EReal.coe_mul]; norm_num
theorem cOneB_eq : cOneB = ((1 : ℝ) : EReal) := by
  simp [cOneB, Ideal.ofBits, Ideal.ieee, -EReal.coe_mul]; norm_num

/-! ## Coercion bookkeeping -/

/-- A finite sum of coerced reals is the coercion of the real sum. -/
private theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of products of coerced reals is the coercion of the real sum of products. -/
private theorem coe_sum_mul {ι : Type} (s : Finset ι) (f g : ι → ℝ) :
    (∑ i ∈ s, ((f i : ℝ) : EReal) * ((g i : ℝ) : EReal)) = ((∑ i ∈ s, f i * g i : ℝ) : EReal) := by
  rw [← coe_sum]; exact Finset.sum_congr rfl (fun i _ => (EReal.coe_mul _ _).symm)

/-- An affine layer x · Wᵀ + b of real arrays is real. -/
private theorem real_affine {n k o : Nat} {x : Fin n → Fin k → EReal} {W : Fin o → Fin k → EReal} {b : Fin o → EReal}
    (hx : Real2 x) (hW : Real2 W) (hb : Real1 b) :
    Real2 (fun (i : Fin n) (e : Fin o) => (∑ a : Fin k, x i a * W e a) + b e) := by
  choose xr hxr using hx
  choose wr hwr using hW
  choose br hbr using hb
  intro i e
  refine ⟨(∑ a : Fin k, xr i a * wr e a) + br e, ?_⟩
  simp only [hxr, hwr, hbr, coe_sum_mul, ← EReal.coe_add]

/-! ## The identity over the reals -/

/-- With S = ∑ exp aⱼ nonzero: (∑ exp aⱼ · mⱼ) · (1/S) = ∑ (exp(aⱼ − μ) / ∑ exp(aⱼ' − μ)) · mⱼ,
    because exp(aⱼ − μ) = exp aⱼ / exp μ and the factor 1 / exp μ cancels. -/
private theorem real_softmax {n : Nat} (a m : Fin n → ℝ) (μ : ℝ) (hS : (∑ j : Fin n, Real.exp (a j)) ≠ 0) :
    (∑ j : Fin n, Real.exp (a j) * m j) * (1 * (1 / ∑ j : Fin n, Real.exp (a j)))
      = ∑ j : Fin n, Real.exp (a j - μ) * (1 / ∑ j' : Fin n, Real.exp (a j' - μ)) * m j := by
  have hμ : Real.exp μ ≠ 0 := (Real.exp_pos μ).ne'
  have hT : (∑ j' : Fin n, Real.exp (a j' - μ)) = (∑ j : Fin n, Real.exp (a j)) / Real.exp μ := by
    rw [Finset.sum_div]; exact Finset.sum_congr rfl (fun j _ => Real.exp_sub _ _)
  rw [hT, Finset.sum_mul]
  refine Finset.sum_congr rfl (fun j _ => ?_)
  rw [Real.exp_sub]
  field_simp

/-- The same identity with every term a coerced real, in the extended reals. -/
private theorem attn_core {n : Nat} (hn : 0 < n) (a m : Fin n → ℝ) (μ : ℝ) :
    (∑ j : Fin n, Ideal.exp ((a j : ℝ) : EReal) * ((m j : ℝ) : EReal))
        * Ideal.div ((1 : ℝ) : EReal) (∑ j : Fin n, Ideal.exp ((a j : ℝ) : EReal) * ((1 : ℝ) : EReal))
      = ∑ j : Fin n, Ideal.div (Ideal.exp (((a j : ℝ) : EReal) - ((μ : ℝ) : EReal)))
          (∑ j' : Fin n, Ideal.exp (((a j' : ℝ) : EReal) - ((μ : ℝ) : EReal))) * ((m j : ℝ) : EReal) := by
  have hne : (Finset.univ : Finset (Fin n)).Nonempty := ⟨⟨0, hn⟩, Finset.mem_univ _⟩
  have hS : 0 < ∑ j : Fin n, Real.exp (a j) := Finset.sum_pos (fun j _ => Real.exp_pos _) hne
  have hT : 0 < ∑ j : Fin n, Real.exp (a j - μ) := Finset.sum_pos (fun j _ => Real.exp_pos _) hne
  have hnum : (∑ j : Fin n, Ideal.exp ((a j : ℝ) : EReal) * ((m j : ℝ) : EReal))
      = ((∑ j : Fin n, Real.exp (a j) * m j : ℝ) : EReal) := by
    simp only [Ideal.exp_coe, coe_sum_mul]
  have hden : (∑ j : Fin n, Ideal.exp ((a j : ℝ) : EReal) * ((1 : ℝ) : EReal))
      = ((∑ j : Fin n, Real.exp (a j) : ℝ) : EReal) := by
    simp only [Ideal.exp_coe, coe_sum_mul, mul_one]
  have hden' : (∑ j' : Fin n, Ideal.exp (((a j' : ℝ) : EReal) - ((μ : ℝ) : EReal)))
      = ((∑ j' : Fin n, Real.exp (a j' - μ) : ℝ) : EReal) := by
    simp only [← EReal.coe_sub, Ideal.exp_coe, coe_sum]
  have hterm : ∀ j : Fin n, Ideal.div (Ideal.exp (((a j : ℝ) : EReal) - ((μ : ℝ) : EReal)))
        (∑ j' : Fin n, Ideal.exp (((a j' : ℝ) : EReal) - ((μ : ℝ) : EReal))) * ((m j : ℝ) : EReal)
      = ((Real.exp (a j - μ) * (1 / ∑ j' : Fin n, Real.exp (a j' - μ)) * m j : ℝ) : EReal) := by
    intro j
    rw [hden', Ideal.div_coe hT.ne', ← EReal.coe_sub, Ideal.exp_coe, ← EReal.coe_mul, ← EReal.coe_mul]
  rw [hnum, hden, Ideal.div_coe hS.ne', ← EReal.coe_mul, ← EReal.coe_mul,
    Finset.sum_congr rfl (fun j _ => hterm j), coe_sum, EReal.coe_eq_coe_iff]
  exact real_softmax a m μ hS.ne'

/-- The kernel's weighted sum times the reciprocal of its column of ones is the reference's softmax-weighted sum,
    for any matrix `om` whose first 256 columns are the real matrix `mix` and whose column 256 is all ones, and any
    real row shift `M`. -/
theorem attn_eq (hmain : Real2 main) (hother : Real2 other) (hWq : Real2 Wq) (hbq : Real1 bq) (hWk : Real2 Wk) (hbk : Real1 bk)
    (om : Fin 1024 → Fin 384 → EReal) (mix : Fin 1024 → Fin 256 → EReal)
    (hom : ∀ (j : Fin 1024) (d : Fin 256), om j ⟨d.val, by omega⟩ = mix j d)
    (hone : ∀ j : Fin 1024, om j ⟨256, by omega⟩ = cOneB) (hmix : Real2 mix)
    (M : Fin 10000 → EReal) (hM : Real1 M) (r : Fin 10000) (d : Fin 256) :
    (∑ j : Fin 1024, Ideal.exp (lgtK main other Wq bq Wk bk r j) * om j ⟨d.val, by omega⟩)
        * Ideal.div cOne (∑ j : Fin 1024, Ideal.exp (lgtK main other Wq bq Wk bk r j) * om j ⟨256, by omega⟩)
      = ∑ j : Fin 1024, Ideal.div (Ideal.exp (scl main other Wq bq Wk bk r j - M r))
          (∑ j' : Fin 1024, Ideal.exp (scl main other Wq bq Wk bk r j' - M r)) * mix j d := by
  -- real witnesses: the queries of row r, the keys, the mixed rows, the shift
  have hq : Real2 (qry main Wq bq) := real_affine hmain hWq hbq
  have hk : Real2 (key other Wk bk) := real_affine hother hWk hbk
  choose q hq using hq
  choose k hk using hk
  choose m hm using hmix
  obtain ⟨μ, hμ⟩ := hM r
  -- both logit forms are the same real number (∑ₑ qₑ kⱼₑ) · (1/16)
  have hK : ∀ j : Fin 1024, lgtK main other Wq bq Wk bk r j
      = (((∑ e : Fin 256, q r e * k j e) * (1 / 16) : ℝ) : EReal) := by
    intro j
    simp only [lgtK, keyS, hq, hk, c16i_eq, ← EReal.coe_mul, coe_sum]
    rw [Finset.sum_mul]
    simp only [mul_assoc]
  have hS : ∀ j : Fin 1024, scl main other Wq bq Wk bk r j
      = (((∑ e : Fin 256, q r e * k j e) * (1 / 16) : ℝ) : EReal) := by
    intro j
    simp only [scl, lgt, hq, hk, c16_eq, coe_sum_mul]
    rw [Ideal.div_coe (by norm_num : (16 : ℝ) ≠ 0), ← EReal.coe_mul]
  simp only [hK, hS, hom, hone, hm, hμ, cOne_eq, cOneB_eq]
  exact attn_core (by norm_num) (fun j => (∑ e : Fin 256, q r e * k j e) * (1 / 16)) (fun j => m j d) μ

end Cert.Spec

end
-- ==== Proof.Algebra.lean ====
/-
  THE TWO FORMS AGREE: under the precondition's facts (every input entry a real number, every column of `fix` with a
  positive sum of squares) the kernel's form of the result equals the reference's, for any real row shift.
  The mixing matrix part and the attention part are proved separately; here they are put together: the kernel's
  1024 × 384 matrix has the reference's mixed rows in columns 0 to 255 and ones in column 256.
-/
import proofs.«138382_g52209622450808_cont_9to1_m_767_28_alg».proof.Proof.AlgMix
import proofs.«138382_g52209622450808_cont_9to1_m_767_28_alg».proof.Proof.AlgAttn

noncomputable section

namespace Cert.Spec

open Idealize.ShloMosaic

theorem kerO_eq_refO (main : Fin 10000 → Fin 256 → EReal) (other : Fin 1024 → Fin 256 → EReal) (fix : Fin 4096 → Fin 1024 → EReal)
    (Wq : Fin 256 → Fin 256 → EReal) (bq : Fin 256 → EReal) (Wk : Fin 256 → Fin 256 → EReal) (bk : Fin 256 → EReal)
    (hmain : Real2 main) (hother : Real2 other) (hfix : Real2 fix) (hWq : Real2 Wq) (hbq : Real1 bq) (hWk : Real2 Wk) (hbk : Real1 bk)
    (hcs : ∀ k : Fin 1024, 0 < ∑ r : Fin 4096, fix r k * fix r k)
    (M : Fin 10000 → EReal) (hM : Real1 M) (r : Fin 10000) (d : Fin 256) :
    kerO main other fix Wq bq Wk bk r d = refO main other fix Wq bq Wk bk M r d := by
  unfold kerO oaug refO
  exact attn_eq main other Wq bq Wk bk hmain hother hWq hbq hWk hbk (omFull other fix) (mixR other fix)
    (fun j d => omFull_mix other fix hfix hother hcs j d) (omFull_ones other fix) (mixR_real other fix hfix hother hcs) M hM r d

end Cert.Spec

end
-- ==== Proof.lean ====
/-
  THE CERTIFICATE: a fused attention kernel against its plain reference, over the extended reals.
  Both programs compute softmax((main·Wqᵀ + bq)(other·Wkᵀ + bk)ᵀ / 16) · (√(fixᵀ·fix), column-normalised) · other.
  The kernel runs one region of 14 grid points: points 0 to 3 accumulate the Gram matrix fixᵀ·fix over four chunks of
  rows, in three 512 × 512 quadrants kept in scratch; point 3 also turns the quadrants into the mixed rows of `other`
  (with a column of ones appended) and forms the keys scaled by 1/16; points 4 to 13 each compute 1000 rows of the
  result from the stored matrices, dividing by the softmax denominator that the column of ones produced.
  The three frames: each program runs to the end and leaves its arguments unchanged (the kernel's by the body's
  four cases over the grid, the reference's by its run). The kernel and its idealisation are the same text.
  The equality of results: the kernel's output array is the specification's kernel form, the reference's result its
  reference form, and the two forms agree wherever every input is a real number and no column of `fix` is zero —
  which is what the precondition says. (A zero column makes the reference divide zero by zero.)
-/
import proofs.«138382_g52209622450808_cont_9to1_m_767_28_alg».proof.Defs
import proofs.«138382_g52209622450808_cont_9to1_m_767_28_alg».proof.Proof.Gen.Kernel
import proofs.«138382_g52209622450808_cont_9to1_m_767_28_alg».proof.Proof.Gen.KernelIdeal
import proofs.«138382_g52209622450808_cont_9to1_m_767_28_alg».proof.Proof.Gen.ReferenceIdeal
import proofs.«138382_g52209622450808_cont_9to1_m_767_28_alg».proof.Proof.Gen.Pre_finite_inputs
import proofs.«138382_g52209622450808_cont_9to1_m_767_28_alg».proof.Proof.BodyBits.Frame
import proofs.«138382_g52209622450808_cont_9to1_m_767_28_alg».proof.Proof.BodyIdeal.Frame
import proofs.«138382_g52209622450808_cont_9to1_m_767_28_alg».proof.Proof.KvOut
import proofs.«138382_g52209622450808_cont_9to1_m_767_28_alg».proof.Proof.RefValue
import proofs.«138382_g52209622450808_cont_9to1_m_767_28_alg».proof.Proof.PreFacts
import proofs.«138382_g52209622450808_cont_9to1_m_767_28_alg».proof.Proof.Algebra
import Idealize.ShloMosaic.Adequacy
import Idealize.ShloMosaic.Init

noncomputable section

namespace Cert.Proof

open Idealize.ShloMosaic Idealize.ShloMosaic.TcCoe Idealize.SL.Sem Idealize.ShloMosaic.ValueIdx

variable [hK : Cert.Kernel.Facts] [hKI : Cert.KernelIdeal.Facts] [hRI : Cert.ReferenceIdeal.Facts] [hP : Cert.Pre_finite_inputs.Facts]

/-- The kernel, as printed, runs and keeps its arguments. -/
theorem frame_p : Cert.frame_Kernel := fun m ρ _ => Cert.Kernel.Body.frame (F := Bits) m ρ

/-- The idealised kernel runs and keeps its arguments. -/
theorem frame_pi : Cert.frame_KernelIdeal := fun m ρ _ => Cert.KernelIdeal.Body.frame (F := Ideal) m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments and satisfy the precondition, both programs end with the same array:
    the kernel's output is the specification's kernel form of its arguments; the reference's result is the reference
    form of the same arguments; the two forms agree under the precondition's facts. -/
theorem algebraic : Cert.algebraic_KernelIdeal_ReferenceIdeal := by
  intro m ρ m' ρ' hpre hagree
  refine ⟨fun c => Cert.KernelIdeal.Kv.kerArr m c, ?_, ?_⟩
  · refine (θ_run Cert.KernelIdeal.defs _ _).mono (fun r h c => ?_) (Cert.KernelIdeal.Body.run_main (F := Ideal) m ρ)
    exact ⟨((h c).1 7).trans (Cert.KernelIdeal.Kv.final m c),
      ((h c).1 4).trans (((Cert.KernelIdeal.Body.dats m 0 c).arrAt_in 4 rfl _).trans ((Cert.KernelIdeal.Body.A_eq m c 4).trans (Cert.KernelIdeal.Gen.V_main_arg0 m c))),
      ((h c).1 1).trans (((Cert.KernelIdeal.Body.dats m 0 c).arrAt_in 1 rfl _).trans ((Cert.KernelIdeal.Body.A_eq m c 1).trans (Cert.KernelIdeal.Gen.V_main_arg1 m c))),
      ((h c).1 0).trans (((Cert.KernelIdeal.Body.dats m 0 c).arrAt_in 0 rfl _).trans ((Cert.KernelIdeal.Body.A_eq m c 0).trans (Cert.KernelIdeal.Gen.V_main_arg2 m c))),
      ((h c).1 5).trans (((Cert.KernelIdeal.Body.dats m 0 c).arrAt_in 5 rfl _).trans ((Cert.KernelIdeal.Body.A_eq m c 5).trans (Cert.KernelIdeal.Gen.V_main_arg3 m c))),
      ((h c).2 Cert.KernelIdeal.main_arg4 (Pipeline.mem_restRefs_of Cert.KernelIdeal.main_arg4 (by decide) (by decide))).trans (Cert.KernelIdeal.Gen.V_main_arg4 m c),
      ((h c).1 2).trans (((Cert.KernelIdeal.Body.dats m 0 c).arrAt_in 2 rfl _).trans ((Cert.KernelIdeal.Body.A_eq m c 2).trans (Cert.KernelIdeal.Gen.V_main_arg5 m c))),
      ((h c).2 Cert.KernelIdeal.main_arg6 (Pipeline.mem_restRefs_of Cert.KernelIdeal.main_arg6 (by decide) (by decide))).trans (Cert.KernelIdeal.Gen.V_main_arg6 m c)⟩
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, hcs⟩ := Cert.PreFacts.of_pre _ _ _ _ _ _ _ (hpre c)
    rw [Cert.ReferenceIdeal.Read.val_main_v33_eq]
    obtain ⟨e0, e1, e2, e3, e4, e5, e6⟩ := hagree c
    rw [e0, e1, e2, e3, e4, e5, e6]
    funext y
    obtain ⟨p, q, rfl⟩ : ∃ (p : Fin 10000) (q : Fin 256), y = ix2 p q := ⟨y 0, y 1, eq_ix2 y⟩
    rw [Cert.RefValue.ref_eq]
    exact (Cert.Spec.kerO_eq_refO _ _ _ _ _ _ _ h0 h1 h2 h3 h4 h5 h6 hcs _
      (Cert.RefValue.refM_real _ _ _ _ _ _ h0 h1 h3 h4 h5 h6) p q).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
